-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1536 : Shape := ⟨2, ![131072, 1536]⟩
abbrev S131072 : Shape := ⟨1, ![131072]⟩
abbrev S64x1536 : Shape := ⟨2, ![64, 1536]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S131072x1536 : S_.BroadcastsInDim S131072x1536 (![] : Fin 0 → Fin S131072x1536.rank)
  reducesTo_S131072x1536_S_d0_1 : S131072x1536.ReducesTo [0, 1] S_
  h_S_ : 0 < S_.numel
  bcast_S_S64x1536 : S_.BroadcastsInDim S64x1536 (![] : Fin 0 → Fin S64x1536.rank)
  reducesTo_S64x1536_S_d0_1 : S64x1536.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S1x32 .f32) (main_arg7 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x32 .f32 := Host.absf main_arg6
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S131072x1536 .f32) (main_arg1 : IVec S131072 32) (main_arg2 : FVec F S64x1536 .f32) (main_arg3 : FVec F S64 .f32) (main_arg4 : FVec F S32x64 .f32) (main_arg5 : FVec F S32 .f32) (main_arg6 : FVec F S1x32 .f32) (main_arg7 : FVec F S1 .f32) : IVec S_ 1 :=
  let main_v0 : FVec F S131072x1536 .f32 := Host.absf main_arg0
  let main_cst : FVec F S_ .f32 := constant S_ .f32 0x7F800000#32
  let main_v1 : FVec F S131072x1536 .f32 := broadcastInDim S131072x1536 ![] bcast_S_S131072x1536 main_cst
  let main_v2 : IVec S131072x1536 1 := cmpf .olt main_v0 main_v1
  let main_c : IVec S_ 1 := constantI S_ 1 1#1
  let main_v3 : IVec S_ 1 := (fun x v => Host.reduce IntOp.andi x v reducesTo_S131072x1536_S_d0_1 h_S_) main_v2 main_c
  let main_v4 : FVec F S64x1536 .f32 := Host.absf main_arg2
  let main_cst_0 : FVec F S_ .f32 := constant S_ .f32 0x7F800000#32
  let main_v5 : FVec F S64x1536 .f32 := broadcastInDim S64x1536 ![] bcast_S_S64x1536 main_cst_0
  let main_v6 : IVec S64x1536 1 := cmpf .olt main_v4 main_v5
  let main_c_1 : IVec S_ 1 := constantI S_ 1 1#1
  let main_v7 : IVec S_ 1 := (fun x v => Host.reduce IntOp.andi x v reducesTo_S64x1536_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_v13 main_v16
-- ==== Kernel.lean ====
abbrev S131072x1536 : Shape := ⟨2, ![131072, 1536]⟩
abbrev S131072 : Shape := ⟨1, ![131072]⟩
abbrev S64x1536 : Shape := ⟨2, ![64, 1536]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S131072x1 : Shape := ⟨2, ![131072, 1]⟩
abbrev S2048x1536 : Shape := ⟨2, ![2048, 1536]⟩
abbrev S128x1536 : Shape := ⟨2, ![128, 1536]⟩
abbrev S128x1 : Shape := ⟨2, ![128, 1]⟩
abbrev S2048x128 : Shape := ⟨2, ![2048, 128]⟩
abbrev S128x2048 : Shape := ⟨2, ![128, 2048]⟩
abbrev S128x128 : Shape := ⟨2, ![128, 128]⟩
abbrev S2048 : Shape := ⟨1, ![2048]⟩
abbrev S2048x1 : Shape := ⟨2, ![2048, 1]⟩
abbrev S1x64 : Shape := ⟨2, ![1, 64]⟩
abbrev S1x1 : Shape := ⟨2, ![1, 1]⟩
abbrev S2048x64 : Shape := ⟨2, ![2048, 64]⟩
abbrev S2048x32 : Shape := ⟨2, ![2048, 32]⟩

abbrev nBuf : Space → Nat
  | .hbm => 15
  | .vmem => 14
  | .smem => 0
  | _ => 0

abbrev bufTy : (tb : Table) → Fin (tcTables nBuf tb) → BufTy
  | .hbm, ⟨0, _⟩ => ⟨S131072x1536, .f32⟩
  | .hbm, ⟨1, _⟩ => ⟨S131072, .i32⟩
  | .hbm, ⟨2, _⟩ => ⟨S64x1536, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1x32, .f32⟩
  | .hbm, ⟨7, _⟩ => ⟨S1, .f32⟩
  | .hbm, ⟨8, _⟩ => ⟨S131072x1, .i32⟩
  | .hbm, ⟨9, _⟩ => ⟨S2048x1536, .f32⟩
  | .hbm, ⟨10, _⟩ => ⟨S1x64, .f32⟩
  | .hbm, ⟨11, _⟩ => ⟨S1x32, .f32⟩
  | .hbm, ⟨12, _⟩ => ⟨S1x1, .f32⟩
  | .hbm, ⟨13, _⟩ => ⟨S2048x1, .f32⟩
  | .hbm, ⟨14, _⟩ => ⟨S2048, .f32⟩
  | .local _ .vmem, ⟨0, _⟩ => ⟨S128x1536, .f32⟩
  | .local _ .vmem, ⟨1, _⟩ => ⟨S128x1536, .f32⟩
  | .local _ .vmem, ⟨2, _⟩ => ⟨S128x1, .i32⟩
  | .local _ .vmem, ⟨3, _⟩ => ⟨S128x1, .i32⟩
  | .local _ .vmem, ⟨4, _⟩ => ⟨S2048x1536, .f32⟩
  | .local _ .vmem, ⟨5, _⟩ => ⟨S2048x128, .f32⟩
  | .local _ .vmem, ⟨6, _⟩ => ⟨S2048x1536, .f32⟩
  | .local _ .vmem, ⟨7, _⟩ => ⟨S64x1536, .f32⟩
  | .local _ .vmem, ⟨8, _⟩ => ⟨S1x64, .f32⟩
  | .local _ .vmem, ⟨9, _⟩ => ⟨S32x64, .f32⟩
  | .local _ .vmem, ⟨10, _⟩ => ⟨S1x32, .f32⟩
  | .local _ .vmem, ⟨11, _⟩ => ⟨S1x32, .f32⟩
  | .local _ .vmem, ⟨12, _⟩ => ⟨S1x1, .f32⟩
  | .local _ .vmem, ⟨13, _⟩ => ⟨S2048x1, .f32⟩
  | _, _ => ⟨S131072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  shapeCasts_S131072_S131072x1 : S131072.ShapeCasts S131072x1
  inb_S2048x1536_S2048x1536_0_0 : ∀ a, (![0, 0] : Fin 2 → Nat) a + S2048x1536.size a ≤ S2048x1536.size a
  h_S2048x1536 : 0 < S2048x1536.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1536_S128x1536_0_0 : ∀ a, (![0, 0] : Fin 2 → Nat) a + S128x1536.size a ≤ S128x1536.size a
  h_S128x1536 : 0 < S128x1536.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x2048_d1_w32 : S128x2048.Iotas .tc 32 [1]
  broadcasts_S128x1_S128x2048 : S128x1.Broadcasts S128x2048
  natLt_1_32 : 1 < 32
  shapeCasts_S2048x1536_S2048x1536 : S2048x1536.ShapeCasts S2048x1536
  reduces_S2048x128_S2048 : S2048x128.Reduces [1] S2048
  shapeCasts_S2048_S2048x1 : S2048.ShapeCasts S2048x1
  broadcasts_S2048x1_S2048x1536 : S2048x1.Broadcasts S2048x1536
  shapeCasts_S64_S1x64 : S64.ShapeCasts S1x64
  shapeCasts_S32_S1x32 : S32.ShapeCasts S1x32
  shapeCasts_S1_S1x1 : S1.ShapeCasts S1x1
  inb_S64x1536_S64x1536_0_0 : ∀ a, (![0, 0] : Fin 2 → Nat) a + S64x1536.size a ≤ S64x1536.size a
  h_S64x1536 : 0 < S64x1536.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  reduces_S2048x32_S2048 : S2048x32.Reduces [1] S2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  dot_S128x2048_S128x1536_S2048x1536_0_0_1_1_n_n_wf : DotDims.WF S128x2048 S128x1536 S2048x1536 [0] [0] [1] [1] [] []
  dot_S128x2048_S128x128_S2048x128_0_0_1_1_n_n_wf : DotDims.WF S128x2048 S128x128 S2048x128 [0] [0] [1] [1] [] []
  dot_S2048x1536_S64x1536_S2048x64_1_1_0_0_n_n_wf : DotDims.WF S2048x1536 S64x1536 S2048x64 [1] [1] [0] [0] [] []
  dot_S2048x64_S32x64_S2048x32_1_1_0_0_n_n_wf : DotDims.WF S2048x64 S32x64 S2048x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1536.size a ≤ S131072x1536.size a
  hwx0_0 : ∀ i : grid0.Coords, EltTy.bits .f32 = 32 ∨ (Rect.block (s := S131072x1536) S128x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S131072x1.size a
  hwx0_1 : ∀ i : grid0.Coords, EltTy.bits .i32 = 32 ∨ (Rect.block (s := S131072x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1536.size a ≤ S2048x1536.size a
  hwx0_2 : ∀ i : grid0.Coords, EltTy.bits .f32 = 32 ∨ (Rect.block (s := S2048x1536) S2048x1536.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x1536.size a ≤ S2048x1536.size a
  hwx1_0 : ∀ i : grid1.Coords, EltTy.bits .f32 = 32 ∨ (Rect.block (s := S2048x1536) S2048x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1536.size a ≤ S64x1536.size a
  hwx1_1 : ∀ i : grid1.Coords, EltTy.bits .f32 = 32 ∨ (Rect.block (s := S64x1536) S64x1536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x1.size a ≤ S2048x1.size a
  hwx1_7 : ∀ i : grid1.Coords, EltTy.bits .f32 = 32 ∨ (Rect.block (s := S2048x1) S2048x1.size (cc1_transform_7 i) (hinb1_7 i)).WholeWords (EltTy.packing .f32)

variable [Facts₀]

def dot_S128x2048_S128x1536_S2048x1536_0_0_1_1_n_n : DotDims S128x2048 S128x1536 S2048x1536 where
  lhsContracting := [0]
  rhsContracting := [0]
  lhsNonContracting := [1]
  rhsNonContracting := [1]
  lhsBatch := []
  rhsBatch := []
  wf := dot_S128x2048_S128x1536_S2048x1536_0_0_1_1_n_n_wf
def dot_S128x2048_S128x128_S2048x128_0_0_1_1_n_n : DotDims S128x2048 S128x128 S2048x128 where
  lhsContracting := [0]
  rhsContracting := [0]
  lhsNonContracting := [1]
  rhsNonContracting := [1]
  lhsBatch := []
  rhsBatch := []
  wf := dot_S128x2048_S128x128_S2048x128_0_0_1_1_n_n_wf
def dot_S2048x1536_S64x1536_S2048x64_1_1_0_0_n_n : DotDims S2048x1536 S64x1536 S2048x64 where
  lhsContracting := [1]
  rhsContracting := [1]
  lhsNonContracting := [0]
  rhsNonContracting := [0]
  lhsBatch := []
  rhsBatch := []
  wf := dot_S2048x1536_S64x1536_S2048x64_1_1_0_0_n_n_wf
def dot_S2048x64_S32x64_S2048x32_1_1_0_0_n_n : DotDims S2048x64 S32x64 S2048x32 where
  lhsContracting := [1]
  rhsContracting := [1]
  lhsNonContracting := [0]
  rhsNonContracting := [0]
  lhsBatch := []
  rhsBatch := []
  wf := dot_S2048x64_S32x64_S2048x32_1_1_0_0_n_n_wf

abbrev win0_0 : Pipeline.Window sig grid0 :=
  Pipeline.Window.ofSpec (Memref.whole main_arg0) S128x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1536.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2048x1536.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S2048x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S131072x1536 : Shape := ⟨2, ![131072, 1536]⟩
abbrev S131072 : Shape := ⟨1, ![131072]⟩
abbrev S64x1536 : Shape := ⟨2, ![64, 1536]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩
abbrev S2048x1536 : Shape := ⟨2, ![2048, 1536]⟩
abbrev S131072x1 : Shape := ⟨2, ![131072, 1]⟩
abbrev S2048 : Shape := ⟨1, ![2048]⟩
abbrev S2048x1 : Shape := ⟨2, ![2048, 1]⟩
abbrev S1536x64 : Shape := ⟨2, ![1536, 64]⟩
abbrev S2048x64 : Shape := ⟨2, ![2048, 64]⟩
abbrev S1x64 : Shape := ⟨2, ![1, 64]⟩
abbrev S64x32 : Shape := ⟨2, ![64, 32]⟩
abbrev S2048x32 : Shape := ⟨2, ![2048, 32]⟩
abbrev S32x1 : Shape := ⟨2, ![32, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S131072x1536, .f32⟩
  | .hbm, ⟨1, _⟩ => ⟨S131072, .i32⟩
  | .hbm, ⟨2, _⟩ => ⟨S64x1536, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1x32, .f32⟩
  | .hbm, ⟨7, _⟩ => ⟨S1, .f32⟩
  | .hbm, ⟨8, _⟩ => ⟨S_, .f32⟩
  | .hbm, ⟨9, _⟩ => ⟨S2048x1536, .f32⟩
  | .hbm, ⟨10, _⟩ => ⟨S131072x1, .i32⟩
  | .hbm, ⟨11, _⟩ => ⟨S2048x1536, .f32⟩
  | .hbm, ⟨12, _⟩ => ⟨S_, .f32⟩
  | .hbm, ⟨13, _⟩ => ⟨S131072, .f32⟩
  | .hbm, ⟨14, _⟩ => ⟨S_, .f32⟩
  | .hbm, ⟨15, _⟩ => ⟨S2048, .f32⟩
  | .hbm, ⟨16, _⟩ => ⟨S131072x1, .i32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048x1, .f32⟩
  | .hbm, ⟨22, _⟩ => ⟨S2048x1536, .f32⟩
  | .hbm, ⟨23, _⟩ => ⟨S2048x1536, .f32⟩
  | .hbm, ⟨24, _⟩ => ⟨S1536x64, .f32⟩
  | .hbm, ⟨25, _⟩ => ⟨S2048x64, .f32⟩
  | .hbm, ⟨26, _⟩ => ⟨S1x64, .f32⟩
  | .hbm, ⟨27, _⟩ => ⟨S2048x64, .f32⟩
  | .hbm, ⟨28, _⟩ => ⟨S2048x64, .f32⟩
  | .hbm, ⟨29, _⟩ => ⟨S_, .f32⟩
  | .hbm, ⟨30, _⟩ => ⟨S2048x64, .f32⟩
  | .hbm, ⟨31, _⟩ => ⟨S2048x64, .f32⟩
  | .hbm, ⟨32, _⟩ => ⟨S64x32, .f32⟩
  | .hbm, ⟨33, _⟩ => ⟨S2048x32, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S_, .f32⟩
  | .hbm, ⟨38, _⟩ => ⟨S2048x32, .f32⟩
  | .hbm, ⟨39, _⟩ => ⟨S2048x32, .f32⟩
  | .hbm, ⟨40, _⟩ => ⟨S32x1, .f32⟩
  | .hbm, ⟨41, _⟩ => ⟨S2048x1, .f32⟩
  | .hbm, ⟨42, _⟩ => ⟨S1x1, .f32⟩
  | .hbm, ⟨43, _⟩ => ⟨S2048x1, .f32⟩
  | .hbm, ⟨44, _⟩ => ⟨S2048x1, .f32⟩
  | .hbm, ⟨45, _⟩ => ⟨S2048, .f32⟩
  | _, _ => ⟨S131072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S2048x1536 : S_.BroadcastsInDim S2048x1536 (![] : Fin 0 → Fin S2048x1536.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1536_0_1 : S2048x1.BroadcastsInDim S2048x1536 (![0, 1] : Fin 2 → Fin S2048x1536.rank)
  transposes_S64x1536_S1536x64_1_0 : S64x1536.Transposes [1, 0] S1536x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  transposes_S32x64_S64x32_1_0 : S32x64.Transposes [1, 0] S64x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S1x32_S32x1_1_0 : S1x32.Transposes [1, 0] S32x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  scatter_S2048x1536_S131072x1_S131072x1536_1_0_0_1_wf : ScatterDims.WF S2048x1536 S131072x1 S131072x1536 [1] [0] [0] 1
  scatter_S2048_S131072x1_S131072_n_0_0_1_wf : ScatterDims.WF S2048 S131072x1 S131072 [] [0] [0] 1
  dot_S2048x1536_S1536x64_S2048x64_1_0_0_1_n_n_wf : DotDims.WF S2048x1536 S1536x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []

variable [Facts₀]

def scatter_S2048x1536_S131072x1_S131072x1536_1_0_0_1 : ScatterDims S2048x1536 S131072x1 S131072x1536 where
  updateWindowDims := [1]
  insertedWindowDims := [0]
  scatterDimsToOperandDims := [0]
  indexVectorDim := 1
  wf := scatter_S2048x1536_S131072x1_S131072x1536_1_0_0_1_wf
def scatter_S2048_S131072x1_S131072_n_0_0_1 : ScatterDims S2048 S131072x1 S131072 where
  updateWindowDims := []
  insertedWindowDims := [0]
  scatterDimsToOperandDims := [0]
  indexVectorDim := 1
  wf := scatter_S2048_S131072x1_S131072_n_0_0_1_wf
def dot_S2048x1536_S1536x64_S2048x64_1_0_0_1_n_n : DotDims S2048x1536 S1536x64 S2048x64 where
  lhsContracting := [1]
  rhsContracting := [0]
  lhsNonContracting := [0]
  rhsNonContracting := [1]
  lhsBatch := []
  rhsBatch := []
  wf := dot_S2048x1536_S1536x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.K.PoolRuns.lean ====
/-
  The first kernel call (pooling by segment) as a pipeline region, at a parameter `V`: the buffer contents when the
  region is entered. What the runs of its body share: the windows' blocks, the two branch conditions of the body
  decided over the 1024 grid points (the reset at the first point, the closing division at the last), the staging
  and scratch memrefs, and the region's invariant split at the one scratch buffer the kernel carries between points.
-/
import proofs.«426081_j76639396429977_2_alg».proof.Proof.Gen.Kernel.Launch
import proofs.«426081_j76639396429977_2_alg».proof.Proof.Gen.Kernel.Skeleton
import proofs.«426081_j76639396429977_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the segment words' tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first grid point": the reset of the sums and the counts. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point": the closing division. -/
abbrev cond0_1 (i : grid0.Coords) : Prop := (Scalar.cmpi .ne (Scalar.extui (Scalar.cmpi .eq (BitVec.ofNat 32 (i 0).val) 1023#32)) 0#32) = 1#1
theorem hcond0_1 : ∀ t : Fin cfg0.N, cond0_1 (grid0.coords t) ↔ t.val = 1023 :=
  (by decide +kernel : ∀ t : Fin grid0.N, cond0_1 (grid0.coords t) ↔ t.val = 1023)

/-! ## The memrefs the body is called on -/

/-- One staging buffer of the output window, through which its contents are stated. -/
abbrev VO0_2 : View sig .tc .vmem S2048x1536 .f32 := (Memref.whole cc0_stg2_0 : Memref sig .tc .vmem S2048x1536 .f32).view
abbrev ms0_0 (t : Fin cfg0.N) : Memref sig .tc .vmem S128x1536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1536 .f32 := win0_2.stage (cfg0.slots t 2)
abbrev hs0_2 (t : Fin cfg0.N) : (ms0_2 t).IsWhole := hstage0_2 ((cfg0.slots t 2).cast nbuf0_2)
/-- The scratch operand (the running counts): a whole scoped buffer of the kernel's own. -/
abbrev scM0 : Memref sig .tc .vmem S2048x128 .f32 := Memref.whole cc0_scratch0
abbrev VS0 : View sig .tc .vmem S2048x128 .f32 := (scM0 : Memref sig .tc .vmem S2048x128 .f32).view

/-- The core's other scoped buffers that are no staging buffer of this call: untouched by it, at some contents. -/
abbrev others0 (c : Dev nD) : sProp 𝕄 :=
  Pipeline.scopedRestBut (Ix := Unit) (Name := ℕ) (U := UR sig nD τ) (Lvl := ℕ) (Val := Elt F) spec0 c [cc0_scratch0]

/-- The class invariant split at the scratch: the scratch owned at some contents, the other scoped buffers, the
    generator register. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole]
  rfl

end Cert.Kernel.Fr

end
-- ==== Proof.K.PoolRunA.lean ====
/-
  The whole-body run of the first kernel at the first grid point: the reset is taken, the closing division is not. The sums' buffer and the counts' scratch are handed to the body at anything; the pieces its stores leave in each are found by running it.
-/
import proofs.«426081_j76639396429977_2_alg».proof.Proof.K.PoolRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's buffer (`L2`) and in the scratch (`LS0`), as pieces (last first), at
    the first point, with the proof that on whole memrefs — the two tiles at their contents, the output's and the
    scratch at anything — the body runs to the continuation holding the tiles as they were and the two buffers with
    those pieces written. -/
noncomputable def kernelRun0_A (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i)
    (x0 : Vec F S128x1536 .f32) (x1 : Vec F S128x1 .i32) :
    Σ' (L2 : List (View.Piece (Elt F) S2048x1536 .f32)), { LS0 : List (View.Piece (Elt F) S2048x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg1 harg1 arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.K.PoolRunB.lean ====
/-
  The whole-body run of the first kernel at a grid point that is neither the first nor the last: neither branch is taken; the tile is added to the running sums and its rows counted.
-/
import proofs.«426081_j76639396429977_2_alg».proof.Proof.K.PoolRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's buffer (`L2`) and in the scratch (`LS0`), as pieces (last first), in
    this case, with the proof that on whole memrefs — the two tiles at their contents, the output's buffer at what the
    point before left (`xo`), the scratch at what the point before left (`xs`) — the body runs to the continuation
    holding the tiles as they were and the two buffers with those pieces written. -/
noncomputable def kernelRun0_B (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i)
    (x0 : Vec F S128x1536 .f32) (x1 : Vec F S128x1 .i32) (xo : Vec F S2048x1536 .f32) (xs : Vec F S2048x128 .f32) :
    Σ' (L2 : List (View.Piece (Elt F) S2048x1536 .f32)), { LS0 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg1 harg1 arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.K.PoolRunC.lean ====
/-
  The whole-body run of the first kernel at the last grid point: the tile is added and counted, then the sums are divided by the counts.
-/
import proofs.«426081_j76639396429977_2_alg».proof.Proof.K.PoolRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's buffer (`L2`) and in the scratch (`LS0`), as pieces (last first), in
    this case, with the proof that on whole memrefs — the two tiles at their contents, the output's buffer at what the
    point before left (`xo`), the scratch at what the point before left (`xs`) — the body runs to the continuation
    holding the tiles as they were and the two buffers with those pieces written. -/
noncomputable def kernelRun0_C (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i)
    (x0 : Vec F S128x1536 .f32) (x1 : Vec F S128x1 .i32) (xo : Vec F S2048x1536 .f32) (xs : Vec F S2048x128 .f32) :
    Σ' (L2 : List (View.Piece (Elt F) S2048x1536 .f32)), { LS0 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg1 harg1 arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.K.PoolFrame.lean ====
/-
  The first kernel call as a pipeline region: what its output's buffer and its scratch hold after each grid point,
  the proof data, and the body obligation.

  The output window's block is the whole array at every point and is written back only after the last; the body
  resets it and the scratch at the first point, adds a tile to each at every point, and divides at the last. So after
  point n both hold what the case of point n computes from the point's two tiles and from what point n - 1 left: a
  recursion on the point (`outsAt0`). The region's invariant carries the scratch at that recursion's second component.
-/
import proofs.«426081_j76639396429977_2_alg».proof.Proof.K.PoolRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for the output's buffer cover it. -/
theorem cover0_A_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i) (x0 : Vec F S128x1536 .f32) (x1 : Vec F S128x1 .i32) (y : S2048x1536.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S2048x1536.size (by sl_kernel_rfl) y

/-- What case A leaves in the output's buffer: its pieces read back. -/
def out0_A_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i) (x0 : Vec F S128x1536 .f32) (x1 : Vec F S128x1 .i32) : Vec F S2048x1536 .f32 :=
  VO0_2.read (Elt F) (VO0_2.writes (Elt F) VO0_2.junk (kernelRun0_A c i arg1 harg1 arg2 harg2 arg3 harg3 arg4 harg4 hc0 hc1 x0 x1).1)

/-- Case A's pieces for the scratch cover it. -/
theorem scover0_A (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i) (x0 : Vec F S128x1536 .f32) (x1 : Vec F S128x1 .i32) (y : S2048x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S2048x128.size (by sl_kernel_rfl) y

/-- What case A leaves in the scratch: its pieces read back. -/
def sout0_A (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i) (x0 : Vec F S128x1536 .f32) (x1 : Vec F S128x1 .i32) : Vec F S2048x128 .f32 :=
  VS0.read (Elt F) (VS0.writes (Elt F) VS0.junk (kernelRun0_A c i arg1 harg1 arg2 harg2 arg3 harg3 arg4 harg4 hc0 hc1 x0 x1).2.1)

/-- Case B's pieces for the output's buffer cover it. -/
theorem cover0_B_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i) (x0 : Vec F S128x1536 .f32) (x1 : Vec F S128x1 .i32) (xo : Vec F S2048x1536 .f32) (xs : Vec F S2048x128 .f32) (y : S2048x1536.Idx) :
    ∃ pc ∈ (kernelRun0_B c i arg1 harg1 arg2 harg2 arg3 harg3 arg4 harg4 hc0 hc1 x0 x1 xo xs).1, y ∈ pc.1.set :=
  View.cover_of_tiledL (kernelRun0_B c i arg1 harg1 arg2 harg2 arg3 harg3 arg4 harg4 hc0 hc1 x0 x1 xo xs).1 S2048x1536.size (by sl_kernel_rfl) y

/-- What case B leaves in the output's buffer: its pieces read back. -/
def out0_B_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i) (x0 : Vec F S128x1536 .f32) (x1 : Vec F S128x1 .i32) (xo : Vec F S2048x1536 .f32) (xs : Vec F S2048x128 .f32) : Vec F S2048x1536 .f32 :=
  VO0_2.read (Elt F) (VO0_2.writes (Elt F) VO0_2.junk (kernelRun0_B c i arg1 harg1 arg2 harg2 arg3 harg3 arg4 harg4 hc0 hc1 x0 x1 xo xs).1)

/-- Case B's pieces for the scratch cover it. -/
theorem scover0_B (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i) (x0 : Vec F S128x1536 .f32) (x1 : Vec F S128x1 .i32) (xo : Vec F S2048x1536 .f32) (xs : Vec F S2048x128 .f32) (y : S2048x128.Idx) :
    ∃ pc ∈ (kernelRun0_B c i arg1 harg1 arg2 harg2 arg3 harg3 arg4 harg4 hc0 hc1 x0 x1 xo xs).2.1, y ∈ pc.1.set :=
  View.cover_of_tiledL (kernelRun0_B c i arg1 harg1 arg2 harg2 arg3 harg3 arg4 harg4 hc0 hc1 x0 x1 xo xs).2.1 S2048x128.size (by sl_kernel_rfl) y

/-- What case B leaves in the scratch: its pieces read back. -/
def sout0_B (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i) (x0 : Vec F S128x1536 .f32) (x1 : Vec F S128x1 .i32) (xo : Vec F S2048x1536 .f32) (xs : Vec F S2048x128 .f32) : Vec F S2048x128 .f32 :=
  VS0.read (Elt F) (VS0.writes (Elt F) VS0.junk (kernelRun0_B c i arg1 harg1 arg2 harg2 arg3 harg3 arg4 harg4 hc0 hc1 x0 x1 xo xs).2.1)

/-- Case C's pieces for the output's buffer cover it. -/
theorem cover0_C_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i) (x0 : Vec F S128x1536 .f32) (x1 : Vec F S128x1 .i32) (xo : Vec F S2048x1536 .f32) (xs : Vec F S2048x128 .f32) (y : S2048x1536.Idx) :
    ∃ pc ∈ (kernelRun0_C c i arg1 harg1 arg2 harg2 arg3 harg3 arg4 harg4 hc0 hc1 x0 x1 xo xs).1, y ∈ pc.1.set :=
  View.cover_of_tiledL (kernelRun0_C c i arg1 harg1 arg2 harg2 arg3 harg3 arg4 harg4 hc0 hc1 x0 x1 xo xs).1 S2048x1536.size (by sl_kernel_rfl) y

/-- What case C leaves in the output's buffer: its pieces read back. -/
def out0_C_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i) (x0 : Vec F S128x1536 .f32) (x1 : Vec F S128x1 .i32) (xo : Vec F S2048x1536 .f32) (xs : Vec F S2048x128 .f32) : Vec F S2048x1536 .f32 :=
  VO0_2.read (Elt F) (VO0_2.writes (Elt F) VO0_2.junk (kernelRun0_C c i arg1 harg1 arg2 harg2 arg3 harg3 arg4 harg4 hc0 hc1 x0 x1 xo xs).1)

/-- Case C's pieces for the scratch cover it. -/
theorem scover0_C (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i) (x0 : Vec F S128x1536 .f32) (x1 : Vec F S128x1 .i32) (xo : Vec F S2048x1536 .f32) (xs : Vec F S2048x128 .f32) (y : S2048x128.Idx) :
    ∃ pc ∈ (kernelRun0_C c i arg1 harg1 arg2 harg2 arg3 harg3 arg4 harg4 hc0 hc1 x0 x1 xo xs).2.1, y ∈ pc.1.set :=
  View.cover_of_tiledL (kernelRun0_C c i arg1 harg1 arg2 harg2 arg3 harg3 arg4 harg4 hc0 hc1 x0 x1 xo xs).2.1 S2048x128.size (by sl_kernel_rfl) y

/-- What case C leaves in the scratch: its pieces read back. -/
def sout0_C (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i) (x0 : Vec F S128x1536 .f32) (x1 : Vec F S128x1 .i32) (xo : Vec F S2048x1536 .f32) (xs : Vec F S2048x128 .f32) : Vec F S2048x128 .f32 :=
  VS0.read (Elt F) (VS0.writes (Elt F) VS0.junk (kernelRun0_C c i arg1 harg1 arg2 harg2 arg3 harg3 arg4 harg4 hc0 hc1 x0 x1 xo xs).2.1)

/-! ## What the two buffers hold after each point -/

/-- The output's buffer and the scratch after the body at position `n`: the first point's case from the tiles alone,
    a later point's from the tiles and what the point before left. -/
def outsAt0 (c : Dev nD) : (n : ℕ) → n < cfg0.N → Vec F S2048x1536 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩))
  | n + 1, hn =>
    if h1 : n + 1 = 1023 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).1 (outsAt0 c n (Nat.lt_of_succ_lt hn)).2,
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).1 (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2,
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2)

/-- At the first point: the reset case's contents. -/
theorem outsAt0_A (c : Dev nD) (t : Fin cfg0.N) (h0 : t.val = 0) :
    outsAt0 V c t.val t.isLt = (out0_A_2 c (grid0.coords t) (ms0_0 t) (hs0_0 t) (ms0_1 t) (hs0_1 t) (ms0_2 t) (hs0_2 t) scM0 (Memref.isWhole_whole _) ((hcond0_0 t).mpr h0) (fun h => by have h' := (hcond0_1 t).mp h; omega) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => by have h' := (hcond0_1 t).mp h; omega) (iblk0 V c 0 t) (iblk0 V c 1 t)) := by
  obtain ⟨n, hn⟩ := t
  cases n with
  | zero => exact rfl
  | succ n => exact absurd h0 (Nat.succ_ne_zero n)

/-- At a point neither first nor last: the adding case's contents, over what the point before left. -/
theorem outsAt0_B (c : Dev nD) (t : Fin cfg0.N) (h0 : ¬t.val = 0) (h1 : ¬t.val = 1023) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- At the last point: the dividing case's contents, over what the point before left. -/
theorem outsAt0_C (c : Dev nD) (t : Fin cfg0.N) (h0 : ¬t.val = 0) (h1 : t.val = 1023) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position `n`: at the region's entry the class invariant (the scratch at anything); afterwards the scratch at
    what the point before left, the other scoped buffers and the generator register. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The proof data of the first pipeline on core `c`: the arrays as the region finds them; after the body at point `t`
    each tile's buffer at its block and the output's at `outsAt0`'s first component; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first point the output's buffer holds what the body left at the point before: it is written back only
    after the last point, and the window is live and whole at every point. -/
theorem before0_2 (c : Dev nD) (t : Fin cfg0.N) (h0 : ¬t.val = 0) (d) :
    (dat0 V c).before 2 t d = (outsAt0 V c (t.val - 1) (Nat.lt_of_le_of_lt (Nat.sub_le _ _) t.isLt)).1 := by
  have hN : t.val < 1024 := lt_of_lt_of_eq t.isLt (show cfg0.N = 1024 from N_0)
  rw [Dat.before_out_kept _ 2 rfl t h0 (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the tiles' memrefs hold their blocks; the point's position says which case it is in; after
    the first point the output's buffer and the scratch hold what the point before left, so the case's run applies; the
    invariant takes the scratch back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [after0_0, after0_1, after0_2]
  have hN : t.val < 1024 := lt_of_lt_of_eq t.isLt (show cfg0.N = 1024 from N_0)
  by_cases h0 : t.val = 0
  · rw [outsAt0_A V c t h0]
    unfold out0_A_2 sout0_A; (try dsimp only)
    rw [PhiS_castSucc V c t, PhiS_zero V c _ _ h0, PhiA0_eq]
    iintro ⟨⟨⟨HS0, Hoth⟩, Hg⟩, Ho, ⟨%d0, H0⟩, ⟨%d1, H1⟩, ⟨%d2, H2⟩⟩
    iapply ((kernelRun0_A c (grid0.coords t) _ _ _ _ _ _ _ _ ((hcond0_0 t).mpr h0) (fun h => by have h' := (hcond0_1 t).mp h; omega) (iblk0 V c 0 t) (iblk0 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _ _)
  · simp only [before0_2 V c t h0]
    rw [PhiS_castSucc V c t, PhiS_pos V c _ _ h0]
    by_cases h1 : t.val = 1023
    · rw [outsAt0_C V c t h0 h1]
      unfold out0_C_2 sout0_C; (try dsimp only)
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _ _).2.2 Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _)
    · rw [outsAt0_B V c t h0 h1]
      unfold out0_B_2 sout0_B; (try dsimp only)
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _ _).2.2 Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class invariant back: the scratch's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 1024 := N_0; omega), PhiA0_eq]
  iintro ⟨⟨HS0, Hoth⟩, Hg⟩
  isplitl [HS0 Hoth]
  · isplitl [HS0]
    · iexists _; iexact HS0
    iexact Hoth
  iexact Hg

end Cert.Kernel.Fr

end
-- ==== Proof.K.MlpFrame.lean ====
/-
  The second kernel call (the three layers) as a pipeline region, at a parameter `V`: the buffer contents when the
  region is entered. Its grid has one point; every window's block is its whole array. The body loads its seven
  operands, computes, and stores one value into the output's buffer, which that store covers: after the body the
  output's buffer holds the payload of the loaded operands, whatever it held before.
-/
import proofs.«426081_j76639396429977_2_alg».proof.Proof.Gen.Kernel.Launch
import proofs.«426081_j76639396429977_2_alg».proof.Proof.Gen.Kernel.Skeleton
import proofs.«426081_j76639396429977_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at the one point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at the one point, for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at the one point, for any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at the one point, for any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at the one point, for any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at the one point, for any proof data whose array is `V`'s and
    whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at the one point, for any proof data whose array is `V`'s and
    whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store -/

abbrev rr_S2048x1536 : Rect S2048x1536 := Rect.unit (s := S2048x1536) ![0, 0] S2048x1536.size inb_S2048x1536_S2048x1536_0_0
abbrev rr_S64x1536 : Rect S64x1536 := Rect.unit (s := S64x1536) ![0, 0] S64x1536.size inb_S64x1536_S64x1536_0_0
abbrev rr_S1x64 : Rect S1x64 := Rect.unit (s := S1x64) ![0, 0] S1x64.size inb_S1x64_S1x64_0_0
abbrev rr_S32x64 : Rect S32x64 := Rect.unit (s := S32x64) ![0, 0] S32x64.size inb_S32x64_S32x64_0_0
abbrev rr_S1x32 : Rect S1x32 := Rect.unit (s := S1x32) ![0, 0] S1x32.size inb_S1x32_S1x32_0_0
abbrev rr_S1x1 : Rect S1x1 := Rect.unit (s := S1x1) ![0, 0] S1x1.size inb_S1x1_S1x1_0_0
abbrev rr_S2048x1 : Rect S2048x1 := Rect.unit (s := S2048x1) ![0, 0] S2048x1.size inb_S2048x1_S2048x1_0_0

/-- The output's buffer after the body: its one store, over the payload of the loaded operands. -/
def out1_7 (x0 : Vec F S2048x1536 .f32) (x1 : Vec F S64x1536 .f32) (x2 : Vec F S1x64 .f32) (x3 : Vec F S32x64 .f32) (x4 : Vec F S1x32 .f32) (x5 : Vec F S1x32 .f32) (x6 : Vec F S1x1 .f32) : Vec F S2048x1 .f32 :=
  View.canon [⟨rr_S2048x1, k1_pay1 (View.ld x0 rr_S2048x1536) (View.ld x1 rr_S64x1536) (View.ld x2 rr_S1x64) (View.ld x3 rr_S32x64) (View.ld x4 rr_S1x32) (View.ld x5 rr_S1x32) (View.ld x6 rr_S1x1)⟩]

/-- The store covers the buffer. -/
theorem cover1_7 (p0 : Vec F S2048x1 .f32) (y : S2048x1.Idx) :
    ∃ pc ∈ ([⟨rr_S2048x1, p0⟩] : List (View.Piece (Elt F) S2048x1 .f32)), y ∈ pc.1.set :=
  View.cover_of_tiled [⟨rr_S2048x1, p0⟩] S2048x1.size (by rfl) y

set_option maxHeartbeats 2000000 in
/-- The body on whole staging memrefs, the operands' at their contents and the output's at anything, runs to the
    continuation holding the operands' as they were and the output's at `out1_7` of them. -/
theorem sound_kernel1 (c : Dev nD) (i : grid1.Coords) (E : Set ℕ) (arg0 : Memref sig .tc .vmem S2048x1536 .f32) (harg0 : arg0.IsWhole) (arg1 : Memref sig .tc .vmem S64x1536 .f32) (harg1 : arg1.IsWhole) (arg2 : Memref sig .tc .vmem S1x64 .f32) (harg2 : arg2.IsWhole) (arg3 : Memref sig .tc .vmem S32x64 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x1 .f32) (harg6 : arg6.IsWhole) (arg7 : Memref sig .tc .vmem S2048x1 .f32) (harg7 : arg7.IsWhole)
    (x0 : Vec F S2048x1536 .f32) (x1 : Vec F S64x1536 .f32) (x2 : Vec F S1x64 .f32) (x3 : Vec F S32x64 .f32) (x4 : Vec F S1x32 .f32) (x5 : Vec F S1x32 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_kernel i arg0 harg0 arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The proof data -/

/-- The proof data of the second pipeline on core `c`: the arrays as the region finds them; after the body each
    operand's buffer at its block and the output's at `out1_7` of the blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at the point: the operands' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c (grid1.coords t) Set.univ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The program's run: @main is a stretch of host operations, the pooling call, a stretch, the layers' call, a last
  stretch. The buffer contents at each boundary are a fold from the launch memory — a stretch's operations applied, a
  region's arrays at what its write-backs leave —; the thread state between two items is "every unscoped buffer at the
  boundary's contents, the generator register at some state, nothing owed". Every weakly fair execution terminates with
  every unscoped buffer at the last boundary's contents (`run_all`); read at the argument arrays these are the launch
  contents (`frame`), and at the result the last reshape of what the second call's write-back leaves.
-/
import proofs.«426081_j76639396429977_2_alg».proof.Proof.K.PoolFrame
import proofs.«426081_j76639396429977_2_alg».proof.Proof.K.MlpFrame
import proofs.«426081_j76639396429977_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first stretch (the pooling call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the pooling call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the layers' call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the layers' call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch: the contents at the return. -/
abbrev W5 : Dev nD → Valuation τ sig (Elt F) := fun c => StableHlo.after hostOps2 (W4 m c)

/-! ## The arguments end as launched -/

/-- `main_arg0` reaches the end as launched: no host operation writes it and no region changes it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- `main_arg1` reaches the end as launched: no host operation writes it and no region changes it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` reaches the end as launched: no host operation writes it and no region changes it. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := (W4_arr m c 1).trans (((dat1 (V3 m) c).arrAt_in 1 rfl _).trans (A_eq1 (V3 m) c 1))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it and no region changes it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it and no region changes it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := (W4_arr m c 3).trans (((dat1 (V3 m) c).arrAt_in 3 rfl _).trans (A_eq1 (V3 m) c 3))
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it and no region changes it. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host operation writes it and no region changes it. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := (W4_arr m c 5).trans (((dat1 (V3 m) c).arrAt_in 5 rfl _).trans (A_eq1 (V3 m) c 5))
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` reaches the end as launched: no host operation writes it and no region changes it. -/
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩) (run_all m ρ)

end Cert.Kernel.Fr

end
-- ==== Proof.KI.PoolRuns.lean ====
/-
  The first kernel call (pooling by segment) as a pipeline region, at a parameter `V`: the buffer contents when the
  region is entered. What the runs of its body share: the windows' blocks, the two branch conditions of the body
  decided over the 1024 grid points (the reset at the first point, the closing division at the last), the staging
  and scratch memrefs, and the region's invariant split at the one scratch buffer the kernel carries between points.
-/
import proofs.«426081_j76639396429977_2_alg».proof.Proof.Gen.KernelIdeal.Launch
import proofs.«426081_j76639396429977_2_alg».proof.Proof.Gen.KernelIdeal.Skeleton
import proofs.«426081_j76639396429977_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the segment words' tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first grid point": the reset of the sums and the counts. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point": the closing division. -/
abbrev cond0_1 (i : grid0.Coords) : Prop := (Scalar.cmpi .ne (Scalar.extui (Scalar.cmpi .eq (BitVec.ofNat 32 (i 0).val) 1023#32)) 0#32) = 1#1
theorem hcond0_1 : ∀ t : Fin cfg0.N, cond0_1 (grid0.coords t) ↔ t.val = 1023 :=
  (by decide +kernel : ∀ t : Fin grid0.N, cond0_1 (grid0.coords t) ↔ t.val = 1023)

/-! ## The memrefs the body is called on -/

/-- One staging buffer of the output window, through which its contents are stated. -/
abbrev VO0_2 : View sig .tc .vmem S2048x1536 .f32 := (Memref.whole cc0_stg2_0 : Memref sig .tc .vmem S2048x1536 .f32).view
abbrev ms0_0 (t : Fin cfg0.N) : Memref sig .tc .vmem S128x1536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1536 .f32 := win0_2.stage (cfg0.slots t 2)
abbrev hs0_2 (t : Fin cfg0.N) : (ms0_2 t).IsWhole := hstage0_2 ((cfg0.slots t 2).cast nbuf0_2)
/-- The scratch operand (the running counts): a whole scoped buffer of the kernel's own. -/
abbrev scM0 : Memref sig .tc .vmem S2048x128 .f32 := Memref.whole cc0_scratch0
abbrev VS0 : View sig .tc .vmem S2048x128 .f32 := (scM0 : Memref sig .tc .vmem S2048x128 .f32).view

/-- The core's other scoped buffers that are no staging buffer of this call: untouched by it, at some contents. -/
abbrev others0 (c : Dev nD) : sProp 𝕄 :=
  Pipeline.scopedRestBut (Ix := Unit) (Name := ℕ) (U := UR sig nD τ) (Lvl := ℕ) (Val := Elt F) spec0 c [cc0_scratch0]

/-- The class invariant split at the scratch: the scratch owned at some contents, the other scoped buffers, the
    generator register. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole]
  rfl

end Cert.KernelIdeal.Fr

end
-- ==== Proof.KI.PoolRunA.lean ====
/-
  The whole-body run of the first kernel at the first grid point: the reset is taken, the closing division is not. The sums' buffer and the counts' scratch are handed to the body at anything; the pieces its stores leave in each are found by running it.
-/
import proofs.«426081_j76639396429977_2_alg».proof.Proof.KI.PoolRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's buffer (`L2`) and in the scratch (`LS0`), as pieces (last first), at
    the first point, with the proof that on whole memrefs — the two tiles at their contents, the output's and the
    scratch at anything — the body runs to the continuation holding the tiles as they were and the two buffers with
    those pieces written. -/
noncomputable def kernelRun0_A (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i)
    (x0 : Vec F S128x1536 .f32) (x1 : Vec F S128x1 .i32) :
    Σ' (L2 : List (View.Piece (Elt F) S2048x1536 .f32)), { LS0 : List (View.Piece (Elt F) S2048x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg1 harg1 arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KI.PoolRunB.lean ====
/-
  The whole-body run of the first kernel at a grid point that is neither the first nor the last: neither branch is taken; the tile is added to the running sums and its rows counted.
-/
import proofs.«426081_j76639396429977_2_alg».proof.Proof.KI.PoolRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's buffer (`L2`) and in the scratch (`LS0`), as pieces (last first), in
    this case, with the proof that on whole memrefs — the two tiles at their contents, the output's buffer at what the
    point before left (`xo`), the scratch at what the point before left (`xs`) — the body runs to the continuation
    holding the tiles as they were and the two buffers with those pieces written. -/
noncomputable def kernelRun0_B (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i)
    (x0 : Vec F S128x1536 .f32) (x1 : Vec F S128x1 .i32) (xo : Vec F S2048x1536 .f32) (xs : Vec F S2048x128 .f32) :
    Σ' (L2 : List (View.Piece (Elt F) S2048x1536 .f32)), { LS0 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg1 harg1 arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KI.PoolRunC.lean ====
/-
  The whole-body run of the first kernel at the last grid point: the tile is added and counted, then the sums are divided by the counts.
-/
import proofs.«426081_j76639396429977_2_alg».proof.Proof.KI.PoolRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's buffer (`L2`) and in the scratch (`LS0`), as pieces (last first), in
    this case, with the proof that on whole memrefs — the two tiles at their contents, the output's buffer at what the
    point before left (`xo`), the scratch at what the point before left (`xs`) — the body runs to the continuation
    holding the tiles as they were and the two buffers with those pieces written. -/
noncomputable def kernelRun0_C (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i)
    (x0 : Vec F S128x1536 .f32) (x1 : Vec F S128x1 .i32) (xo : Vec F S2048x1536 .f32) (xs : Vec F S2048x128 .f32) :
    Σ' (L2 : List (View.Piece (Elt F) S2048x1536 .f32)), { LS0 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg1 harg1 arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KI.PoolFrame.lean ====
/-
  The first kernel call as a pipeline region: what its output's buffer and its scratch hold after each grid point,
  the proof data, and the body obligation.

  The output window's block is the whole array at every point and is written back only after the last; the body
  resets it and the scratch at the first point, adds a tile to each at every point, and divides at the last. So after
  point n both hold what the case of point n computes from the point's two tiles and from what point n - 1 left: a
  recursion on the point (`outsAt0`). The region's invariant carries the scratch at that recursion's second component.
-/
import proofs.«426081_j76639396429977_2_alg».proof.Proof.KI.PoolRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for the output's buffer cover it. -/
theorem cover0_A_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i) (x0 : Vec F S128x1536 .f32) (x1 : Vec F S128x1 .i32) (y : S2048x1536.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S2048x1536.size (by sl_kernel_rfl) y

/-- What case A leaves in the output's buffer: its pieces read back. -/
def out0_A_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i) (x0 : Vec F S128x1536 .f32) (x1 : Vec F S128x1 .i32) : Vec F S2048x1536 .f32 :=
  VO0_2.read (Elt F) (VO0_2.writes (Elt F) VO0_2.junk (kernelRun0_A c i arg1 harg1 arg2 harg2 arg3 harg3 arg4 harg4 hc0 hc1 x0 x1).1)

/-- Case A's pieces for the scratch cover it. -/
theorem scover0_A (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i) (x0 : Vec F S128x1536 .f32) (x1 : Vec F S128x1 .i32) (y : S2048x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S2048x128.size (by sl_kernel_rfl) y

/-- What case A leaves in the scratch: its pieces read back. -/
def sout0_A (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : cond0_0 i) (hc1 : ¬cond0_1 i) (x0 : Vec F S128x1536 .f32) (x1 : Vec F S128x1 .i32) : Vec F S2048x128 .f32 :=
  VS0.read (Elt F) (VS0.writes (Elt F) VS0.junk (kernelRun0_A c i arg1 harg1 arg2 harg2 arg3 harg3 arg4 harg4 hc0 hc1 x0 x1).2.1)

/-- Case B's pieces for the output's buffer cover it. -/
theorem cover0_B_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i) (x0 : Vec F S128x1536 .f32) (x1 : Vec F S128x1 .i32) (xo : Vec F S2048x1536 .f32) (xs : Vec F S2048x128 .f32) (y : S2048x1536.Idx) :
    ∃ pc ∈ (kernelRun0_B c i arg1 harg1 arg2 harg2 arg3 harg3 arg4 harg4 hc0 hc1 x0 x1 xo xs).1, y ∈ pc.1.set :=
  View.cover_of_tiledL (kernelRun0_B c i arg1 harg1 arg2 harg2 arg3 harg3 arg4 harg4 hc0 hc1 x0 x1 xo xs).1 S2048x1536.size (by sl_kernel_rfl) y

/-- What case B leaves in the output's buffer: its pieces read back. -/
def out0_B_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i) (x0 : Vec F S128x1536 .f32) (x1 : Vec F S128x1 .i32) (xo : Vec F S2048x1536 .f32) (xs : Vec F S2048x128 .f32) : Vec F S2048x1536 .f32 :=
  VO0_2.read (Elt F) (VO0_2.writes (Elt F) VO0_2.junk (kernelRun0_B c i arg1 harg1 arg2 harg2 arg3 harg3 arg4 harg4 hc0 hc1 x0 x1 xo xs).1)

/-- Case B's pieces for the scratch cover it. -/
theorem scover0_B (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i) (x0 : Vec F S128x1536 .f32) (x1 : Vec F S128x1 .i32) (xo : Vec F S2048x1536 .f32) (xs : Vec F S2048x128 .f32) (y : S2048x128.Idx) :
    ∃ pc ∈ (kernelRun0_B c i arg1 harg1 arg2 harg2 arg3 harg3 arg4 harg4 hc0 hc1 x0 x1 xo xs).2.1, y ∈ pc.1.set :=
  View.cover_of_tiledL (kernelRun0_B c i arg1 harg1 arg2 harg2 arg3 harg3 arg4 harg4 hc0 hc1 x0 x1 xo xs).2.1 S2048x128.size (by sl_kernel_rfl) y

/-- What case B leaves in the scratch: its pieces read back. -/
def sout0_B (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : ¬cond0_1 i) (x0 : Vec F S128x1536 .f32) (x1 : Vec F S128x1 .i32) (xo : Vec F S2048x1536 .f32) (xs : Vec F S2048x128 .f32) : Vec F S2048x128 .f32 :=
  VS0.read (Elt F) (VS0.writes (Elt F) VS0.junk (kernelRun0_B c i arg1 harg1 arg2 harg2 arg3 harg3 arg4 harg4 hc0 hc1 x0 x1 xo xs).2.1)

/-- Case C's pieces for the output's buffer cover it. -/
theorem cover0_C_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i) (x0 : Vec F S128x1536 .f32) (x1 : Vec F S128x1 .i32) (xo : Vec F S2048x1536 .f32) (xs : Vec F S2048x128 .f32) (y : S2048x1536.Idx) :
    ∃ pc ∈ (kernelRun0_C c i arg1 harg1 arg2 harg2 arg3 harg3 arg4 harg4 hc0 hc1 x0 x1 xo xs).1, y ∈ pc.1.set :=
  View.cover_of_tiledL (kernelRun0_C c i arg1 harg1 arg2 harg2 arg3 harg3 arg4 harg4 hc0 hc1 x0 x1 xo xs).1 S2048x1536.size (by sl_kernel_rfl) y

/-- What case C leaves in the output's buffer: its pieces read back. -/
def out0_C_2 (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i) (x0 : Vec F S128x1536 .f32) (x1 : Vec F S128x1 .i32) (xo : Vec F S2048x1536 .f32) (xs : Vec F S2048x128 .f32) : Vec F S2048x1536 .f32 :=
  VO0_2.read (Elt F) (VO0_2.writes (Elt F) VO0_2.junk (kernelRun0_C c i arg1 harg1 arg2 harg2 arg3 harg3 arg4 harg4 hc0 hc1 x0 x1 xo xs).1)

/-- Case C's pieces for the scratch cover it. -/
theorem scover0_C (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i) (x0 : Vec F S128x1536 .f32) (x1 : Vec F S128x1 .i32) (xo : Vec F S2048x1536 .f32) (xs : Vec F S2048x128 .f32) (y : S2048x128.Idx) :
    ∃ pc ∈ (kernelRun0_C c i arg1 harg1 arg2 harg2 arg3 harg3 arg4 harg4 hc0 hc1 x0 x1 xo xs).2.1, y ∈ pc.1.set :=
  View.cover_of_tiledL (kernelRun0_C c i arg1 harg1 arg2 harg2 arg3 harg3 arg4 harg4 hc0 hc1 x0 x1 xo xs).2.1 S2048x128.size (by sl_kernel_rfl) y

/-- What case C leaves in the scratch: its pieces read back. -/
def sout0_C (c : Dev nD) (i : grid0.Coords) (arg1 : Memref sig .tc .vmem S128x1536 .f32) (harg1 : arg1.IsWhole) (arg2 : Memref sig .tc .vmem S128x1 .i32) (harg2 : arg2.IsWhole) (arg3 : Memref sig .tc .vmem S2048x1536 .f32) (harg3 : arg3.IsWhole) (arg4 : Memref sig .tc .vmem S2048x128 .f32) (harg4 : arg4.IsWhole) (hc0 : ¬cond0_0 i) (hc1 : cond0_1 i) (x0 : Vec F S128x1536 .f32) (x1 : Vec F S128x1 .i32) (xo : Vec F S2048x1536 .f32) (xs : Vec F S2048x128 .f32) : Vec F S2048x128 .f32 :=
  VS0.read (Elt F) (VS0.writes (Elt F) VS0.junk (kernelRun0_C c i arg1 harg1 arg2 harg2 arg3 harg3 arg4 harg4 hc0 hc1 x0 x1 xo xs).2.1)

/-! ## What the two buffers hold after each point -/

/-- The output's buffer and the scratch after the body at position `n`: the first point's case from the tiles alone,
    a later point's from the tiles and what the point before left. -/
def outsAt0 (c : Dev nD) : (n : ℕ) → n < cfg0.N → Vec F S2048x1536 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩))
  | n + 1, hn =>
    if h1 : n + 1 = 1023 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).1 (outsAt0 c n (Nat.lt_of_succ_lt hn)).2,
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).1 (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2,
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2)

/-- At the first point: the reset case's contents. -/
theorem outsAt0_A (c : Dev nD) (t : Fin cfg0.N) (h0 : t.val = 0) :
    outsAt0 V c t.val t.isLt = (out0_A_2 c (grid0.coords t) (ms0_0 t) (hs0_0 t) (ms0_1 t) (hs0_1 t) (ms0_2 t) (hs0_2 t) scM0 (Memref.isWhole_whole _) ((hcond0_0 t).mpr h0) (fun h => by have h' := (hcond0_1 t).mp h; omega) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => by have h' := (hcond0_1 t).mp h; omega) (iblk0 V c 0 t) (iblk0 V c 1 t)) := by
  obtain ⟨n, hn⟩ := t
  cases n with
  | zero => exact rfl
  | succ n => exact absurd h0 (Nat.succ_ne_zero n)

/-- At a point neither first nor last: the adding case's contents, over what the point before left. -/
theorem outsAt0_B (c : Dev nD) (t : Fin cfg0.N) (h0 : ¬t.val = 0) (h1 : ¬t.val = 1023) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- At the last point: the dividing case's contents, over what the point before left. -/
theorem outsAt0_C (c : Dev nD) (t : Fin cfg0.N) (h0 : ¬t.val = 0) (h1 : t.val = 1023) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position `n`: at the region's entry the class invariant (the scratch at anything); afterwards the scratch at
    what the point before left, the other scoped buffers and the generator register. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The proof data of the first pipeline on core `c`: the arrays as the region finds them; after the body at point `t`
    each tile's buffer at its block and the output's at `outsAt0`'s first component; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first point the output's buffer holds what the body left at the point before: it is written back only
    after the last point, and the window is live and whole at every point. -/
theorem before0_2 (c : Dev nD) (t : Fin cfg0.N) (h0 : ¬t.val = 0) (d) :
    (dat0 V c).before 2 t d = (outsAt0 V c (t.val - 1) (Nat.lt_of_le_of_lt (Nat.sub_le _ _) t.isLt)).1 := by
  have hN : t.val < 1024 := lt_of_lt_of_eq t.isLt (show cfg0.N = 1024 from N_0)
  rw [Dat.before_out_kept _ 2 rfl t h0 (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the tiles' memrefs hold their blocks; the point's position says which case it is in; after
    the first point the output's buffer and the scratch hold what the point before left, so the case's run applies; the
    invariant takes the scratch back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [after0_0, after0_1, after0_2]
  have hN : t.val < 1024 := lt_of_lt_of_eq t.isLt (show cfg0.N = 1024 from N_0)
  by_cases h0 : t.val = 0
  · rw [outsAt0_A V c t h0]
    unfold out0_A_2 sout0_A; (try dsimp only)
    rw [PhiS_castSucc V c t, PhiS_zero V c _ _ h0, PhiA0_eq]
    iintro ⟨⟨⟨HS0, Hoth⟩, Hg⟩, Ho, ⟨%d0, H0⟩, ⟨%d1, H1⟩, ⟨%d2, H2⟩⟩
    iapply ((kernelRun0_A c (grid0.coords t) _ _ _ _ _ _ _ _ ((hcond0_0 t).mpr h0) (fun h => by have h' := (hcond0_1 t).mp h; omega) (iblk0 V c 0 t) (iblk0 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _ _)
  · simp only [before0_2 V c t h0]
    rw [PhiS_castSucc V c t, PhiS_pos V c _ _ h0]
    by_cases h1 : t.val = 1023
    · rw [outsAt0_C V c t h0 h1]
      unfold out0_C_2 sout0_C; (try dsimp only)
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _ _).2.2 Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _)
    · rw [outsAt0_B V c t h0 h1]
      unfold out0_B_2 sout0_B; (try dsimp only)
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _ _).2.2 Set.univ _)
      isplitl [H0]; · iexact H0
      isplitl [H1]; · iexact H1
      isplitl [H2]; · iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class invariant back: the scratch's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 1024 := N_0; omega), PhiA0_eq]
  iintro ⟨⟨HS0, Hoth⟩, Hg⟩
  isplitl [HS0 Hoth]
  · isplitl [HS0]
    · iexists _; iexact HS0
    iexact Hoth
  iexact Hg

end Cert.KernelIdeal.Fr

end
-- ==== Proof.KI.MlpFrame.lean ====
/-
  The second kernel call (the three layers) as a pipeline region, at a parameter `V`: the buffer contents when the
  region is entered. Its grid has one point; every window's block is its whole array. The body loads its seven
  operands, computes, and stores one value into the output's buffer, which that store covers: after the body the
  output's buffer holds the payload of the loaded operands, whatever it held before.
-/
import proofs.«426081_j76639396429977_2_alg».proof.Proof.Gen.KernelIdeal.Launch
import proofs.«426081_j76639396429977_2_alg».proof.Proof.Gen.KernelIdeal.Skeleton
import proofs.«426081_j76639396429977_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at the one point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at the one point, for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at the one point, for any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at the one point, for any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at the one point, for any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at the one point, for any proof data whose array is `V`'s and
    whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at the one point, for any proof data whose array is `V`'s and
    whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store -/

abbrev rr_S2048x1536 : Rect S2048x1536 := Rect.unit (s := S2048x1536) ![0, 0] S2048x1536.size inb_S2048x1536_S2048x1536_0_0
abbrev rr_S64x1536 : Rect S64x1536 := Rect.unit (s := S64x1536) ![0, 0] S64x1536.size inb_S64x1536_S64x1536_0_0
abbrev rr_S1x64 : Rect S1x64 := Rect.unit (s := S1x64) ![0, 0] S1x64.size inb_S1x64_S1x64_0_0
abbrev rr_S32x64 : Rect S32x64 := Rect.unit (s := S32x64) ![0, 0] S32x64.size inb_S32x64_S32x64_0_0
abbrev rr_S1x32 : Rect S1x32 := Rect.unit (s := S1x32) ![0, 0] S1x32.size inb_S1x32_S1x32_0_0
abbrev rr_S1x1 : Rect S1x1 := Rect.unit (s := S1x1) ![0, 0] S1x1.size inb_S1x1_S1x1_0_0
abbrev rr_S2048x1 : Rect S2048x1 := Rect.unit (s := S2048x1) ![0, 0] S2048x1.size inb_S2048x1_S2048x1_0_0

/-- The output's buffer after the body: its one store, over the payload of the loaded operands. -/
def out1_7 (x0 : Vec F S2048x1536 .f32) (x1 : Vec F S64x1536 .f32) (x2 : Vec F S1x64 .f32) (x3 : Vec F S32x64 .f32) (x4 : Vec F S1x32 .f32) (x5 : Vec F S1x32 .f32) (x6 : Vec F S1x1 .f32) : Vec F S2048x1 .f32 :=
  View.canon [⟨rr_S2048x1, k1_pay1 (View.ld x0 rr_S2048x1536) (View.ld x1 rr_S64x1536) (View.ld x2 rr_S1x64) (View.ld x3 rr_S32x64) (View.ld x4 rr_S1x32) (View.ld x5 rr_S1x32) (View.ld x6 rr_S1x1)⟩]

/-- The store covers the buffer. -/
theorem cover1_7 (p0 : Vec F S2048x1 .f32) (y : S2048x1.Idx) :
    ∃ pc ∈ ([⟨rr_S2048x1, p0⟩] : List (View.Piece (Elt F) S2048x1 .f32)), y ∈ pc.1.set :=
  View.cover_of_tiled [⟨rr_S2048x1, p0⟩] S2048x1.size (by rfl) y

set_option maxHeartbeats 2000000 in
/-- The body on whole staging memrefs, the operands' at their contents and the output's at anything, runs to the
    continuation holding the operands' as they were and the output's at `out1_7` of them. -/
theorem sound_kernel1 (c : Dev nD) (i : grid1.Coords) (E : Set ℕ) (arg0 : Memref sig .tc .vmem S2048x1536 .f32) (harg0 : arg0.IsWhole) (arg1 : Memref sig .tc .vmem S64x1536 .f32) (harg1 : arg1.IsWhole) (arg2 : Memref sig .tc .vmem S1x64 .f32) (harg2 : arg2.IsWhole) (arg3 : Memref sig .tc .vmem S32x64 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x1 .f32) (harg6 : arg6.IsWhole) (arg7 : Memref sig .tc .vmem S2048x1 .f32) (harg7 : arg7.IsWhole)
    (x0 : Vec F S2048x1536 .f32) (x1 : Vec F S64x1536 .f32) (x2 : Vec F S1x64 .f32) (x3 : Vec F S32x64 .f32) (x4 : Vec F S1x32 .f32) (x5 : Vec F S1x32 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_kernel i arg0 harg0 arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The proof data -/

/-- The proof data of the second pipeline on core `c`: the arrays as the region finds them; after the body each
    operand's buffer at its block and the output's at `out1_7` of the blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at the point: the operands' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c (grid1.coords t) Set.univ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The program's run: @main is a stretch of host operations, the pooling call, a stretch, the layers' call, a last
  stretch. The buffer contents at each boundary are a fold from the launch memory — a stretch's operations applied, a
  region's arrays at what its write-backs leave —; the thread state between two items is "every unscoped buffer at the
  boundary's contents, the generator register at some state, nothing owed". Every weakly fair execution terminates with
  every unscoped buffer at the last boundary's contents (`run_all`); read at the argument arrays these are the launch
  contents (`frame`), and at the result the last reshape of what the second call's write-back leaves.
-/
import proofs.«426081_j76639396429977_2_alg».proof.Proof.KI.PoolFrame
import proofs.«426081_j76639396429977_2_alg».proof.Proof.KI.MlpFrame
import proofs.«426081_j76639396429977_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first stretch (the pooling call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the pooling call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the layers' call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the layers' call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch: the contents at the return. -/
abbrev W5 : Dev nD → Valuation τ sig (Elt F) := fun c => StableHlo.after hostOps2 (W4 m c)

/-! ## The arguments end as launched -/

/-- `main_arg0` reaches the end as launched: no host operation writes it and no region changes it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- `main_arg1` reaches the end as launched: no host operation writes it and no region changes it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` reaches the end as launched: no host operation writes it and no region changes it. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := (W4_arr m c 1).trans (((dat1 (V3 m) c).arrAt_in 1 rfl _).trans (A_eq1 (V3 m) c 1))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it and no region changes it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it and no region changes it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := (W4_arr m c 3).trans (((dat1 (V3 m) c).arrAt_in 3 rfl _).trans (A_eq1 (V3 m) c 3))
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it and no region changes it. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host operation writes it and no region changes it. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := (W4_arr m c 5).trans (((dat1 (V3 m) c).arrAt_in 5 rfl _).trans (A_eq1 (V3 m) c 5))
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` reaches the end as launched: no host operation writes it and no region changes it. -/
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩) (run_all m ρ)

end Cert.KernelIdeal.Fr

end
-- ==== Proof.GlueHost.lean ====
/-
  The buffers the two kernel calls are entered with and the result array, traced back to the launch memory: the
  arguments reach each call unchanged, a reshaped argument entry by entry, the first call's output array reaches the
  second call as its write-back left it, and the result is the second call's output array reshaped.
-/
import proofs.«426081_j76639396429977_2_alg».proof.Proof.KI.Run
import Idealize.ShloMosaic.Lib.Pipeline.Value
import Idealize.ShloMosaic.Lib.StableHlo.Run
import Idealize.ShloMosaic.Lib.ValueIdx

set_option maxRecDepth 16384

noncomputable section

namespace Cert.KernelIdeal.Glue

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-! ## The pooling call's entry -/

theorem V1_arg0 (c : Dev nD) : Fr.V1 m c main_arg0 = m ((c : Thread nD τ).loc main_arg0) :=
  StableHlo.after_of_writes_sub hostOps0 _ hostOps0_writes (r := main_arg0) (by decide)

theorem V1_v0 (c : Dev nD) : (Fr.V1 m c main_v0 : S131072x1.Idx → Elt F .i32) = shapeCast S131072x1 (m ((c : Thread nD τ).loc main_arg1)) shapeCasts_S131072_S131072x1 := by
  show StableHlo.after hostOps0 (fun b => m (c, b)) (Proc.devRef .tc main_v0) = _
  after_results
  rfl

/-- The reshaped segment words, row by row. -/
theorem V1_v0_at (c : Dev nD) (n : Fin 131072) : Fr.V1 m c main_v0 (ix2 n (0 : Fin 1)) = m ((c : Thread nD τ).loc main_arg1) (ix1 n) := by
  rw [V1_v0]
  exact shapeCast_apply _ shapeCasts_S131072_S131072x1 (ix2 n (0 : Fin 1)) (ix1 n)
    (by rewrite [Shape.rowMajor_val_two, Shape.rowMajor_val_one]; show n.val = n.val * 1 + 0; omega)

/-! ## The layers' call's entry -/

/-- The first call's output array reaches the second call as the write-back left it. -/
theorem V3_v1 (c : Dev nD) : Fr.V3 m c main_v1 = (dat0 (Fr.V1 m) c).arrAt 2 cfg0.N :=
  (StableHlo.after_of_writes_sub hostOps1 _ hostOps1_writes (r := main_v1) (by decide)).trans (W2_arr m c 2)

theorem W2_arg (c : Dev nD) (r : Ref sig .tc) (h2 : ∀ w, Pipeline.arrRef spec0 w ≠ r) (h0 : r ∉ hostOps0_W) :
    W2 m c (Proc.devRef .tc r) = m ((c : Thread nD τ).loc r) :=
  (W2_of_ne m c r h2).trans (StableHlo.after_of_writes_sub hostOps0 _ hostOps0_writes h0)

theorem V3_arg2 (c : Dev nD) : Fr.V3 m c main_arg2 = m ((c : Thread nD τ).loc main_arg2) :=
  (StableHlo.after_of_writes_sub hostOps1 _ hostOps1_writes (r := main_arg2) (by decide)).trans (W2_arg m c main_arg2 (by decide) (by decide))
theorem V3_arg4 (c : Dev nD) : Fr.V3 m c main_arg4 = m ((c : Thread nD τ).loc main_arg4) :=
  (StableHlo.after_of_writes_sub hostOps1 _ hostOps1_writes (r := main_arg4) (by decide)).trans (W2_arg m c main_arg4 (by decide) (by decide))
theorem V3_arg6 (c : Dev nD) : Fr.V3 m c main_arg6 = m ((c : Thread nD τ).loc main_arg6) :=
  (StableHlo.after_of_writes_sub hostOps1 _ hostOps1_writes (r := main_arg6) (by decide)).trans (W2_arg m c main_arg6 (by decide) (by decide))

theorem V3_v2 (c : Dev nD) : (Fr.V3 m c main_v2 : S1x64.Idx → Elt F .f32) = shapeCast S1x64 (W2 m c (Proc.devRef .tc main_arg3)) shapeCasts_S64_S1x64 := by
  show StableHlo.after hostOps1 (W2 m c) (Proc.devRef .tc main_v2) = _
  after_results
  rfl
theorem V3_v3 (c : Dev nD) : (Fr.V3 m c main_v3 : S1x32.Idx → Elt F .f32) = shapeCast S1x32 (W2 m c (Proc.devRef .tc main_arg5)) shapeCasts_S32_S1x32 := by
  show StableHlo.after hostOps1 (W2 m c) (Proc.devRef .tc main_v3) = _
  after_results
  rfl
theorem V3_v4 (c : Dev nD) : (Fr.V3 m c main_v4 : S1x1.Idx → Elt F .f32) = shapeCast S1x1 (W2 m c (Proc.devRef .tc main_arg7)) shapeCasts_S1_S1x1 := by
  show StableHlo.after hostOps1 (W2 m c) (Proc.devRef .tc main_v4) = _
  after_results
  rfl

/-- The reshaped first bias, entry by entry. -/
theorem V3_v2_at (c : Dev nD) (j : Fin 64) : Fr.V3 m c main_v2 (ix2 (0 : Fin 1) j) = m ((c : Thread nD τ).loc main_arg3) (ix1 j) := by
  rw [V3_v2, W2_arg m c main_arg3 (by decide) (by decide)]
  exact shapeCast_apply _ shapeCasts_S64_S1x64 (ix2 (0 : Fin 1) j) (ix1 j)
    (by rewrite [Shape.rowMajor_val_two, Shape.rowMajor_val_one]; show j.val = 0 * 64 + j.val; omega)
/-- The reshaped second bias, entry by entry. -/
theorem V3_v3_at (c : Dev nD) (k : Fin 32) : Fr.V3 m c main_v3 (ix2 (0 : Fin 1) k) = m ((c : Thread nD τ).loc main_arg5) (ix1 k) := by
  rw [V3_v3, W2_arg m c main_arg5 (by decide) (by decide)]
  exact shapeCast_apply _ shapeCasts_S32_S1x32 (ix2 (0 : Fin 1) k) (ix1 k)
    (by rewrite [Shape.rowMajor_val_two, Shape.rowMajor_val_one]; show k.val = 0 * 32 + k.val; omega)
/-- The reshaped third bias. -/
theorem V3_v4_at (c : Dev nD) : Fr.V3 m c main_v4 (ix2 (0 : Fin 1) (0 : Fin 1)) = m ((c : Thread nD τ).loc main_arg7) (ix1 (0 : Fin 1)) := by
  rw [V3_v4, W2_arg m c main_arg7 (by decide) (by decide)]
  exact shapeCast_apply _ shapeCasts_S1_S1x1 (ix2 (0 : Fin 1) (0 : Fin 1)) (ix1 (0 : Fin 1))
    (by rewrite [Shape.rowMajor_val_two, Shape.rowMajor_val_one]; rfl)

/-! ## The result -/

theorem W5_v6 (c : Dev nD) : (W5 m c (Proc.devRef .tc main_v6) : S2048.Idx → Elt F .f32) = shapeCast S2048 (W4 m c (Proc.devRef .tc main_v5)) shapeCasts_S2048x1_S2048 := by
  show StableHlo.after hostOps2 (W4 m c) (Proc.devRef .tc main_v6) = _
  after_results
  rfl

/-- The result at segment `g` is the second call's output array at (g, 0). -/
theorem W5_v6_at (c : Dev nD) (g : Fin 2048) :
    W5 m c (Proc.devRef .tc main_v6) (ix1 g) = (dat1 (Fr.V3 m) c).arrAt 7 cfg1.N (ix2 g (0 : Fin 1)) := by
  rw [W5_v6, W4_arr m c 7]
  exact shapeCast_apply _ shapeCasts_S2048x1_S2048 (ix1 g) (ix2 g (0 : Fin 1))
    (by rewrite [Shape.rowMajor_val_two, Shape.rowMajor_val_one]; show g.val * 1 + 0 = g.val; omega)

end Cert.KernelIdeal.Glue

end
-- ==== Proof.Spec.lean ====
/-
  What both programs compute, over the extended reals, stated once over plain coordinates.

  Rows `n < 131072` carry a feature vector `feat n` (1536 entries) and a segment word `seg n`. For each segment
  number `g < 2048`: the sum of the rows whose word is `g` (`segSum`), how many there are (`segCnt`), and their mean
  with the divisor floored at one (`pooled`: an empty segment gives zero). A word that is no segment number matches
  no `g` and its row is dropped. The pooled rows then pass three affine layers, the first two followed by a maximum
  with zero (`layer1`, `layer2`, `layer3`): `result`.
-/
import Idealize.ShloMosaic.PureOps.Ideal
import Idealize.ShloMosaic.Lib.ValueIdx

noncomputable section

open scoped BigOperators

namespace Cert.Spec

open Idealize.ShloMosaic

/-- One where the row's word is segment `g`'s number, zero elsewhere. -/
def hot (b : BitVec 32) (g : Fin 2048) : EReal := if b = BitVec.ofNat 32 g.val then 1 else 0

/-- The sum of the rows of segment `g`, entry `d`. -/
def segSum (feat : Fin 131072 → Fin 1536 → EReal) (seg : Fin 131072 → BitVec 32) (g : Fin 2048) (d : Fin 1536) : EReal :=
  ∑ n : Fin 131072, hot (seg n) g * feat n d

/-- The number of rows of segment `g`. -/
def segCnt (seg : Fin 131072 → BitVec 32) (g : Fin 2048) : EReal := ∑ n : Fin 131072, hot (seg n) g

/-- The mean row of segment `g`, the divisor floored at one. -/
def pooled (feat : Fin 131072 → Fin 1536 → EReal) (seg : Fin 131072 → BitVec 32) (g : Fin 2048) (d : Fin 1536) : EReal :=
  Ideal.div (segSum feat seg g d) (max (segCnt seg g) 1)

/-- First layer: `max (x · W1ᵀ + b1) 0`. -/
def layer1 (x : Fin 2048 → Fin 1536 → EReal) (W1 : Fin 64 → Fin 1536 → EReal) (b1 : Fin 64 → EReal) (g : Fin 2048) (j : Fin 64) : EReal :=
  max ((∑ d : Fin 1536, x g d * W1 j d) + b1 j) 0

/-- Second layer: `max (h · W2ᵀ + b2) 0`. -/
def layer2 (h : Fin 2048 → Fin 64 → EReal) (W2 : Fin 32 → Fin 64 → EReal) (b2 : Fin 32 → EReal) (g : Fin 2048) (k : Fin 32) : EReal :=
  max ((∑ j : Fin 64, h g j * W2 k j) + b2 k) 0

/-- Third layer: `h2 · W3ᵀ + b3`, one output per segment. -/
def layer3 (h2 : Fin 2048 → Fin 32 → EReal) (W3 : Fin 32 → EReal) (b3 : EReal) (g : Fin 2048) : EReal :=
  (∑ k : Fin 32, h2 g k * W3 k) + b3

/-- The three layers applied to pooled rows `x`. -/
def head (x : Fin 2048 → Fin 1536 → EReal) (W1 : Fin 64 → Fin 1536 → EReal) (b1 : Fin 64 → EReal)
    (W2 : Fin 32 → Fin 64 → EReal) (b2 : Fin 32 → EReal) (W3 : Fin 32 → EReal) (b3 : EReal) (g : Fin 2048) : EReal :=
  layer3 (layer2 (layer1 x W1 b1) W2 b2) W3 b3 g

/-- The whole computation: pool, then the three layers. -/
def result (feat : Fin 131072 → Fin 1536 → EReal) (seg : Fin 131072 → BitVec 32) (W1 : Fin 64 → Fin 1536 → EReal) (b1 : Fin 64 → EReal)
    (W2 : Fin 32 → Fin 64 → EReal) (b2 : Fin 32 → EReal) (W3 : Fin 32 → EReal) (b3 : EReal) (g : Fin 2048) : EReal :=
  head (pooled feat seg) W1 b1 W2 b2 W3 b3 g

end Cert.Spec

end
-- ==== Proof.KernelValue.lean ====
/-
  The kernel program's result, entry by entry, from what each of its two calls leaves in its output array: if the
  pooling call leaves the mean rows of its two operand arrays and the layers' call the three layers of its operand
  arrays, the result at segment `g` is `Spec.result` of the launch memory's argument arrays.
-/
import proofs.«426081_j76639396429977_2_alg».proof.Proof.GlueHost
import proofs.«426081_j76639396429977_2_alg».proof.Proof.Spec

set_option maxRecDepth 16384

noncomputable section

open scoped BigOperators

namespace Cert.KernelIdeal.Glue

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-- What the pooling call leaves, for any entry contents `V`. -/
def PoolLeaves : Prop :=
  ∀ (V : (c : Dev nD) → (b : Ref sig .tc) → Buf (Elt Ideal) ((c : Thread nD τ).loc b)) (c : Dev nD) (g : Fin 2048) (d : Fin 1536),
    (dat0 (F := Ideal) V c).arrAt 2 cfg0.N (ix2 g d)
      = Cert.Spec.pooled (fun n d => V c main_arg0 (ix2 n d)) (fun n => V c main_v0 (ix2 n (0 : Fin 1))) g d

/-- What the layers' call leaves, for any entry contents `V`. -/
def MlpLeaves : Prop :=
  ∀ (V : (c : Dev nD) → (b : Ref sig .tc) → Buf (Elt Ideal) ((c : Thread nD τ).loc b)) (c : Dev nD) (g : Fin 2048),
    (dat1 (F := Ideal) V c).arrAt 7 cfg1.N (ix2 g (0 : Fin 1))
      = Cert.Spec.head (fun g d => V c main_v1 (ix2 g d)) (fun j d => V c main_arg2 (ix2 j d)) (fun j => V c main_v2 (ix2 (0 : Fin 1) j))
          (fun k j => V c main_arg4 (ix2 k j)) (fun k => V c main_v3 (ix2 (0 : Fin 1) k)) (fun k => V c main_arg6 (ix2 (0 : Fin 1) k))
          (V c main_v4 (ix2 (0 : Fin 1) (0 : Fin 1))) g

theorem V1_arg0_at (c : Dev nD) (n : Fin 131072) (d : Fin 1536) :
    Fr.V1 m c main_arg0 (ix2 n d) = m ((c : Thread nD τ).loc main_arg0) (ix2 n d) := by rw [V1_arg0]
theorem V3_arg2_at (c : Dev nD) (j : Fin 64) (d : Fin 1536) :
    Fr.V3 m c main_arg2 (ix2 j d) = m ((c : Thread nD τ).loc main_arg2) (ix2 j d) := by rw [V3_arg2]
theorem V3_arg4_at (c : Dev nD) (k : Fin 32) (j : Fin 64) :
    Fr.V3 m c main_arg4 (ix2 k j) = m ((c : Thread nD τ).loc main_arg4) (ix2 k j) := by rw [V3_arg4]
theorem V3_arg6_at (c : Dev nD) (k : Fin 32) :
    Fr.V3 m c main_arg6 (ix2 (0 : Fin 1) k) = m ((c : Thread nD τ).loc main_arg6) (ix2 (0 : Fin 1) k) := by rw [V3_arg6]

/-- The pooled rows the second call is entered with. -/
theorem V3_v1_at (hp : PoolLeaves) (c : Dev nD) (g : Fin 2048) (d : Fin 1536) :
    Fr.V3 m c main_v1 (ix2 g d)
      = Cert.Spec.pooled (fun n d => m ((c : Thread nD τ).loc main_arg0) (ix2 n d)) (fun n => m ((c : Thread nD τ).loc main_arg1) (ix1 n)) g d := by
  rw [V3_v1, hp (Fr.V1 m) c g d]
  exact congrArg₂ (fun a b => Cert.Spec.pooled a b g d)
    (funext fun n => funext fun d => V1_arg0_at m c n d) (funext fun n => V1_v0_at m c n)

/-- The program's result at segment `g`. -/
theorem kernel_result (hp : PoolLeaves) (hm : MlpLeaves) (c : Dev nD) (g : Fin 2048) :
    W5 m c (Proc.devRef .tc main_v6) (ix1 g)
      = Cert.Spec.result (fun n d => m ((c : Thread nD τ).loc main_arg0) (ix2 n d)) (fun n => m ((c : Thread nD τ).loc main_arg1) (ix1 n))
          (fun j d => m ((c : Thread nD τ).loc main_arg2) (ix2 j d)) (fun j => m ((c : Thread nD τ).loc main_arg3) (ix1 j))
          (fun k j => m ((c : Thread nD τ).loc main_arg4) (ix2 k j)) (fun k => m ((c : Thread nD τ).loc main_arg5) (ix1 k))
          (fun k => m ((c : Thread nD τ).loc main_arg6) (ix2 (0 : Fin 1) k)) (m ((c : Thread nD τ).loc main_arg7) (ix1 (0 : Fin 1))) g := by
  have e1 : (fun g d => Fr.V3 m c main_v1 (ix2 g d))
      = Cert.Spec.pooled (fun n d => m ((c : Thread nD τ).loc main_arg0) (ix2 n d)) (fun n => m ((c : Thread nD τ).loc main_arg1) (ix1 n)) :=
    funext fun g => funext fun d => V3_v1_at m hp c g d
  have e2 : (fun j d => Fr.V3 m c main_arg2 (ix2 j d)) = (fun j d => m ((c : Thread nD τ).loc main_arg2) (ix2 j d)) :=
    funext fun j => funext fun d => V3_arg2_at m c j d
  have e3 : (fun j => Fr.V3 m c main_v2 (ix2 (0 : Fin 1) j)) = (fun j => m ((c : Thread nD τ).loc main_arg3) (ix1 j)) :=
    funext fun j => V3_v2_at m c j
  have e4 : (fun k j => Fr.V3 m c main_arg4 (ix2 k j)) = (fun k j => m ((c : Thread nD τ).loc main_arg4) (ix2 k j)) :=
    funext fun k => funext fun j => V3_arg4_at m c k j
  have e5 : (fun k => Fr.V3 m c main_v3 (ix2 (0 : Fin 1) k)) = (fun k => m ((c : Thread nD τ).loc main_arg5) (ix1 k)) :=
    funext fun k => V3_v3_at m c k
  have e6 : (fun k => Fr.V3 m c main_arg6 (ix2 (0 : Fin 1) k)) = (fun k => m ((c : Thread nD τ).loc main_arg6) (ix2 (0 : Fin 1) k)) :=
    funext fun k => V3_arg6_at m c k
  refine (W5_v6_at m c g).trans ((hm (Fr.V3 m) c g).trans ?_)
  rw [e1, e2, e3, e4, e5, e6, V3_v4_at m c]
  exact Eq.refl _

end Cert.KernelIdeal.Glue

end
-- ==== Proof.PoolPay.lean ====
/-
  The first kernel's stored values, entry by entry, over the extended reals.

  A row tile carries 128 feature rows `a` and their 128 segment words `s`. The one-hot matrix of the words against
  the segment numbers, multiplied into the tile, adds to entry (g, d) of the running sums the tile's rows whose word
  is `g`; multiplied into a block of ones it adds their number to every one of the 128 columns of the running
  counts. The last step divides the sums by the column total of the counts scaled by 1/128, floored at one.
-/
import proofs.«426081_j76639396429977_2_alg».proof.Proof.Gen.KernelIdeal.Skeleton
import proofs.«426081_j76639396429977_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PoolPay

open Idealize.ShloMosaic Idealize.ShloMosaic.ValueIdx Cert.KernelIdeal Cert.KernelIdeal.Gen

/-- The f32 word of one denotes one. -/
theorem ofBits_one_f32 : Ideal.ofBits .f32 0x3F800000#32 = 1 := by
  simp [Ideal.ofBits, Ideal.ieee, -EReal.coe_mul]; norm_num

/-- The f32 word 0x3C000000 denotes 2^-7 = 1/128. -/
theorem ofBits_inv128_f32 : Ideal.ofBits .f32 0x3C000000#32 = (((1 / 128 : ℝ)) : EReal) := by
  simp [Ideal.ofBits, Ideal.ieee, -EReal.coe_mul]; norm_num

/-- The bf16 word of one denotes one. -/
theorem ofBits_one_bf16 : Ideal.ofBits .bf16 0x3F80#16 = 1 := by
  simp [Ideal.ofBits, Ideal.ieee, -EReal.coe_mul]; norm_num

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The signed value of a one-bit condition widened to 32 bits: one when it holds, zero when not. -/
theorem cond_toInt (x y : BitVec 32) :
    ((((IntOp.cmpi .eq x y).setWidth 32).toInt : ℝ) : EReal) = if x = y then 1 else 0 := by
  by_cases h : x = y
  · subst h
    rw [if_pos rfl]
    simp [IntOp.cmpi]
  · rw [if_neg h]
    have : (x == y) = false := by simpa using h
    simp [IntOp.cmpi, this]

/-- The one-hot matrix: entry (r, g) is one where row r's word is segment g's number, zero elsewhere. -/
theorem onehot_at (s : Vec Ideal S128x1 .i32) (r : Fin 128) (g : Fin 2048) :
    k0_pay3 (F := Ideal) s (ix2 r g) = Cert.Spec.hot (s (ix2 r (0 : Fin 1))) g := by
  unfold k0_pay3
  rw [truncf_apply, sitofp_apply]
  show (((((IntOp.cmpi .eq (broadcastTo S128x2048 (shapeCast S128x1 (shapeCast S128x1 s _) _) _ (ix2 r g))
    (iota .tc S128x2048 32 [1] _ (ix2 r g))).setWidth 32).toInt : ℝ) : EReal)) = _
  rw [shapeCast_self, shapeCast_self, broadcastTo_a1_ab_apply, iota_single_apply, cond_toInt]
  rfl

/-! ### The product that feeds the sums: for output entry (g, c) and contraction coordinate k the left operand is read
    at (k, g) and the right at (k, c). The four coordinate facts, one per operand axis. -/

theorem lhs_sums_0 (i : S2048x1536.Idx) (q : dot_S128x2048_S128x1536_S2048x1536_0_0_1_1_n_n.contr.Idx) :
    (dot_S128x2048_S128x1536_S2048x1536_0_0_1_1_n_n.lhsIdx i q 0).val = (q ⟨0, by decide⟩).val :=
  dot_S128x2048_S128x1536_S2048x1536_0_0_1_1_n_n.lhsIdx_val_of_single rfl i q
theorem lhs_sums_1 (i : S2048x1536.Idx) (q : dot_S128x2048_S128x1536_S2048x1536_0_0_1_1_n_n.contr.Idx) :
    (dot_S128x2048_S128x1536_S2048x1536_0_0_1_1_n_n.lhsIdx i q 1).val = (i 0).val := by
  unfold DotDims.lhsIdx
  rw [dif_neg (show ¬(1 : Fin S128x2048.rank) ∈ dot_S128x2048_S128x1536_S2048x1536_0_0_1_1_n_n.lhsBatch by decide), dif_pos (show (1 : Fin S128x2048.rank) ∈ dot_S128x2048_S128x1536_S2048x1536_0_0_1_1_n_n.lhsNonContracting by decide)]
  rfl
theorem rhs_sums_0 (i : S2048x1536.Idx) (q : dot_S128x2048_S128x1536_S2048x1536_0_0_1_1_n_n.contr.Idx) :
    (dot_S128x2048_S128x1536_S2048x1536_0_0_1_1_n_n.rhsIdx i q 0).val = (q ⟨0, by decide⟩).val :=
  dot_S128x2048_S128x1536_S2048x1536_0_0_1_1_n_n.rhsIdx_val_of_single rfl i q
theorem rhs_sums_1 (i : S2048x1536.Idx) (q : dot_S128x2048_S128x1536_S2048x1536_0_0_1_1_n_n.contr.Idx) :
    (dot_S128x2048_S128x1536_S2048x1536_0_0_1_1_n_n.rhsIdx i q 1).val = (i 1).val := by
  unfold DotDims.rhsIdx
  rw [dif_neg (show ¬(1 : Fin S128x1536.rank) ∈ dot_S128x2048_S128x1536_S2048x1536_0_0_1_1_n_n.rhsBatch by decide), dif_pos (show (1 : Fin S128x1536.rank) ∈ dot_S128x2048_S128x1536_S2048x1536_0_0_1_1_n_n.rhsNonContracting by decide)]
  rfl

/-- The product into a zero accumulator, both operands contracted on their row axis: entry (g, c) is the sum over the
    128 rows of the left operand at (r, g) times the right at (r, c). -/
theorem matmul_sums_apply (A : FVec Ideal S128x2048 .bf16) (B : FVec Ideal S128x1536 .bf16) (g : Fin 2048) (c : Fin 1536) :
    matmul dot_S128x2048_S128x1536_S2048x1536_0_0_1_1_n_n none A B (constant (F := Ideal) S2048x1536 .f32 0x00000000#32) (ix2 g c)
      = ∑ r : Fin 128, A (ix2 r g) * B (ix2 r c) := by
  simp only [matmul]
  rw [Ideal.matmul_constant_zero_apply, ← Equiv.sum_comp (contrEquiv1 dot_S128x2048_S128x1536_S2048x1536_0_0_1_1_n_n 128 rfl rfl).symm]
  refine Finset.sum_congr rfl fun k _ => ?_
  have hk := contrEquiv1_symm_val dot_S128x2048_S128x1536_S2048x1536_0_0_1_1_n_n 128 rfl rfl k
  have el : dot_S128x2048_S128x1536_S2048x1536_0_0_1_1_n_n.lhsIdx (ix2 g c) ((contrEquiv1 dot_S128x2048_S128x1536_S2048x1536_0_0_1_1_n_n 128 rfl rfl).symm k) = ix2 k g := funext fun a => Fin.ext (by
    match a with
    | ⟨0, _⟩ => exact (lhs_sums_0 _ _).trans hk
    | ⟨1, _⟩ => exact lhs_sums_1 _ _)
  have er : dot_S128x2048_S128x1536_S2048x1536_0_0_1_1_n_n.rhsIdx (ix2 g c) ((contrEquiv1 dot_S128x2048_S128x1536_S2048x1536_0_0_1_1_n_n 128 rfl rfl).symm k) = ix2 k c := funext fun a => Fin.ext (by
    match a with
    | ⟨0, _⟩ => exact (rhs_sums_0 _ _).trans hk
    | ⟨1, _⟩ => exact rhs_sums_1 _ _)
  rw [el, er]

/-! ### The product that feeds the counts: the same reading, the right operand 128 columns wide. -/

theorem lhs_cnts_0 (i : S2048x128.Idx) (q : dot_S128x2048_S128x128_S2048x128_0_0_1_1_n_n.contr.Idx) :
    (dot_S128x2048_S128x128_S2048x128_0_0_1_1_n_n.lhsIdx i q 0).val = (q ⟨0, by decide⟩).val :=
  dot_S128x2048_S128x128_S2048x128_0_0_1_1_n_n.lhsIdx_val_of_single rfl i q
theorem lhs_cnts_1 (i : S2048x128.Idx) (q : dot_S128x2048_S128x128_S2048x128_0_0_1_1_n_n.contr.Idx) :
    (dot_S128x2048_S128x128_S2048x128_0_0_1_1_n_n.lhsIdx i q 1).val = (i 0).val := by
  unfold DotDims.lhsIdx
  rw [dif_neg (show ¬(1 : Fin S128x2048.rank) ∈ dot_S128x2048_S128x128_S2048x128_0_0_1_1_n_n.lhsBatch by decide), dif_pos (show (1 : Fin S128x2048.rank) ∈ dot_S128x2048_S128x128_S2048x128_0_0_1_1_n_n.lhsNonContracting by decide)]
  rfl
theorem rhs_cnts_0 (i : S2048x128.Idx) (q : dot_S128x2048_S128x128_S2048x128_0_0_1_1_n_n.contr.Idx) :
    (dot_S128x2048_S128x128_S2048x128_0_0_1_1_n_n.rhsIdx i q 0).val = (q ⟨0, by decide⟩).val :=
  dot_S128x2048_S128x128_S2048x128_0_0_1_1_n_n.rhsIdx_val_of_single rfl i q
theorem rhs_cnts_1 (i : S2048x128.Idx) (q : dot_S128x2048_S128x128_S2048x128_0_0_1_1_n_n.contr.Idx) :
    (dot_S128x2048_S128x128_S2048x128_0_0_1_1_n_n.rhsIdx i q 1).val = (i 1).val := by
  unfold DotDims.rhsIdx
  rw [dif_neg (show ¬(1 : Fin S128x128.rank) ∈ dot_S128x2048_S128x128_S2048x128_0_0_1_1_n_n.rhsBatch by decide), dif_pos (show (1 : Fin S128x128.rank) ∈ dot_S128x2048_S128x128_S2048x128_0_0_1_1_n_n.rhsNonContracting by decide)]
  rfl

/-- The product into a zero accumulator, both operands contracted on their row axis: entry (g, c) is the sum over the
    128 rows of the left operand at (r, g) times the right at (r, c). -/
theorem matmul_cnts_apply (A : FVec Ideal S128x2048 .bf16) (B : FVec Ideal S128x128 .bf16) (g : Fin 2048) (c : Fin 128) :
    matmul dot_S128x2048_S128x128_S2048x128_0_0_1_1_n_n none A B (constant (F := Ideal) S2048x128 .f32 0x00000000#32) (ix2 g c)
      = ∑ r : Fin 128, A (ix2 r g) * B (ix2 r c) := by
  simp only [matmul]
  rw [Ideal.matmul_constant_zero_apply, ← Equiv.sum_comp (contrEquiv1 dot_S128x2048_S128x128_S2048x128_0_0_1_1_n_n 128 rfl rfl).symm]
  refine Finset.sum_congr rfl fun k _ => ?_
  have hk := contrEquiv1_symm_val dot_S128x2048_S128x128_S2048x128_0_0_1_1_n_n 128 rfl rfl k
  have el : dot_S128x2048_S128x128_S2048x128_0_0_1_1_n_n.lhsIdx (ix2 g c) ((contrEquiv1 dot_S128x2048_S128x128_S2048x128_0_0_1_1_n_n 128 rfl rfl).symm k) = ix2 k g := funext fun a => Fin.ext (by
    match a with
    | ⟨0, _⟩ => exact (lhs_cnts_0 _ _).trans hk
    | ⟨1, _⟩ => exact lhs_cnts_1 _ _)
  have er : dot_S128x2048_S128x128_S2048x128_0_0_1_1_n_n.rhsIdx (ix2 g c) ((contrEquiv1 dot_S128x2048_S128x128_S2048x128_0_0_1_1_n_n 128 rfl rfl).symm k) = ix2 k c := funext fun a => Fin.ext (by
    match a with
    | ⟨0, _⟩ => exact (rhs_cnts_0 _ _).trans hk
    | ⟨1, _⟩ => exact rhs_cnts_1 _ _)
  rw [el, er]

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced row index `g` with lane `k` put back is (g, k). -/
theorem lift_lane (h : S2048x128.Reduces [1] S2048) (g : Fin 2048) (k : Fin 128) : h.lift (ix1 g) k = ix2 g k := by
  funext c; apply Fin.ext
  match c with
  | ⟨0, _⟩ => rfl
  | ⟨1, _⟩ => rfl

/-- The lane sum of the counts, kept as a column: entry (g, 0) is the total of row g's 128 columns. -/
theorem colsum_at (cnt : Vec Ideal S2048x128 .f32) (g : Fin 2048) (u : Fin 1) :
    shapeCast S2048x1 (multiReduction (F := Ideal) .add [1] S2048 cnt 0x00000000#32 Facts₀.reduces_S2048x128_S2048 (.inl rfl) rfl)
        Facts₀.shapeCasts_S2048_S2048x1 (ix2 g u)
      = ∑ j : Fin 128, cnt (ix2 g j) := by
  rw [shapeCast_a_a1_apply]
  refine (Ideal.multiReduction_add_single cnt _ _ _ _ (ix1 g)).trans ?_
  exact Finset.sum_congr rfl fun k _ => congrArg cnt (lift_lane _ g k)

/-- The sums start at zero. -/
theorem pay1_at (g : Fin 2048) (d : Fin 1536) : k0_pay1 (F := Ideal) (ix2 g d) = 0 := by
  unfold k0_pay1
  exact Ideal.ofBits_zero_f32

/-- The counts start at zero. -/
theorem pay2_at (g : Fin 2048) (j : Fin 128) : k0_pay2 (F := Ideal) (ix2 g j) = 0 := by
  unfold k0_pay2
  rw [shapeCast_self]
  exact Ideal.ofBits_zero_f32

/-- One tile added to the running sums: entry (g, d) gains the tile's rows whose word is `g`. -/
theorem pay4_at (a : Vec Ideal S128x1536 .f32) (s : Vec Ideal S128x1 .i32) (acc : Vec Ideal S2048x1536 .f32) (g : Fin 2048) (d : Fin 1536) :
    k0_pay4 (F := Ideal) a s acc (ix2 g d)
      = acc (ix2 g d) + ∑ r : Fin 128, Cert.Spec.hot (s (ix2 r (0 : Fin 1))) g * a (ix2 r d) := by
  unfold k0_pay4
  rw [addf_apply, shapeCast_self, matmul_sums_apply]
  refine congrArg (acc (ix2 g d) + ·) (Finset.sum_congr rfl fun r _ => ?_)
  rw [onehot_at, truncf_apply]

/-- One tile added to the running counts: every column of row `g` gains the number of the tile's rows whose word is `g`. -/
theorem pay5_at (s : Vec Ideal S128x1 .i32) (cnt : Vec Ideal S2048x128 .f32) (g : Fin 2048) (j : Fin 128) :
    k0_pay5 (F := Ideal) s cnt (ix2 g j) = cnt (ix2 g j) + ∑ r : Fin 128, Cert.Spec.hot (s (ix2 r (0 : Fin 1))) g := by
  unfold k0_pay5
  rw [shapeCast_self, addf_apply, matmul_cnts_apply]
  refine congrArg (cnt (ix2 g j) + ·) (Finset.sum_congr rfl fun r _ => ?_)
  rw [onehot_at, broadcast_apply]
  show _ * Ideal.ofBits .bf16 0x3F80#16 = _
  rw [ofBits_one_bf16, mul_one]

/-- The closing division: the sums over the counts' column total scaled by 1/128, floored at one. -/
theorem pay6_at (cnt : Vec Ideal S2048x128 .f32) (sums : Vec Ideal S2048x1536 .f32) (g : Fin 2048) (d : Fin 1536) :
    k0_pay6 (F := Ideal) cnt sums (ix2 g d)
      = Ideal.div (sums (ix2 g d)) (max ((∑ j : Fin 128, cnt (ix2 g j)) * (((1 / 128 : ℝ)) : EReal)) 1) := by
  unfold k0_pay6
  rw [divf_apply, shapeCast_self, broadcastTo_a1_ab_apply, maximumf_apply, mulf_apply, colsum_at, broadcast_apply, broadcast_apply]
  show Ideal.div _ (max (_ * Ideal.ofBits .f32 0x3C000000#32) (Ideal.ofBits .f32 0x3F800000#32)) = _
  rw [ofBits_inv128_f32, ofBits_one_f32]

end Cert.KernelIdeal.PoolPay

end
-- ==== Proof.PoolMath.lean ====
/-
  Two facts about finite sums of extended reals that join the tiled accumulation to the plain sums of `Spec`.

  The 131072 rows are 1024 tiles of 128: a sum over the rows is the sum over the tiles of the sums within a tile.
  A segment's count is a natural number, so 128 copies of it scaled by 1/128 give it back.
-/
import proofs.«426081_j76639396429977_2_alg».proof.Proof.Spec
import Mathlib.Algebra.BigOperators.Fin
import Mathlib.Algebra.BigOperators.Group.Finset.Piecewise
import Mathlib.Data.EReal.Basic
import Mathlib.Logic.Equiv.Fin.Basic
import Mathlib.Tactic.Ring
import Mathlib.Tactic.NormNum

noncomputable section

open scoped BigOperators

namespace Cert.PoolMath

/-- Row `128 t + r` of tile `t`. -/
def row (t : Fin 1024) (r : Fin 128) : Fin 131072 := ⟨128 * t.val + r.val, by have := t.isLt; have := r.isLt; omega⟩

/-- The tiles before position `n` (at most 1024), summed: the partial sums the accumulation passes through. -/
def upto (f : Fin 131072 → EReal) (n : ℕ) : EReal :=
  ∑ t : Fin 1024, if t.val < n then ∑ r : Fin 128, f (row t r) else 0

/-- The embedding of the reals in the extended reals is additive, so it passes through a finite sum. -/
theorem coe_sum {ι : Type*} (s : Finset ι) (h : ι → ℝ) :
    ∑ i ∈ s, ((h i : ℝ) : EReal) = ((∑ i ∈ s, h i : ℝ) : EReal) :=
  (map_sum (⟨⟨fun x : ℝ => (x : EReal), EReal.coe_zero⟩, EReal.coe_add⟩ : ℝ →+ EReal) h s).symm

/-- A tile lies before position `n + 1` when it lies before `n` or is tile `n` itself; the two cases exclude each other. -/
theorem split_lt_succ (f : Fin 131072 → EReal) (n : ℕ) (hn : n < 1024) (t : Fin 1024) :
    (if t.val < n + 1 then ∑ r : Fin 128, f (row t r) else 0)
      = (if t.val < n then ∑ r : Fin 128, f (row t r) else 0)
        + (if t = ⟨n, hn⟩ then ∑ r : Fin 128, f (row t r) else 0) := by
  by_cases h1 : t.val < n
  · have h2 : t.val < n + 1 := by omega
    have h3 : t ≠ ⟨n, hn⟩ := by
      intro h
      rw [h] at h1
      exact Nat.lt_irrefl _ h1
    rw [if_pos h1, if_pos h2, if_neg h3, add_zero]
  · by_cases h2 : t = ⟨n, hn⟩
    · have h3 : t.val < n + 1 := by rw [h2]; exact Nat.lt_succ_self n
      rw [if_neg h1, if_pos h3, if_pos h2, zero_add]
    · have h3 : ¬ t.val < n + 1 := by
        intro h
        apply h2
        apply Fin.ext
        show t.val = n
        omega
      rw [if_neg h1, if_neg h3, if_neg h2, add_zero]

/-- The map `(t, r) ↦ 128 t + r` is one-to-one from tiles and places onto rows. -/
theorem row_bijective : Function.Bijective (fun x : Fin 1024 × Fin 128 => row x.1 x.2) := by
  constructor
  · rintro ⟨t, r⟩ ⟨t', r'⟩ h
    have h' : 128 * t.val + r.val = 128 * t'.val + r'.val := congrArg Fin.val h
    have ht := t.isLt
    have hr := r.isLt
    have ht' := t'.isLt
    have hr' := r'.isLt
    have e1 : t.val = t'.val := by omega
    have e2 : r.val = r'.val := by omega
    exact Prod.ext (Fin.ext e1) (Fin.ext e2)
  · intro m
    have hm := m.isLt
    refine ⟨(⟨m.val / 128, by omega⟩, ⟨m.val % 128, Nat.mod_lt _ (by norm_num)⟩), ?_⟩
    apply Fin.ext
    show 128 * (m.val / 128) + m.val % 128 = m.val
    omega

theorem upto_zero (f : Fin 131072 → EReal) : upto f 0 = 0 := by
  unfold upto
  apply Finset.sum_eq_zero
  intro t _
  exact if_neg (Nat.not_lt_zero _)

theorem upto_succ (f : Fin 131072 → EReal) (n : ℕ) (hn : n < 1024) :
    upto f (n + 1) = upto f n + ∑ r : Fin 128, f (row ⟨n, hn⟩ r) := by
  unfold upto
  rw [Finset.sum_congr rfl (fun t _ => split_lt_succ f n hn t), Finset.sum_add_distrib,
    Finset.sum_ite_eq', if_pos (Finset.mem_univ _)]

/-- All 1024 tiles make the whole sum. -/
theorem upto_all (f : Fin 131072 → EReal) : upto f 1024 = ∑ n : Fin 131072, f n := by
  unfold upto
  rw [Finset.sum_congr rfl (fun (t : Fin 1024) _ =>
    (if_pos t.isLt : (if t.val < 1024 then ∑ r : Fin 128, f (row t r) else 0) = ∑ r : Fin 128, f (row t r)))]
  rw [← Fintype.sum_prod_type' (fun (t : Fin 1024) (r : Fin 128) => f (row t r))]
  exact Fintype.sum_bijective (fun x : Fin 1024 × Fin 128 => row x.1 x.2) row_bijective _ _ (fun _ => rfl)

/-- A segment's count is a real number (a natural one). -/
theorem segCnt_real (seg : Fin 131072 → BitVec 32) (g : Fin 2048) : ∃ k : ℕ, Cert.Spec.segCnt seg g = ((k : ℝ) : EReal) := by
  unfold Cert.Spec.segCnt
  apply Finset.sum_induction _ (fun x : EReal => ∃ k : ℕ, x = ((k : ℝ) : EReal))
  · rintro a b ⟨ka, rfl⟩ ⟨kb, rfl⟩
    refine ⟨ka + kb, ?_⟩
    rw [Nat.cast_add, EReal.coe_add]
  · exact ⟨0, by rw [Nat.cast_zero, EReal.coe_zero]⟩
  · intro n _
    unfold Cert.Spec.hot
    split
    · exact ⟨1, by rw [Nat.cast_one, EReal.coe_one]⟩
    · exact ⟨0, by rw [Nat.cast_zero, EReal.coe_zero]⟩

/-- 128 copies of the count, scaled by 1/128, are the count. -/
theorem cnt_scale (seg : Fin 131072 → BitVec 32) (g : Fin 2048) :
    (∑ _j : Fin 128, Cert.Spec.segCnt seg g) * (((1 / 128 : ℝ)) : EReal) = Cert.Spec.segCnt seg g := by
  obtain ⟨k, hk⟩ := segCnt_real seg g
  rw [hk, coe_sum, ← EReal.coe_mul, EReal.coe_eq_coe_iff]
  rw [Finset.sum_const, Finset.card_univ, Fintype.card_fin, nsmul_eq_mul]
  push_cast
  ring

end Cert.PoolMath

end
-- ==== Proof.PoolValue.lean ====
/-
  What the pooling call leaves in its output array, entry by entry: the mean rows of `Spec.pooled`.

  Each case's found pieces read back are the payloads of the tiles and of what the point before left; a tile's block is
  rows 128 t … 128 t + 127 of its array; so after point n < 1023 the output's buffer holds the sums over the first
  n + 1 tiles and every column of the scratch their counts, and the last point divides the full sums by the full
  counts. The output's block is the whole array, written back after the last point only.
-/
import proofs.«426081_j76639396429977_2_alg».proof.Proof.KI.PoolFrame
import proofs.«426081_j76639396429977_2_alg».proof.Proof.PoolPay
import proofs.«426081_j76639396429977_2_alg».proof.Proof.PoolMath
import proofs.«426081_j76639396429977_2_alg».proof.Proof.Spec
import Idealize.ShloMosaic.Lib.Pipeline.Value

set_option maxRecDepth 16384

noncomputable section

open scoped BigOperators

namespace Cert.KernelIdeal.PoolValue

open Cert.KernelIdeal Cert.KernelIdeal.Gen Cert.KernelIdeal.Fr
open Idealize.ShloMosaic Idealize.ShloMosaic.TcCoe Idealize.ShloMosaic.ValueIdx Idealize.SL.Sem

variable {F : FTy → Type} [FloatOps F]

/-- The offsets of every load and store of the body are zero. -/
theorem hz : (![0, 0] : Fin 2 → Nat) = fun _ => 0 := funext fun a => by fin_cases a <;> rfl

/-! ## What each case's pieces read back to -/

/-- First point, the sums' buffer: the reset value, read back, with the tile added. -/
theorem out_A (c : Dev nD) (i : grid0.Coords) (a1 : Memref sig .tc .vmem S128x1536 .f32) (h1 : a1.IsWhole) (a2 : Memref sig .tc .vmem S128x1 .i32) (h2 : a2.IsWhole) (a3 : Memref sig .tc .vmem S2048x1536 .f32) (h3 : a3.IsWhole) (a4 : Memref sig .tc .vmem S2048x128 .f32) (h4 : a4.IsWhole) (hc0 : cond0_0 i) (hc1 : ¬cond0_1 i) (x0 : Vec F S128x1536 .f32) (x1 : Vec F S128x1 .i32) :
    out0_A_2 c i a1 h1 a2 h2 a3 h3 a4 h4 hc0 hc1 x0 x1 = k0_pay4 x0 x1 k0_pay1 := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_cons_unit_zero (S := S2048x1536) hz, View.readCov_unit_zero (S := S2048x1536) _ hz]
  simp only [View.readAt_eq_ld, h1.read_unread, h2.read_unread, View.ld_unit_zero (S := S128x1536) hz, View.ld_unit_zero (S := S128x1) hz]

/-- First point, the counts' scratch: the reset value, read back, with the tile's counts added. -/
theorem sout_A (c : Dev nD) (i : grid0.Coords) (a1 : Memref sig .tc .vmem S128x1536 .f32) (h1 : a1.IsWhole) (a2 : Memref sig .tc .vmem S128x1 .i32) (h2 : a2.IsWhole) (a3 : Memref sig .tc .vmem S2048x1536 .f32) (h3 : a3.IsWhole) (a4 : Memref sig .tc .vmem S2048x128 .f32) (h4 : a4.IsWhole) (hc0 : cond0_0 i) (hc1 : ¬cond0_1 i) (x0 : Vec F S128x1536 .f32) (x1 : Vec F S128x1 .i32) :
    sout0_A c i a1 h1 a2 h2 a3 h3 a4 h4 hc0 hc1 x0 x1 = k0_pay5 x1 k0_pay2 := by
  unfold sout0_A
  rw [View.read_writes_eq_canon _ _ _ (scover0_A c i a1 h1 a2 h2 a3 h3 a4 h4 hc0 hc1 x0 x1)]
  unfold kernelRun0_A
  dsimp only
  sl_unfold_words
  rw [View.canon_cons_unit_zero (S := S2048x128) hz, View.readCov_unit_zero (S := S2048x128) _ hz]
  simp only [View.readAt_eq_ld, h1.read_unread, h2.read_unread, View.ld_unit_zero (S := S128x1536) hz, View.ld_unit_zero (S := S128x1) hz]

/-- A middle point, the sums' buffer: what the point before left, with the tile added. -/
theorem out_B (c : Dev nD) (i : grid0.Coords) (a1 : Memref sig .tc .vmem S128x1536 .f32) (h1 : a1.IsWhole) (a2 : Memref sig .tc .vmem S128x1 .i32) (h2 : a2.IsWhole) (a3 : Memref sig .tc .vmem S2048x1536 .f32) (h3 : a3.IsWhole) (a4 : Memref sig .tc .vmem S2048x128 .f32) (h4 : a4.IsWhole) (hc0 : ¬cond0_0 i) (hc1 : ¬cond0_1 i) (x0 : Vec F S128x1536 .f32) (x1 : Vec F S128x1 .i32) (xo : Vec F S2048x1536 .f32) (xs : Vec F S2048x128 .f32) :
    out0_B_2 c i a1 h1 a2 h2 a3 h3 a4 h4 hc0 hc1 x0 x1 xo xs = k0_pay4 x0 x1 xo := by
  unfold out0_B_2
  rw [View.read_writes_eq_canon _ _ _ (cover0_B_2 c i a1 h1 a2 h2 a3 h3 a4 h4 hc0 hc1 x0 x1 xo xs)]
  unfold kernelRun0_B
  dsimp only
  sl_unfold_words
  rw [View.canon_unit_zero hz]
  simp only [View.readAt_eq_ld, h1.read_unread, h2.read_unread, h3.read_unread, h4.read_unread, View.ld_unit_zero (S := S128x1536) hz, View.ld_unit_zero (S := S128x1) hz, View.ld_unit_zero (S := S2048x1536) hz, View.ld_unit_zero (S := S2048x128) hz]

/-- A middle point, the counts' scratch: what the point before left, with the tile's counts added. -/
theorem sout_B (c : Dev nD) (i : grid0.Coords) (a1 : Memref sig .tc .vmem S128x1536 .f32) (h1 : a1.IsWhole) (a2 : Memref sig .tc .vmem S128x1 .i32) (h2 : a2.IsWhole) (a3 : Memref sig .tc .vmem S2048x1536 .f32) (h3 : a3.IsWhole) (a4 : Memref sig .tc .vmem S2048x128 .f32) (h4 : a4.IsWhole) (hc0 : ¬cond0_0 i) (hc1 : ¬cond0_1 i) (x0 : Vec F S128x1536 .f32) (x1 : Vec F S128x1 .i32) (xo : Vec F S2048x1536 .f32) (xs : Vec F S2048x128 .f32) :
    sout0_B c i a1 h1 a2 h2 a3 h3 a4 h4 hc0 hc1 x0 x1 xo xs = k0_pay5 x1 xs := by
  unfold sout0_B
  rw [View.read_writes_eq_canon _ _ _ (scover0_B c i a1 h1 a2 h2 a3 h3 a4 h4 hc0 hc1 x0 x1 xo xs)]
  unfold kernelRun0_B
  dsimp only
  sl_unfold_words
  rw [View.canon_unit_zero hz]
  simp only [View.readAt_eq_ld, h1.read_unread, h2.read_unread, h3.read_unread, h4.read_unread, View.ld_unit_zero (S := S128x1536) hz, View.ld_unit_zero (S := S128x1) hz, View.ld_unit_zero (S := S2048x1536) hz, View.ld_unit_zero (S := S2048x128) hz]

/-- The last point, the sums' buffer: the updated sums, read back, divided by the updated counts, read back. -/
theorem out_C (c : Dev nD) (i : grid0.Coords) (a1 : Memref sig .tc .vmem S128x1536 .f32) (h1 : a1.IsWhole) (a2 : Memref sig .tc .vmem S128x1 .i32) (h2 : a2.IsWhole) (a3 : Memref sig .tc .vmem S2048x1536 .f32) (h3 : a3.IsWhole) (a4 : Memref sig .tc .vmem S2048x128 .f32) (h4 : a4.IsWhole) (hc0 : ¬cond0_0 i) (hc1 : cond0_1 i) (x0 : Vec F S128x1536 .f32) (x1 : Vec F S128x1 .i32) (xo : Vec F S2048x1536 .f32) (xs : Vec F S2048x128 .f32) :
    out0_C_2 c i a1 h1 a2 h2 a3 h3 a4 h4 hc0 hc1 x0 x1 xo xs = k0_pay6 (k0_pay5 x1 xs) (k0_pay4 x0 x1 xo) := by
  unfold out0_C_2
  rw [View.read_writes_eq_canon _ _ _ (cover0_C_2 c i a1 h1 a2 h2 a3 h3 a4 h4 hc0 hc1 x0 x1 xo xs)]
  unfold kernelRun0_C
  dsimp only
  sl_unfold_words
  rw [View.canon_cons_unit_zero (S := S2048x1536) hz, View.readCov_unit_zero (S := S2048x1536) _ hz, View.readCov_unit_zero (S := S2048x128) _ hz]
  simp only [View.readAt_eq_ld, h1.read_unread, h2.read_unread, h3.read_unread, h4.read_unread, View.ld_unit_zero (S := S128x1536) hz, View.ld_unit_zero (S := S128x1) hz, View.ld_unit_zero (S := S2048x1536) hz, View.ld_unit_zero (S := S2048x128) hz]

/-! ## The tiles, read off their arrays -/

variable (V : (c : Dev nD) → (b : Ref sig .tc) → Buf (Elt Ideal) ((c : Thread nD τ).loc b))

/-- The feature tile of point `t`. -/
abbrev ftile (c : Dev nD) (t : Fin cfg0.N) : Vec Ideal S128x1536 .f32 := iblk0 V c 0 t
/-- The segment words' tile of point `t`. -/
abbrev stile (c : Dev nD) (t : Fin cfg0.N) : Vec Ideal S128x1 .i32 := iblk0 V c 1 t
/-- Row `n` of the features array, entry `d`. -/
abbrev feat (c : Dev nD) (n : Fin 131072) (d : Fin 1536) : EReal := V c main_arg0 (ix2 n d)
/-- Row `n`'s segment word. -/
abbrev seg (c : Dev nD) (n : Fin 131072) : BitVec 32 := V c main_v0 (ix2 n (0 : Fin 1))

/-- Both tiles' block index at point `t` is (t, 0). -/
theorem tile_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of point `t`'s feature tile is row `128 t + r` of the array. -/
theorem ftile_at (c : Dev nD) (t : Fin cfg0.N) (ht : t.val < 1024) (r : Fin 128) (d : Fin 1536) :
    ftile V c t (ix2 r d) = feat V c (Cert.PoolMath.row ⟨t.val, ht⟩ r) d := by
  obtain ⟨e0, e1, -, -⟩ := tile_index t
  show ((cfg0.win 0).blk t).view.read (Elt Ideal) (V c (Pipeline.arrRef spec0 0)) (ix2 r d) = _
  rw [View.read_apply]
  show V c main_arg0 _ = V c main_arg0 _
  congr 1
  funext a
  apply Fin.ext
  match a with
  | ⟨0, _⟩ => show win0_0.index t (0 : Fin 2) * 128 + 1 * r.val = 128 * t.val + r.val; rw [e0]; omega
  | ⟨1, _⟩ => show win0_0.index t (1 : Fin 2) * 1536 + 1 * d.val = d.val; rw [e1]; omega

/-- Row `r` of point `t`'s word tile is row `128 t + r` of the array. -/
theorem stile_at (c : Dev nD) (t : Fin cfg0.N) (ht : t.val < 1024) (r : Fin 128) :
    stile V c t (ix2 r (0 : Fin 1)) = seg V c (Cert.PoolMath.row ⟨t.val, ht⟩ r) := by
  obtain ⟨-, -, e0, e1⟩ := tile_index t
  show ((cfg0.win 1).blk t).view.read (Elt Ideal) (V c (Pipeline.arrRef spec0 1)) (ix2 r (0 : Fin 1)) = _
  rw [View.read_apply]
  show V c main_v0 _ = V c main_v0 _
  congr 1
  funext a
  apply Fin.ext
  match a with
  | ⟨0, _⟩ => show win0_1.index t (0 : Fin 2) * 128 + 1 * r.val = 128 * t.val + r.val; rw [e0]; omega
  | ⟨1, _⟩ => show win0_1.index t (1 : Fin 2) * 1 + 1 * 0 = 0; rw [e1]

/-! ## The two buffers after each point, over the tiles -/

/-- After the first point. -/
theorem sums_A (c : Dev nD) (t : Fin cfg0.N) (h0 : t.val = 0) :
    (outsAt0 V c t.val t.isLt).1 = k0_pay4 (ftile V c t) (stile V c t) (k0_pay1 (F := Ideal)) := by
  rw [outsAt0_A V c t h0]
  dsimp only
  exact out_A (F := Ideal) c (grid0.coords t) (ms0_0 t) (hs0_0 t) (ms0_1 t) (hs0_1 t) (ms0_2 t) (hs0_2 t) scM0 (Memref.isWhole_whole _) _ _ (iblk0 V c 0 t) (iblk0 V c 1 t)

theorem cnts_A (c : Dev nD) (t : Fin cfg0.N) (h0 : t.val = 0) :
    (outsAt0 V c t.val t.isLt).2 = k0_pay5 (stile V c t) (k0_pay2 (F := Ideal)) := by
  rw [outsAt0_A V c t h0]
  dsimp only
  exact sout_A (F := Ideal) c (grid0.coords t) (ms0_0 t) (hs0_0 t) (ms0_1 t) (hs0_1 t) (ms0_2 t) (hs0_2 t) scM0 (Memref.isWhole_whole _) _ _ (iblk0 V c 0 t) (iblk0 V c 1 t)

/-- After a middle point, over what the point before left. -/
theorem sums_B (c : Dev nD) (t : Fin cfg0.N) (h0 : ¬t.val = 0) (h1 : ¬t.val = 1023) :
    (outsAt0 V c t.val t.isLt).1
      = k0_pay4 (ftile V c t) (stile V c t) (outsAt0 V c (t.val - 1) (Nat.lt_of_le_of_lt (Nat.sub_le _ _) t.isLt)).1 := by
  rw [outsAt0_B V c t h0 h1]
  dsimp only
  exact out_B (F := Ideal) c (grid0.coords t) (ms0_0 t) (hs0_0 t) (ms0_1 t) (hs0_1 t) (ms0_2 t) (hs0_2 t) scM0 (Memref.isWhole_whole _) _ _ (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2

theorem cnts_B (c : Dev nD) (t : Fin cfg0.N) (h0 : ¬t.val = 0) (h1 : ¬t.val = 1023) :
    (outsAt0 V c t.val t.isLt).2
      = k0_pay5 (stile V c t) (outsAt0 V c (t.val - 1) (Nat.lt_of_le_of_lt (Nat.sub_le _ _) t.isLt)).2 := by
  rw [outsAt0_B V c t h0 h1]
  dsimp only
  exact sout_B (F := Ideal) c (grid0.coords t) (ms0_0 t) (hs0_0 t) (ms0_1 t) (hs0_1 t) (ms0_2 t) (hs0_2 t) scM0 (Memref.isWhole_whole _) _ _ (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2

/-- After the last point, over what the point before left. -/
theorem sums_C (c : Dev nD) (t : Fin cfg0.N) (h0 : ¬t.val = 0) (h1 : t.val = 1023) :
    (outsAt0 V c t.val t.isLt).1
      = k0_pay6 (k0_pay5 (stile V c t) (outsAt0 V c (t.val - 1) (Nat.lt_of_le_of_lt (Nat.sub_le _ _) t.isLt)).2)
          (k0_pay4 (ftile V c t) (stile V c t) (outsAt0 V c (t.val - 1) (Nat.lt_of_le_of_lt (Nat.sub_le _ _) t.isLt)).1) := by
  rw [outsAt0_C V c t h0 h1]
  dsimp only
  exact out_C (F := Ideal) c (grid0.coords t) (ms0_0 t) (hs0_0 t) (ms0_1 t) (hs0_1 t) (ms0_2 t) (hs0_2 t) scM0 (Memref.isWhole_whole _) _ _ (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2

/-! ## The partial sums -/

/-- What row `n` adds to entry (g, d) of the sums: its features where its word is `g`. -/
abbrev sumTerm (c : Dev nD) (g : Fin 2048) (d : Fin 1536) (n : Fin 131072) : EReal := Cert.Spec.hot (seg V c n) g * feat V c n d
/-- What row `n` adds to segment `g`'s count. -/
abbrev cntTerm (c : Dev nD) (g : Fin 2048) (n : Fin 131072) : EReal := Cert.Spec.hot (seg V c n) g

/-- One tile's addend to the sums, over the array's rows. -/
theorem tile_sum (c : Dev nD) (t : Fin cfg0.N) (ht : t.val < 1024) (g : Fin 2048) (d : Fin 1536) :
    ∑ r : Fin 128, Cert.Spec.hot (stile V c t (ix2 r (0 : Fin 1))) g * ftile V c t (ix2 r d)
      = ∑ r : Fin 128, sumTerm V c g d (Cert.PoolMath.row ⟨t.val, ht⟩ r) :=
  Finset.sum_congr rfl fun r _ => by rw [stile_at V c t ht r, ftile_at V c t ht r d]

/-- One tile's addend to the counts, over the array's rows. -/
theorem tile_cnt (c : Dev nD) (t : Fin cfg0.N) (ht : t.val < 1024) (g : Fin 2048) :
    ∑ r : Fin 128, Cert.Spec.hot (stile V c t (ix2 r (0 : Fin 1))) g
      = ∑ r : Fin 128, cntTerm V c g (Cert.PoolMath.row ⟨t.val, ht⟩ r) :=
  Finset.sum_congr rfl fun r _ => by rw [stile_at V c t ht r]

/-- After the first point: the first tile's rows. -/
theorem base_sums (c : Dev nD) (hn : 0 < cfg0.N) (g : Fin 2048) (d : Fin 1536) :
    (outsAt0 V c 0 hn).1 (ix2 g d) = Cert.PoolMath.upto (sumTerm V c g d) (0 + 1) := by
  have hN : (0 : ℕ) < 1024 := by norm_num
  refine (congrFun (sums_A V c ⟨0, hn⟩ rfl) (ix2 g d)).trans ?_
  refine (PoolPay.pay4_at (ftile V c ⟨0, hn⟩) (stile V c ⟨0, hn⟩) (k0_pay1 (F := Ideal)) g d).trans ?_
  rw [PoolPay.pay1_at g d, tile_sum V c ⟨0, hn⟩ hN g d, Cert.PoolMath.upto_succ (sumTerm V c g d) 0 hN, Cert.PoolMath.upto_zero]

/-- After the first point: the first tile's counts. -/
theorem base_cnts (c : Dev nD) (hn : 0 < cfg0.N) (g : Fin 2048) (j : Fin 128) :
    (outsAt0 V c 0 hn).2 (ix2 g j) = Cert.PoolMath.upto (cntTerm V c g) (0 + 1) := by
  have hN : (0 : ℕ) < 1024 := by norm_num
  refine (congrFun (cnts_A V c ⟨0, hn⟩ rfl) (ix2 g j)).trans ?_
  refine (PoolPay.pay5_at (stile V c ⟨0, hn⟩) (k0_pay2 (F := Ideal)) g j).trans ?_
  rw [PoolPay.pay2_at g j, tile_cnt V c ⟨0, hn⟩ hN g, Cert.PoolMath.upto_succ (cntTerm V c g) 0 hN, Cert.PoolMath.upto_zero]

/-- The middle and last points' equations, the point written as a successor. -/
theorem sums_succ (c : Dev nD) (n : ℕ) (hn : n + 1 < cfg0.N) (h1 : ¬n + 1 = 1023) :
    (outsAt0 V c (n + 1) hn).1
      = k0_pay4 (ftile V c ⟨n + 1, hn⟩) (stile V c ⟨n + 1, hn⟩) (outsAt0 V c n (Nat.lt_of_succ_lt hn)).1 :=
  sums_B V c ⟨n + 1, hn⟩ (Nat.succ_ne_zero n) h1

theorem cnts_succ (c : Dev nD) (n : ℕ) (hn : n + 1 < cfg0.N) (h1 : ¬n + 1 = 1023) :
    (outsAt0 V c (n + 1) hn).2 = k0_pay5 (stile V c ⟨n + 1, hn⟩) (outsAt0 V c n (Nat.lt_of_succ_lt hn)).2 :=
  cnts_B V c ⟨n + 1, hn⟩ (Nat.succ_ne_zero n) h1

theorem sums_last (c : Dev nD) (n : ℕ) (hn : n + 1 < cfg0.N) (h1 : n + 1 = 1023) :
    (outsAt0 V c (n + 1) hn).1
      = k0_pay6 (k0_pay5 (stile V c ⟨n + 1, hn⟩) (outsAt0 V c n (Nat.lt_of_succ_lt hn)).2)
          (k0_pay4 (ftile V c ⟨n + 1, hn⟩) (stile V c ⟨n + 1, hn⟩) (outsAt0 V c n (Nat.lt_of_succ_lt hn)).1) :=
  sums_C V c ⟨n + 1, hn⟩ (Nat.succ_ne_zero n) h1

/-- One more tile: the sums so far gain the tile's rows. -/
theorem add_tile_sums (c : Dev nD) (n : ℕ) (hn : n + 1 < cfg0.N) (hN : n + 1 < 1024) (g : Fin 2048) (d : Fin 1536)
    (ih : (outsAt0 V c n (Nat.lt_of_succ_lt hn)).1 (ix2 g d) = Cert.PoolMath.upto (sumTerm V c g d) (n + 1)) :
    k0_pay4 (ftile V c ⟨n + 1, hn⟩) (stile V c ⟨n + 1, hn⟩) (outsAt0 V c n (Nat.lt_of_succ_lt hn)).1 (ix2 g d)
      = Cert.PoolMath.upto (sumTerm V c g d) (n + 1 + 1) := by
  refine (PoolPay.pay4_at (ftile V c ⟨n + 1, hn⟩) (stile V c ⟨n + 1, hn⟩) (outsAt0 V c n (Nat.lt_of_succ_lt hn)).1 g d).trans ?_
  rw [tile_sum V c ⟨n + 1, hn⟩ hN g d, Cert.PoolMath.upto_succ (sumTerm V c g d) (n + 1) hN, ih]

/-- One more tile: the counts so far gain the tile's rows of the segment. -/
theorem add_tile_cnts (c : Dev nD) (n : ℕ) (hn : n + 1 < cfg0.N) (hN : n + 1 < 1024) (g : Fin 2048) (j : Fin 128)
    (ih : (outsAt0 V c n (Nat.lt_of_succ_lt hn)).2 (ix2 g j) = Cert.PoolMath.upto (cntTerm V c g) (n + 1)) :
    k0_pay5 (stile V c ⟨n + 1, hn⟩) (outsAt0 V c n (Nat.lt_of_succ_lt hn)).2 (ix2 g j)
      = Cert.PoolMath.upto (cntTerm V c g) (n + 1 + 1) := by
  refine (PoolPay.pay5_at (stile V c ⟨n + 1, hn⟩) (outsAt0 V c n (Nat.lt_of_succ_lt hn)).2 g j).trans ?_
  rw [tile_cnt V c ⟨n + 1, hn⟩ hN g, Cert.PoolMath.upto_succ (cntTerm V c g) (n + 1) hN, ih]

/-- Before the last point the two buffers hold the sums and the counts over the tiles so far. -/
theorem partial_sums (c : Dev nD) : ∀ (n : ℕ) (hn : n < cfg0.N), n < 1023 →
    (∀ (g : Fin 2048) (d : Fin 1536), (outsAt0 V c n hn).1 (ix2 g d) = Cert.PoolMath.upto (sumTerm V c g d) (n + 1))
    ∧ (∀ (g : Fin 2048) (j : Fin 128), (outsAt0 V c n hn).2 (ix2 g j) = Cert.PoolMath.upto (cntTerm V c g) (n + 1))
  | 0, hn, _ => ⟨fun g d => base_sums V c hn g d, fun g j => base_cnts V c hn g j⟩
  | n + 1, hn, hlt => by
    have hN : n + 1 < 1024 := by omega
    have h1 : ¬n + 1 = 1023 := by omega
    obtain ⟨ih1, ih2⟩ := partial_sums c n (Nat.lt_of_succ_lt hn) (by omega)
    exact ⟨fun g d => (congrFun (sums_succ V c n hn h1) (ix2 g d)).trans (add_tile_sums V c n hn hN g d (ih1 g d)),
      fun g j => (congrFun (cnts_succ V c n hn h1) (ix2 g j)).trans (add_tile_cnts V c n hn hN g j (ih2 g j))⟩

/-- After the last point the sums' buffer holds the mean rows: the full sums over the full counts, the 128 equal
    columns of the counts totalled and scaled back by 1/128, floored at one. -/
theorem last_point (c : Dev nD) (tL : Fin cfg0.N) (hL : tL.val = 1023) (g : Fin 2048) (d : Fin 1536) :
    (outsAt0 V c tL.val tL.isLt).1 (ix2 g d) = Cert.Spec.pooled (feat V c) (seg V c) g d := by
  obtain ⟨m, hm⟩ := tL
  cases m with
  | zero => exact absurd (show (0 : ℕ) = 1023 from hL) (by decide)
  | succ n =>
    have hL' : n + 1 = 1023 := hL
    have hN : n + 1 < 1024 := by omega
    have h24 : n + 1 + 1 = 1024 := by omega
    obtain ⟨ih1, ih2⟩ := partial_sums V c n (Nat.lt_of_succ_lt hm) (by omega)
    have e4 := add_tile_sums V c n hm hN g d (ih1 g d)
    have e5 : ∀ j : Fin 128, k0_pay5 (stile V c ⟨n + 1, hm⟩) (outsAt0 V c n (Nat.lt_of_succ_lt hm)).2 (ix2 g j)
        = Cert.PoolMath.upto (cntTerm V c g) (n + 1 + 1) := fun j => add_tile_cnts V c n hm hN g j (ih2 g j)
    refine (congrFun (sums_last V c n hm hL') (ix2 g d)).trans ?_
    refine (PoolPay.pay6_at (k0_pay5 (stile V c ⟨n + 1, hm⟩) (outsAt0 V c n (Nat.lt_of_succ_lt hm)).2)
      (k0_pay4 (ftile V c ⟨n + 1, hm⟩) (stile V c ⟨n + 1, hm⟩) (outsAt0 V c n (Nat.lt_of_succ_lt hm)).1) g d).trans ?_
    rw [e4, Finset.sum_congr rfl (fun j _ => e5 j), h24, Cert.PoolMath.upto_all, Cert.PoolMath.upto_all]
    show Ideal.div (Cert.Spec.segSum (feat V c) (seg V c) g d)
      (max ((∑ _j : Fin 128, Cert.Spec.segCnt (seg V c) g) * (((1 / 128 : ℝ)) : EReal)) 1) = _
    rw [Cert.PoolMath.cnt_scale]
    rfl

/-! ## The array -/

/-- The output's block index is (0, 0) at every point, and the block is never cut. -/
theorem out_index : ∀ t : Fin cfg0.N, win0_2.index t (0 : Fin 2) = 0 ∧ win0_2.index t (1 : Fin 2) = 0
    ∧ win0_2.xsize (grid0.coords t) (0 : Fin 2) = 2048 ∧ win0_2.xsize (grid0.coords t) (1 : Fin 2) = 1536 :=
  (by decide +kernel : ∀ t : Fin grid0.N, _)

/-- The output's block is the whole array: what a point writes back of contents `G` of its buffer is `G` read
    through the block. -/
theorem whole_block (G : Vec Ideal S2048x1536 .f32) (t : Fin cfg0.N) :
    (cfg0.win 2).cut (grid0.coords t) G = ((cfg0.win 2).blk t).view.read (Elt Ideal) G := by
  obtain ⟨e0, e1, -, -⟩ := out_index t
  have hz' : (fun a => win0_2.index t a * main_v1.ty.shape.size a) = fun _ => 0 := funext fun (a : Fin 2) => by
    match a with
    | ⟨0, _⟩ => show win0_2.index t (0 : Fin 2) * 2048 = 0; rw [e0]
    | ⟨1, _⟩ => show win0_2.index t (1 : Fin 2) * 1536 = 0; rw [e1]
  exact (Memref.read_access_unit_zero (Elt Ideal) main_v1 hz' (fun a => by rw [congrFun hz' a]; simp) G).symm

/-- The one write-back, after the last point `tL`, writes what the last point left. -/
theorem flushed_last (c : Dev nD) (tL : Fin cfg0.N) (hL : tL.val = 1023) (t : Fin cfg0.N) (hf : (cfg0.win 2).flush t = true) :
    (dat0 (F := Ideal) V c).flushed 2 t = ((cfg0.win 2).blk t).view.read (Elt Ideal) (outsAt0 V c tL.val tL.isLt).1 := by
  have hN : cfg0.N = 1024 := N_0
  have h3 : t.val = 1023 := by have := (flush0_2 t).mp hf; have := t.isLt; omega
  obtain rfl : t = tL := Fin.ext (h3.trans hL.symm)
  show (cfg0.win 2).cut (grid0.coords t) ((dat0 (F := Ideal) V c).after 2 t) = _
  rw [after0_2]
  exact whole_block (outsAt0 V c t.val t.isLt).1 t

/-- Every entry of the array lies in the last point's block. -/
theorem covered (c : Dev nD) (tL : Fin cfg0.N) (hL : tL.val = 1023) (i : ((cfg0.win 2).arr.view.loc (c.tc : Thread nD τ)).2.ty.Idx) :
    ∃ t : Fin cfg0.N, (cfg0.win 2).flush t = true ∧ i ∈ ((cfg0.win 2).blk t).view.set := by
  obtain ⟨e0, e1, x0, x1⟩ := out_index tL
  refine ⟨tL, (flush0_2 tL).mpr (by omega), ?_⟩
  show i ∈ ((View.whole main_v1).slice (win0_2.rect tL)).set
  rw [View.set_slice_whole, Rect.mem_set_unit]
  intro a
  have h0 : (i 0 : Nat) < 2048 := (i 0).isLt
  have h1 : (i 1 : Nat) < 1536 := (i 1).isLt
  match a with
  | ⟨0, _⟩ =>
    show win0_2.index tL (0 : Fin 2) * 2048 ≤ (i 0 : Nat)
      ∧ (i 0 : Nat) < win0_2.index tL (0 : Fin 2) * 2048 + win0_2.xsize (grid0.coords tL) (0 : Fin 2)
    rw [e0, x0]; omega
  | ⟨1, _⟩ =>
    show win0_2.index tL (1 : Fin 2) * 1536 ≤ (i 1 : Nat)
      ∧ (i 1 : Nat) < win0_2.index tL (1 : Fin 2) * 1536 + win0_2.xsize (grid0.coords tL) (1 : Fin 2)
    rw [e1, x1]; omega

/-- So the array ends holding what the last point left. -/
theorem arr_last (c : Dev nD) (tL : Fin cfg0.N) (hL : tL.val = 1023) :
    (dat0 (F := Ideal) V c).arrAt 2 cfg0.N = (outsAt0 V c tL.val tL.isLt).1 :=
  (dat0 (F := Ideal) V c).arrAt_eq_of_cover 2 (outsAt0 V c tL.val tL.isLt).1 (flushed_last V c tL hL) (covered c tL hL)

/-- The array's entry (g, d), whichever way the last point is named. -/
theorem pool_final_at (c : Dev nD) (tL : Fin cfg0.N) (hL : tL.val = 1023) (g : Fin 2048) (d : Fin 1536) :
    (dat0 (F := Ideal) V c).arrAt 2 cfg0.N (ix2 g d) = Cert.Spec.pooled (feat V c) (seg V c) g d :=
  (congrFun (arr_last V c tL hL) (ix2 g d)).trans (last_point V c tL hL g d)

/-- The array the pooling call leaves behind its output window, at segment `g` and entry `d`: the mean of the rows of
    the features array whose word in the (reshaped) segment array is `g`. -/
theorem pool_final (c : Dev nD) (g : Fin 2048) (d : Fin 1536) :
    (dat0 (F := Ideal) V c).arrAt 2 cfg0.N (ix2 g d)
      = Cert.Spec.pooled (fun n d => V c main_arg0 (ix2 n d)) (fun n => V c main_v0 (ix2 n (0 : Fin 1))) g d := by
  have hn : 1023 < cfg0.N := by rw [show cfg0.N = 1024 from N_0]; norm_num
  exact pool_final_at V c ⟨1023, hn⟩ rfl g d

end Cert.KernelIdeal.PoolValue

end
-- ==== Proof.MlpValue.lean ====
/-
  The second kernel's stored value, entry by entry: the three layers of `Spec.head` applied to its first operand.

  Each of its two matrix products into a zero accumulator is the sum over the contracted axis; the last layer is a
  product with the one row of the third weight matrix summed along the row; the format changes are the identity over
  the extended reals.
-/
import proofs.«426081_j76639396429977_2_alg».proof.Proof.Gen.KernelIdeal.Skeleton
import proofs.«426081_j76639396429977_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.MlpValue

open Idealize.ShloMosaic Idealize.ShloMosaic.ValueIdx Cert.KernelIdeal Cert.KernelIdeal.Gen

/-! ## The two matrix products at an entry -/

/-- First product, left operand: the row coordinate is the result's row. -/
theorem lhs_dot1_0 (i : S2048x64.Idx) (q : dot_S2048x1536_S64x1536_S2048x64_1_1_0_0_n_n.contr.Idx) :
    (dot_S2048x1536_S64x1536_S2048x64_1_1_0_0_n_n.lhsIdx i q 0).val = (i 0).val := by
  unfold DotDims.lhsIdx
  rw [dif_neg (show ¬(0 : Fin S2048x1536.rank) ∈ dot_S2048x1536_S64x1536_S2048x64_1_1_0_0_n_n.lhsBatch by decide), dif_pos (show (0 : Fin S2048x1536.rank) ∈ dot_S2048x1536_S64x1536_S2048x64_1_1_0_0_n_n.lhsNonContracting by decide)]
  rfl
/-- First product, left operand: the column coordinate is the contracted one. -/
theorem lhs_dot1_1 (i : S2048x64.Idx) (q : dot_S2048x1536_S64x1536_S2048x64_1_1_0_0_n_n.contr.Idx) :
    (dot_S2048x1536_S64x1536_S2048x64_1_1_0_0_n_n.lhsIdx i q 1).val = (q ⟨0, by decide⟩).val :=
  dot_S2048x1536_S64x1536_S2048x64_1_1_0_0_n_n.lhsIdx_val_of_single rfl i q
/-- First product, right operand: the row coordinate is the result's column. -/
theorem rhs_dot1_0 (i : S2048x64.Idx) (q : dot_S2048x1536_S64x1536_S2048x64_1_1_0_0_n_n.contr.Idx) :
    (dot_S2048x1536_S64x1536_S2048x64_1_1_0_0_n_n.rhsIdx i q 0).val = (i 1).val := by
  unfold DotDims.rhsIdx
  rw [dif_neg (show ¬(0 : Fin S64x1536.rank) ∈ dot_S2048x1536_S64x1536_S2048x64_1_1_0_0_n_n.rhsBatch by decide), dif_pos (show (0 : Fin S64x1536.rank) ∈ dot_S2048x1536_S64x1536_S2048x64_1_1_0_0_n_n.rhsNonContracting by decide)]
  rfl
/-- First product, right operand: the column coordinate is the contracted one. -/
theorem rhs_dot1_1 (i : S2048x64.Idx) (q : dot_S2048x1536_S64x1536_S2048x64_1_1_0_0_n_n.contr.Idx) :
    (dot_S2048x1536_S64x1536_S2048x64_1_1_0_0_n_n.rhsIdx i q 1).val = (q ⟨0, by decide⟩).val :=
  dot_S2048x1536_S64x1536_S2048x64_1_1_0_0_n_n.rhsIdx_val_of_single rfl i q

/-- The first product into a zero accumulator, at `(g, j)`: row `g` of the left operand against row `j` of the right. -/
theorem dot1_at {φ₁ φ₂ : FTy} (a : FVec Ideal S2048x1536 φ₁) (b : FVec Ideal S64x1536 φ₂) (g : Fin 2048) (j : Fin 64) :
    matmul dot_S2048x1536_S64x1536_S2048x64_1_1_0_0_n_n none a b (constant (F := Ideal) S2048x64 .f32 0x00000000#32) (ix2 g j)
      = ∑ k : Fin 1536, a (ix2 g k) * b (ix2 j k) := by
  simp only [matmul]
  rw [Ideal.matmul_constant_zero_apply, ← Equiv.sum_comp (contrEquiv1 dot_S2048x1536_S64x1536_S2048x64_1_1_0_0_n_n 1536 rfl rfl).symm]
  refine Finset.sum_congr rfl fun k _ => ?_
  have hk := contrEquiv1_symm_val dot_S2048x1536_S64x1536_S2048x64_1_1_0_0_n_n 1536 rfl rfl k
  have el : dot_S2048x1536_S64x1536_S2048x64_1_1_0_0_n_n.lhsIdx (ix2 g j) ((contrEquiv1 dot_S2048x1536_S64x1536_S2048x64_1_1_0_0_n_n 1536 rfl rfl).symm k) = ix2 g k := funext fun ax => Fin.ext (by
    match ax with
    | ⟨0, _⟩ => exact lhs_dot1_0 _ _
    | ⟨1, _⟩ => exact (lhs_dot1_1 _ _).trans hk)
  have er : dot_S2048x1536_S64x1536_S2048x64_1_1_0_0_n_n.rhsIdx (ix2 g j) ((contrEquiv1 dot_S2048x1536_S64x1536_S2048x64_1_1_0_0_n_n 1536 rfl rfl).symm k) = ix2 j k := funext fun ax => Fin.ext (by
    match ax with
    | ⟨0, _⟩ => exact rhs_dot1_0 _ _
    | ⟨1, _⟩ => exact (rhs_dot1_1 _ _).trans hk)
  rw [el, er]

/-- Second product, left operand: the row coordinate is the result's row. -/
theorem lhs_dot2_0 (i : S2048x32.Idx) (q : dot_S2048x64_S32x64_S2048x32_1_1_0_0_n_n.contr.Idx) :
    (dot_S2048x64_S32x64_S2048x32_1_1_0_0_n_n.lhsIdx i q 0).val = (i 0).val := by
  unfold DotDims.lhsIdx
  rw [dif_neg (show ¬(0 : Fin S2048x64.rank) ∈ dot_S2048x64_S32x64_S2048x32_1_1_0_0_n_n.lhsBatch by decide), dif_pos (show (0 : Fin S2048x64.rank) ∈ dot_S2048x64_S32x64_S2048x32_1_1_0_0_n_n.lhsNonContracting by decide)]
  rfl
/-- Second product, left operand: the column coordinate is the contracted one. -/
theorem lhs_dot2_1 (i : S2048x32.Idx) (q : dot_S2048x64_S32x64_S2048x32_1_1_0_0_n_n.contr.Idx) :
    (dot_S2048x64_S32x64_S2048x32_1_1_0_0_n_n.lhsIdx i q 1).val = (q ⟨0, by decide⟩).val :=
  dot_S2048x64_S32x64_S2048x32_1_1_0_0_n_n.lhsIdx_val_of_single rfl i q
/-- Second product, right operand: the row coordinate is the result's column. -/
theorem rhs_dot2_0 (i : S2048x32.Idx) (q : dot_S2048x64_S32x64_S2048x32_1_1_0_0_n_n.contr.Idx) :
    (dot_S2048x64_S32x64_S2048x32_1_1_0_0_n_n.rhsIdx i q 0).val = (i 1).val := by
  unfold DotDims.rhsIdx
  rw [dif_neg (show ¬(0 : Fin S32x64.rank) ∈ dot_S2048x64_S32x64_S2048x32_1_1_0_0_n_n.rhsBatch by decide), dif_pos (show (0 : Fin S32x64.rank) ∈ dot_S2048x64_S32x64_S2048x32_1_1_0_0_n_n.rhsNonContracting by decide)]
  rfl
/-- Second product, right operand: the column coordinate is the contracted one. -/
theorem rhs_dot2_1 (i : S2048x32.Idx) (q : dot_S2048x64_S32x64_S2048x32_1_1_0_0_n_n.contr.Idx) :
    (dot_S2048x64_S32x64_S2048x32_1_1_0_0_n_n.rhsIdx i q 1).val = (q ⟨0, by decide⟩).val :=
  dot_S2048x64_S32x64_S2048x32_1_1_0_0_n_n.rhsIdx_val_of_single rfl i q

/-- The second product into a zero accumulator, at `(g, k)`: row `g` of the left operand against row `k` of the right. -/
theorem dot2_at {φ₁ φ₂ : FTy} (a : FVec Ideal S2048x64 φ₁) (b : FVec Ideal S32x64 φ₂) (g : Fin 2048) (k : Fin 32) :
    matmul dot_S2048x64_S32x64_S2048x32_1_1_0_0_n_n none a b (constant (F := Ideal) S2048x32 .f32 0x00000000#32) (ix2 g k)
      = ∑ j : Fin 64, a (ix2 g j) * b (ix2 k j) := by
  simp only [matmul]
  rw [Ideal.matmul_constant_zero_apply, ← Equiv.sum_comp (contrEquiv1 dot_S2048x64_S32x64_S2048x32_1_1_0_0_n_n 64 rfl rfl).symm]
  refine Finset.sum_congr rfl fun j _ => ?_
  have hj := contrEquiv1_symm_val dot_S2048x64_S32x64_S2048x32_1_1_0_0_n_n 64 rfl rfl j
  have el : dot_S2048x64_S32x64_S2048x32_1_1_0_0_n_n.lhsIdx (ix2 g k) ((contrEquiv1 dot_S2048x64_S32x64_S2048x32_1_1_0_0_n_n 64 rfl rfl).symm j) = ix2 g j := funext fun ax => Fin.ext (by
    match ax with
    | ⟨0, _⟩ => exact lhs_dot2_0 _ _
    | ⟨1, _⟩ => exact (lhs_dot2_1 _ _).trans hj)
  have er : dot_S2048x64_S32x64_S2048x32_1_1_0_0_n_n.rhsIdx (ix2 g k) ((contrEquiv1 dot_S2048x64_S32x64_S2048x32_1_1_0_0_n_n 64 rfl rfl).symm j) = ix2 k j := funext fun ax => Fin.ext (by
    match ax with
    | ⟨0, _⟩ => exact rhs_dot2_0 _ _
    | ⟨1, _⟩ => exact (rhs_dot2_1 _ _).trans hj)
  rw [el, er]

/-! ## The layout operations and the lane sum at an entry -/

/-- A sum along the 32 columns, at row `g`. -/
theorem rowsum_at (v : FVec Ideal S2048x32 .f32) (h : S2048x32.Reduces [1] S2048) (g : Fin 2048) :
    multiReduction (F := Ideal) .add [1] S2048 v 0x00000000#32 h (.inl rfl) rfl (ix1 g) = ∑ k : Fin 32, v (ix2 g k) := by
  refine (Ideal.multiReduction_add_single v _ h (.inl rfl) rfl (ix1 g)).trans ?_
  refine Finset.sum_congr rfl fun k _ => congrArg v ?_
  funext ax
  apply Fin.ext
  match ax with
  | ⟨0, _⟩ => rfl
  | ⟨1, _⟩ => rfl

/-- A vector of 2048 entries laid out as one column reads, at `(g, u)`, the entry `g`. -/
theorem column_at {α : Type} (x : S2048.Idx → α) (h : S2048.ShapeCasts S2048x1) (g : Fin 2048) (u : Fin 1) :
    shapeCast S2048x1 x h (ix2 g u) = x (ix1 g) :=
  shapeCast_apply x h _ _ (by
    have hu : u.val = 0 := by omega
    rw [Shape.rowMajor_val_two, Shape.rowMajor_val_one]
    show g.val = g.val * 1 + u.val
    rw [hu, Nat.mul_one, Nat.add_zero])

/-! ## The three layers at an entry -/

/-- The first layer as the kernel writes it, at `(g, j)`. -/
theorem h1_at (x : FVec Ideal S2048x1536 .f32) (w1 : FVec Ideal S64x1536 .f32) (b1 : FVec Ideal S1x64 .f32)
    (hx : S2048x1536.ShapeCasts S2048x1536) (hb : S1x64.ShapeCasts S1x64) (hbc : S1x64.Broadcasts S2048x64)
    (hlt : FTy.bits .bf16 < FTy.bits .f32) (g : Fin 2048) (j : Fin 64) :
    maximumf (addf (matmul dot_S2048x1536_S64x1536_S2048x64_1_1_0_0_n_n none (truncf .bf16 (shapeCast S2048x1536 x hx) hlt)
        (truncf .bf16 w1 hlt) (constant (F := Ideal) S2048x64 .f32 0x00000000#32))
        (broadcastTo S2048x64 (shapeCast S1x64 b1 hb) hbc))
      (broadcast S2048x64 (Scalar.ofBits (F := Ideal) .f32 0x00000000#32)) (ix2 g j)
      = Cert.Spec.layer1 (fun g d => x (ix2 g d)) (fun j d => w1 (ix2 j d)) (fun j => b1 (ix2 (0 : Fin 1) j)) g j := by
  rw [maximumf_apply, addf_apply, dot1_at, shapeCast_self, shapeCast_self, broadcastTo_1b_ab_apply, broadcast_apply]
  simp only [truncf_apply]
  show max (_ + _) (Ideal.ofBits .f32 0x00000000#32) = _
  rw [Ideal.ofBits_zero_f32]
  rfl

/-- The second layer as the kernel writes it, over any first-layer value `h`, at `(g, k)`. -/
theorem h2_at (h : FVec Ideal S2048x64 .f32) (w2 : FVec Ideal S32x64 .f32) (b2 : FVec Ideal S1x32 .f32)
    (hb : S1x32.ShapeCasts S1x32) (hbc : S1x32.Broadcasts S2048x32)
    (hlt : FTy.bits .bf16 < FTy.bits .f32) (g : Fin 2048) (k : Fin 32) :
    maximumf (addf (matmul dot_S2048x64_S32x64_S2048x32_1_1_0_0_n_n none (truncf .bf16 h hlt)
        (truncf .bf16 w2 hlt) (constant (F := Ideal) S2048x32 .f32 0x00000000#32))
        (broadcastTo S2048x32 (shapeCast S1x32 b2 hb) hbc))
      (broadcast S2048x32 (Scalar.ofBits (F := Ideal) .f32 0x00000000#32)) (ix2 g k)
      = max ((∑ j : Fin 64, h (ix2 g j) * w2 (ix2 k j)) + b2 (ix2 (0 : Fin 1) k)) 0 := by
  rw [maximumf_apply, addf_apply, dot2_at, shapeCast_self, broadcastTo_1b_ab_apply, broadcast_apply]
  simp only [truncf_apply]
  show max (_ + _) (Ideal.ofBits .f32 0x00000000#32) = _
  rw [Ideal.ofBits_zero_f32]

/-- The third layer as the kernel writes it, over any second-layer value `h`, at `(g, 0)`: the product with the
    one weight row summed along the row, laid out as a column, plus the one bias entry. -/
theorem out_at (h : FVec Ideal S2048x32 .f32) (w3 : FVec Ideal S1x32 .f32) (b3 : FVec Ideal S1x1 .f32)
    (hw : S1x32.Broadcasts S2048x32) (hr : S2048x32.Reduces [1] S2048) (hc : S2048.ShapeCasts S2048x1)
    (hb : S1x1.ShapeCasts S1x1) (hbc : S1x1.Broadcasts S2048x1) (g : Fin 2048) :
    addf (shapeCast S2048x1 (multiReduction (F := Ideal) .add [1] S2048 (mulf h (broadcastTo S2048x32 w3 hw)) 0x00000000#32 hr (.inl rfl) rfl) hc)
        (broadcastTo S2048x1 (shapeCast S1x1 b3 hb) hbc) (ix2 g (0 : Fin 1))
      = (∑ k : Fin 32, h (ix2 g k) * w3 (ix2 (0 : Fin 1) k)) + b3 (ix2 (0 : Fin 1) (0 : Fin 1)) := by
  rw [addf_apply, column_at, rowsum_at, shapeCast_self, broadcastTo_1b_ab_apply]
  refine congrArg (· + b3 (ix2 (0 : Fin 1) (0 : Fin 1))) (Finset.sum_congr rfl fun k _ => ?_)
  rw [mulf_apply, broadcastTo_1b_ab_apply]

/-! ## The stored value -/

/-- The value the second kernel stores, at segment `g`, is the three layers over its operands read at plain
    coordinates. -/
theorem mlp_at (x : Vec Ideal S2048x1536 .f32) (w1 : Vec Ideal S64x1536 .f32) (b1 : Vec Ideal S1x64 .f32)
    (w2 : Vec Ideal S32x64 .f32) (b2 : Vec Ideal S1x32 .f32) (w3 : Vec Ideal S1x32 .f32) (b3 : Vec Ideal S1x1 .f32) (g : Fin 2048) :
    k1_pay1 (F := Ideal) x w1 b1 w2 b2 w3 b3 (ix2 g (0 : Fin 1))
      = Cert.Spec.head (fun g d => x (ix2 g d)) (fun j d => w1 (ix2 j d)) (fun j => b1 (ix2 (0 : Fin 1) j))
          (fun k j => w2 (ix2 k j)) (fun k => b2 (ix2 (0 : Fin 1) k)) (fun k => w3 (ix2 (0 : Fin 1) k)) (b3 (ix2 (0 : Fin 1) (0 : Fin 1))) g := by
  unfold k1_pay1
  refine (out_at _ w3 b3 _ _ _ _ _ g).trans ?_
  unfold Cert.Spec.head Cert.Spec.layer3
  refine congrArg (· + b3 (ix2 (0 : Fin 1) (0 : Fin 1))) (Finset.sum_congr rfl fun k _ => congrArg (· * w3 (ix2 (0 : Fin 1) k)) ?_)
  refine (h2_at _ w2 b2 _ _ _ g k).trans ?_
  unfold Cert.Spec.layer2
  refine congrArg (fun s => max (s + b2 (ix2 (0 : Fin 1) k)) 0) (Finset.sum_congr rfl fun j _ => congrArg (· * w2 (ix2 k j)) ?_)
  exact h1_at x w1 b1 _ _ _ _ g j

end Cert.KernelIdeal.MlpValue

end
-- ==== Proof.MlpArr.lean ====
/-
  What the layers' call leaves in its output array: its grid has one point and every block is a whole array, so the
  array ends at the value the body stored, the three layers of `Spec.head` over the operand arrays.
-/
import proofs.«426081_j76639396429977_2_alg».proof.Proof.KI.MlpFrame
import proofs.«426081_j76639396429977_2_alg».proof.Proof.MlpValue
import proofs.«426081_j76639396429977_2_alg».proof.Proof.Spec
import Idealize.ShloMosaic.Lib.Pipeline.Value

set_option maxRecDepth 16384

noncomputable section

open scoped BigOperators

namespace Cert.KernelIdeal.MlpArr

open Cert.KernelIdeal Cert.KernelIdeal.Gen Cert.KernelIdeal.Fr
open Idealize.ShloMosaic Idealize.ShloMosaic.TcCoe Idealize.ShloMosaic.ValueIdx Idealize.SL.Sem

variable (V : (c : Dev nD) → (b : Ref sig .tc) → Buf (Elt Ideal) ((c : Thread nD τ).loc b))

/-- The offsets of a whole block are zero on both axes. -/
theorem off_zero : (![0, 0] : Fin 2 → Nat) = fun _ => 0 := funext fun a => by fin_cases a <;> rfl

section generic
variable {F : FTy → Type} [FloatOps F]

/-- The one store covers the output's buffer and every load reads a whole operand: the buffer ends at the body's
    arithmetic of the operands. -/
theorem out_eq_pay (x0 : Vec F S2048x1536 .f32) (x1 : Vec F S64x1536 .f32) (x2 : Vec F S1x64 .f32) (x3 : Vec F S32x64 .f32)
    (x4 : Vec F S1x32 .f32) (x5 : Vec F S1x32 .f32) (x6 : Vec F S1x1 .f32) :
    out1_7 x0 x1 x2 x3 x4 x5 x6 = k1_pay1 x0 x1 x2 x3 x4 x5 x6 := by
  unfold out1_7
  rw [View.canon_unit_zero off_zero]
  simp only [View.ld_unit_zero (S := S2048x1536) off_zero, View.ld_unit_zero (S := S64x1536) off_zero, View.ld_unit_zero (S := S1x64) off_zero,
    View.ld_unit_zero (S := S32x64) off_zero, View.ld_unit_zero (S := S1x32) off_zero, View.ld_unit_zero (S := S1x1) off_zero]

end generic

/-! ## The blocks are the arrays -/

/-- Every window's block index at the one point is zero on both axes. -/
theorem idx_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 ∧ True :=
  (by decide +kernel : ∀ t : Fin grid1.N, _)

/-- The block of the first operand (the pooled rows) at the point. -/
abbrev xblk (c : Dev nD) (t : Fin cfg1.N) : Vec Ideal S2048x1536 .f32 := iblk1 V c 0 t

/-- It is the whole array: a block coordinate is the block index times the block's extent plus the coordinate inside
    the block, and the index is zero. -/
theorem xblk_eq (c : Dev nD) (t : Fin cfg1.N) : xblk V c t = V c main_v1 := by
  funext y
  show V c main_v1 (((cfg1.win 0).blk t).view.emb y) = V c main_v1 y
  refine congrArg (V c main_v1) ?_
  obtain ⟨e0, e1, -⟩ := idx_zero t
  funext a; apply Fin.ext
  match a with
  | ⟨0, _⟩ => show win1_0.index t (0 : Fin 2) * 2048 + 1 * (y 0).val = (y 0).val; omega
  | ⟨1, _⟩ => show win1_0.index t (1 : Fin 2) * 1536 + 1 * (y 1).val = (y 1).val; omega

/-- The block of the first weight matrix at the point. -/
abbrev w1blk (c : Dev nD) (t : Fin cfg1.N) : Vec Ideal S64x1536 .f32 := iblk1 V c 1 t

/-- It is the whole array: a block coordinate is the block index times the block's extent plus the coordinate inside
    the block, and the index is zero. -/
theorem w1blk_eq (c : Dev nD) (t : Fin cfg1.N) : w1blk V c t = V c main_arg2 := by
  funext y
  show V c main_arg2 (((cfg1.win 1).blk t).view.emb y) = V c main_arg2 y
  refine congrArg (V c main_arg2) ?_
  obtain ⟨-, -, e0, e1, -⟩ := idx_zero t
  funext a; apply Fin.ext
  match a with
  | ⟨0, _⟩ => show win1_1.index t (0 : Fin 2) * 64 + 1 * (y 0).val = (y 0).val; omega
  | ⟨1, _⟩ => show win1_1.index t (1 : Fin 2) * 1536 + 1 * (y 1).val = (y 1).val; omega

/-- The block of the first bias row at the point. -/
abbrev b1blk (c : Dev nD) (t : Fin cfg1.N) : Vec Ideal S1x64 .f32 := iblk1 V c 2 t

/-- It is the whole array: a block coordinate is the block index times the block's extent plus the coordinate inside
    the block, and the index is zero. -/
theorem b1blk_eq (c : Dev nD) (t : Fin cfg1.N) : b1blk V c t = V c main_v2 := by
  funext y
  show V c main_v2 (((cfg1.win 2).blk t).view.emb y) = V c main_v2 y
  refine congrArg (V c main_v2) ?_
  obtain ⟨-, -, -, -, e0, e1, -⟩ := idx_zero t
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The block of the second weight matrix at the point. -/
abbrev w2blk (c : Dev nD) (t : Fin cfg1.N) : Vec Ideal S32x64 .f32 := iblk1 V c 3 t

/-- It is the whole array: a block coordinate is the block index times the block's extent plus the coordinate inside
    the block, and the index is zero. -/
theorem w2blk_eq (c : Dev nD) (t : Fin cfg1.N) : w2blk V c t = V c main_arg4 := by
  funext y
  show V c main_arg4 (((cfg1.win 3).blk t).view.emb y) = V c main_arg4 y
  refine congrArg (V c main_arg4) ?_
  obtain ⟨-, -, -, -, -, -, e0, e1, -⟩ := idx_zero t
  funext a; apply Fin.ext
  match a with
  | ⟨0, _⟩ => show win1_3.index t (0 : Fin 2) * 32 + 1 * (y 0).val = (y 0).val; omega
  | ⟨1, _⟩ => show win1_3.index t (1 : Fin 2) * 64 + 1 * (y 1).val = (y 1).val; omega

/-- The block of the second bias row at the point. -/
abbrev b2blk (c : Dev nD) (t : Fin cfg1.N) : Vec Ideal S1x32 .f32 := iblk1 V c 4 t

/-- It is the whole array: a block coordinate is the block index times the block's extent plus the coordinate inside
    the block, and the index is zero. -/
theorem b2blk_eq (c : Dev nD) (t : Fin cfg1.N) : b2blk V c t = V c main_v3 := by
  funext y
  show V c main_v3 (((cfg1.win 4).blk t).view.emb y) = V c main_v3 y
  refine congrArg (V c main_v3) ?_
  obtain ⟨-, -, -, -, -, -, -, -, e0, e1, -⟩ := idx_zero t
  funext a; apply Fin.ext
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- The block of the third weight row at the point. -/
abbrev w3blk (c : Dev nD) (t : Fin cfg1.N) : Vec Ideal S1x32 .f32 := iblk1 V c 5 t

/-- It is the whole array: a block coordinate is the block index times the block's extent plus the coordinate inside
    the block, and the index is zero. -/
theorem w3blk_eq (c : Dev nD) (t : Fin cfg1.N) : w3blk V c t = V c main_arg6 := by
  funext y
  show V c main_arg6 (((cfg1.win 5).blk t).view.emb y) = V c main_arg6 y
  refine congrArg (V c main_arg6) ?_
  obtain ⟨-, -, -, -, -, -, -, -, -, -, e0, e1, -⟩ := idx_zero t
  funext a; apply Fin.ext
  match a with
  | ⟨0, _⟩ => show win1_5.index t (0 : Fin 2) * 1 + 1 * (y 0).val = (y 0).val; omega
  | ⟨1, _⟩ => show win1_5.index t (1 : Fin 2) * 32 + 1 * (y 1).val = (y 1).val; omega

/-- The block of the third bias at the point. -/
abbrev b3blk (c : Dev nD) (t : Fin cfg1.N) : Vec Ideal S1x1 .f32 := iblk1 V c 6 t

/-- It is the whole array: a block coordinate is the block index times the block's extent plus the coordinate inside
    the block, and the index is zero. -/
theorem b3blk_eq (c : Dev nD) (t : Fin cfg1.N) : b3blk V c t = V c main_v4 := by
  funext y
  show V c main_v4 (((cfg1.win 6).blk t).view.emb y) = V c main_v4 y
  refine congrArg (V c main_v4) ?_
  obtain ⟨-, -, -, -, -, -, -, -, -, -, -, -, e0, e1, -⟩ := idx_zero t
  funext a; apply Fin.ext
  match a with
  | ⟨0, _⟩ => show win1_6.index t (0 : Fin 2) * 1 + 1 * (y 0).val = (y 0).val; omega
  | ⟨1, _⟩ => show win1_6.index t (1 : Fin 2) * 1 + 1 * (y 1).val = (y 1).val; omega

/-! ## The output array -/

/-- The stored value as one function of the operand arrays. -/
abbrev stored (c : Dev nD) : Vec Ideal S2048x1 .f32 :=
  k1_pay1 (F := Ideal) (V c main_v1) (V c main_arg2) (V c main_v2) (V c main_arg4) (V c main_v3) (V c main_arg6) (V c main_v4)

/-- What the point writes back is the stored value read through the output's block, which is the whole array. -/
theorem flushed_eq (c : Dev nD) (t : Fin cfg1.N) :
    (dat1 (F := Ideal) V c).flushed 7 t = ((cfg1.win 7).blk t).view.read (Elt Ideal) (stored V c) := by
  show (cfg1.win 7).cut (grid1.coords t) ((dat1 (F := Ideal) V c).after 7 t) = _
  rw [after1_7]
  show (cfg1.win 7).cut (grid1.coords t)
      (out1_7 (F := Ideal) (xblk V c t) (w1blk V c t) (b1blk V c t) (w2blk V c t) (b2blk V c t) (w3blk V c t) (b3blk V c t)) = _
  rw [out_eq_pay (F := Ideal) (xblk V c t) (w1blk V c t) (b1blk V c t) (w2blk V c t) (b2blk V c t) (w3blk V c t) (b3blk V c t),
    xblk_eq V c t, w1blk_eq V c t, b1blk_eq V c t, w2blk_eq V c t, b2blk_eq V c t, w3blk_eq V c t, b3blk_eq V c t]
  funext j
  show stored V c ((cfg1.win 7).xinj (grid1.coords t) j) = stored V c (((cfg1.win 7).blk t).view.emb j)
  refine congrArg (stored V c) ?_
  obtain ⟨-, -, -, -, -, -, -, -, -, -, -, -, -, -, e0, e1, -⟩ := idx_zero t
  funext a; apply Fin.ext
  match a with
  | ⟨0, _⟩ => show (j 0).val = win1_7.index t (0 : Fin 2) * 2048 + 1 * (j 0).val; omega
  | ⟨1, _⟩ => show (j 1).val = win1_7.index t (1 : Fin 2) * 1 + 1 * (j 1).val; omega

/-- Every index of the output array lies in the one point's block. -/
theorem mem_blk (t : Fin cfg1.N) (i : S2048x1.Idx) :
    i ∈ ((cfg1.win 7).blk t).view.set ↔ ∀ a : Fin 2, win1_7.index t a * S2048x1.size a ≤ (i a).val ∧ (i a).val < win1_7.index t a * S2048x1.size a + S2048x1.size a := by
  show i ∈ ((View.whole main_v5).slice (win1_7.rect t)).set ↔ _
  rw [View.set_slice_whole, Rect.mem_set_unit]
  exact Iff.rfl

/-- The one point writes back, and its block holds every index. -/
theorem covered (i : S2048x1.Idx) : ∃ t : Fin cfg1.N, (cfg1.win 7).flush t = true ∧ i ∈ ((cfg1.win 7).blk t).view.set := by
  refine ⟨t1_0, flush1_7 t1_0, ?_⟩
  rw [mem_blk]
  obtain ⟨-, -, -, -, -, -, -, -, -, -, -, -, -, -, e0, e1, -⟩ := idx_zero t1_0
  have h0 : (i 0).val < 2048 := (i 0).isLt
  have h1 : (i 1).val < 1 := (i 1).isLt
  intro a
  match a with
  | ⟨0, _⟩ => show win1_7.index t1_0 (0 : Fin 2) * 2048 ≤ (i 0).val ∧ (i 0).val < win1_7.index t1_0 (0 : Fin 2) * 2048 + 2048; omega
  | ⟨1, _⟩ => show win1_7.index t1_0 (1 : Fin 2) * 1 ≤ (i 1).val ∧ (i 1).val < win1_7.index t1_0 (1 : Fin 2) * 1 + 1; omega

/-- After the call the output array holds the stored value. -/
theorem arr_eq (c : Dev nD) : (dat1 (F := Ideal) V c).arrAt 7 cfg1.N = stored V c :=
  (dat1 (F := Ideal) V c).arrAt_eq_of_cover 7 (stored V c) (fun t _ => flushed_eq V c t) covered

/-- The array the layers' call leaves behind its output window, at segment `g`. -/
theorem mlp_final (c : Dev nD) (g : Fin 2048) :
    (dat1 (F := Ideal) V c).arrAt 7 cfg1.N (ix2 g (0 : Fin 1))
      = Cert.Spec.head (fun g d => V c main_v1 (ix2 g d)) (fun j d => V c main_arg2 (ix2 j d)) (fun j => V c main_v2 (ix2 (0 : Fin 1) j))
          (fun k j => V c main_arg4 (ix2 k j)) (fun k => V c main_v3 (ix2 (0 : Fin 1) k)) (fun k => V c main_arg6 (ix2 (0 : Fin 1) k))
          (V c main_v4 (ix2 (0 : Fin 1) (0 : Fin 1))) g := by
  refine (congrFun (arr_eq V c) (ix2 g (0 : Fin 1))).trans ?_
  exact MlpValue.mlp_at (V c main_v1) (V c main_arg2) (V c main_v2) (V c main_arg4) (V c main_v3) (V c main_arg6) (V c main_v4) g

end Cert.KernelIdeal.MlpArr

end
-- ==== Proof.RefValue.lean ====
/-
  The reference program's result, entry by entry, is `Spec.result` of its arguments.

  Its two accumulating scatters add each row (respectively the number one) to the segment its word names and drop the
  rows whose word names none: the segment sum and count of `Spec`. An update row `n` lands on operand row
  `start + window`, the start being row `n`'s word read as a signed integer; it lands on row `g < 2048` exactly when
  that integer is `g`, that is when the word is `g`'s 32-bit pattern, and otherwise on another row or outside the
  operand. So the filtered sum of a scatter is the sum over all rows of the indicator `Spec.hot` times the update. The
  rest is the three layers, each matrix product a sum over the contracted axis.
-/
import proofs.«426081_j76639396429977_2_alg».proof.Proof.Gen.ReferenceIdeal.Run
import proofs.«426081_j76639396429977_2_alg».proof.Proof.Gen.ReferenceIdeal.Read
import proofs.«426081_j76639396429977_2_alg».proof.Proof.Spec
import Idealize.ShloMosaic.Lib.IdealHost
import Idealize.ShloMosaic.Lib.StableHlo.Predicate

noncomputable section

open scoped BigOperators

namespace Cert.RefValue

open Idealize.ShloMosaic Idealize.ShloMosaic.ValueIdx Cert.ReferenceIdeal Cert.ReferenceIdeal.Read

/-! ## Words and rank-one sums -/

/-- A word reads, signed, as the segment number `g < 2048` exactly when it is `g`'s 32-bit pattern. -/
theorem toInt_eq_iff (b : BitVec 32) (g : Fin 2048) : b.toInt = (g.val : Int) ↔ b = BitVec.ofNat 32 g.val := by
  have hg : g.val < 2 ^ 31 := lt_trans g.isLt (by norm_num)
  rw [← StableHlo.Predicate.toInt_ofNat_small g.val hg]
  exact BitVec.toInt_inj

/-- A rank-one index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) :=
  (Fintype.sum_equiv ⟨fun a => ix1 a, fun i => i 0, fun _ => rfl, fun i => (eq_ix1 i).symm⟩ _ _ fun _ => rfl).symm

/-! ## The scatter of the rows: where update `(n, e)` lands -/

/-- Update `j` reads its start index at row `j 0` of the index column. -/
theorem siIdx2 (j : S131072x1536.Idx) (c : Fin scatter_S2048x1536_S131072x1_S131072x1536_1_0_0_1.scatterDimsToOperandDims.length) :
    scatter_S2048x1536_S131072x1_S131072x1536_1_0_0_1.siIdx j c = ix2 (j 0) (0 : Fin 1) := by
  funext b
  match b with
  | ⟨0, _⟩ => rfl
  | ⟨1, _⟩ => exact Fin.ext (by
      have hc : c.val < 1 := c.isLt
      show c.val = 0
      omega)

/-- On the segment axis the window starts at the row's word read signed. -/
theorem start2_0 (j : S131072x1536.Idx) (idx : IVec S131072x1 32) :
    scatter_S2048x1536_S131072x1_S131072x1536_1_0_0_1.start j idx 0 = (idx (ix2 (j 0) (0 : Fin 1))).toInt := by
  unfold ScatterDims.start
  rw [dif_pos (show (0 : Fin S2048x1536.rank) ∈ scatter_S2048x1536_S131072x1_S131072x1536_1_0_0_1.scatterDimsToOperandDims by decide)]
  rw [siIdx2]
  rfl

/-- On the feature axis the window starts at zero. -/
theorem start2_1 (j : S131072x1536.Idx) (idx : IVec S131072x1 32) :
    scatter_S2048x1536_S131072x1_S131072x1536_1_0_0_1.start j idx 1 = 0 := by
  unfold ScatterDims.start
  rw [dif_neg (show ¬ (1 : Fin S2048x1536.rank) ∈ scatter_S2048x1536_S131072x1_S131072x1536_1_0_0_1.scatterDimsToOperandDims by decide)]

/-- The segment axis is inserted: no window coordinate there. -/
theorem window2_0 (j : S131072x1536.Idx) :
    scatter_S2048x1536_S131072x1_S131072x1536_1_0_0_1.window j 0 = 0 := by
  unfold ScatterDims.window
  rw [dif_neg (show ¬ (0 : Fin S2048x1536.rank) ∈ scatter_S2048x1536_S131072x1_S131072x1536_1_0_0_1.sKept by decide)]

/-- On the feature axis the window coordinate is the update's own feature coordinate. -/
theorem window2_1 (j : S131072x1536.Idx) :
    scatter_S2048x1536_S131072x1_S131072x1536_1_0_0_1.window j 1 = (j 1).val := by
  unfold ScatterDims.window
  rw [dif_pos (show (1 : Fin S2048x1536.rank) ∈ scatter_S2048x1536_S131072x1_S131072x1536_1_0_0_1.sKept by decide)]
  rfl

/-- Update `(n, e)` lands on `(g, d)` exactly when row `n`'s word is `g`'s pattern and `e = d`. -/
theorem resultIdx2_iff (n : Fin 131072) (e : Fin 1536) (idx : IVec S131072x1 32) (g : Fin 2048) (d : Fin 1536) :
    scatter_S2048x1536_S131072x1_S131072x1536_1_0_0_1.resultIdx? (ix2 n e) idx = some (ix2 g d)
      ↔ idx (ix2 n (0 : Fin 1)) = BitVec.ofNat 32 g.val ∧ e = d := by
  rw [← toInt_eq_iff]
  unfold ScatterDims.resultIdx?
  constructor
  · intro H
    by_cases hc : ∀ a, 0 ≤ scatter_S2048x1536_S131072x1_S131072x1536_1_0_0_1.start (ix2 n e) idx a + scatter_S2048x1536_S131072x1_S131072x1536_1_0_0_1.window (ix2 n e) a ∧ scatter_S2048x1536_S131072x1_S131072x1536_1_0_0_1.start (ix2 n e) idx a + scatter_S2048x1536_S131072x1_S131072x1536_1_0_0_1.window (ix2 n e) a < S2048x1536.size a
    · rw [dif_pos hc] at H
      have H' := Option.some.inj H
      have h0 : (scatter_S2048x1536_S131072x1_S131072x1536_1_0_0_1.start (ix2 n e) idx 0 + scatter_S2048x1536_S131072x1_S131072x1536_1_0_0_1.window (ix2 n e) 0).toNat = g.val :=
        congrArg (fun f => (f 0).val) H'
      have h1 : (scatter_S2048x1536_S131072x1_S131072x1536_1_0_0_1.start (ix2 n e) idx 1 + scatter_S2048x1536_S131072x1_S131072x1536_1_0_0_1.window (ix2 n e) 1).toNat = d.val :=
        congrArg (fun f => (f 1).val) H'
      have c0 : 0 ≤ scatter_S2048x1536_S131072x1_S131072x1536_1_0_0_1.start (ix2 n e) idx 0 + scatter_S2048x1536_S131072x1_S131072x1536_1_0_0_1.window (ix2 n e) 0 := (hc 0).1
      rw [start2_0, window2_0] at h0 c0
      rw [start2_1, window2_1] at h1
      have e0 : ((ix2 n e : S131072x1536.Idx) 0) = n := rfl
      have e1 : ((ix2 n e : S131072x1536.Idx) 1).val = e.val := rfl
      rw [e0] at h0 c0
      exact ⟨by omega, Fin.ext (by omega)⟩
    · rw [dif_neg hc] at H; cases H
  · rintro ⟨h0, rfl⟩
    have hc : ∀ a, 0 ≤ scatter_S2048x1536_S131072x1_S131072x1536_1_0_0_1.start (ix2 n e) idx a + scatter_S2048x1536_S131072x1_S131072x1536_1_0_0_1.window (ix2 n e) a ∧ scatter_S2048x1536_S131072x1_S131072x1536_1_0_0_1.start (ix2 n e) idx a + scatter_S2048x1536_S131072x1_S131072x1536_1_0_0_1.window (ix2 n e) a < S2048x1536.size a := by
      intro a
      match a with
      | ⟨0, _⟩ =>
        show 0 ≤ scatter_S2048x1536_S131072x1_S131072x1536_1_0_0_1.start (ix2 n e) idx 0 + scatter_S2048x1536_S131072x1_S131072x1536_1_0_0_1.window (ix2 n e) 0 ∧ scatter_S2048x1536_S131072x1_S131072x1536_1_0_0_1.start (ix2 n e) idx 0 + scatter_S2048x1536_S131072x1_S131072x1536_1_0_0_1.window (ix2 n e) 0 < ((2048 : ℕ) : Int)
        rw [start2_0, window2_0]
        have : ((ix2 n e : S131072x1536.Idx) 0) = n := rfl
        rw [this, h0]
        have := g.isLt
        omega
      | ⟨1, _⟩ =>
        show 0 ≤ scatter_S2048x1536_S131072x1_S131072x1536_1_0_0_1.start (ix2 n e) idx 1 + scatter_S2048x1536_S131072x1_S131072x1536_1_0_0_1.window (ix2 n e) 1 ∧ scatter_S2048x1536_S131072x1_S131072x1536_1_0_0_1.start (ix2 n e) idx 1 + scatter_S2048x1536_S131072x1_S131072x1536_1_0_0_1.window (ix2 n e) 1 < ((1536 : ℕ) : Int)
        rw [start2_1, window2_1]
        have : ((ix2 n e : S131072x1536.Idx) 1).val = e.val := rfl
        have := e.isLt
        omega
    rw [dif_pos hc]
    congr 1
    funext a
    match a with
    | ⟨0, _⟩ =>
      refine Fin.ext ?_
      show (scatter_S2048x1536_S131072x1_S131072x1536_1_0_0_1.start (ix2 n e) idx 0 + scatter_S2048x1536_S131072x1_S131072x1536_1_0_0_1.window (ix2 n e) 0).toNat = g.val
      rw [start2_0, window2_0]
      have : ((ix2 n e : S131072x1536.Idx) 0) = n := rfl
      rw [this, h0]
      omega
    | ⟨1, _⟩ =>
      refine Fin.ext ?_
      show (scatter_S2048x1536_S131072x1_S131072x1536_1_0_0_1.start (ix2 n e) idx 1 + scatter_S2048x1536_S131072x1_S131072x1536_1_0_0_1.window (ix2 n e) 1).toNat = e.val
      rw [start2_1, window2_1]
      have : ((ix2 n e : S131072x1536.Idx) 1).val = e.val := rfl
      omega

/-- The index column at row `n` is the segment vector at `n`. -/
theorem idx_v1_at (n : Fin 131072) : idx_main_v1 (ix2 n (0 : Fin 1)) = ix1 n :=
  funext fun a => Fin.ext (by match a with | ⟨0, _⟩ => rfl)

/-- The scattered rows at `(g, d)`: zero plus the updates landing there, which is the segment sum. -/
theorem sums_at (x0 : (⟨S131072x1536, .f32⟩ : BufTy).Contents (Elt Ideal)) (x1 : (⟨S131072, .i32⟩ : BufTy).Contents (Elt Ideal))
    (g : Fin 2048) (d : Fin 1536) :
    val_main_v2 (F := Ideal) x0 x1 (ix2 g d)
      = Cert.Spec.segSum (fun n d => x0 (ix2 n d)) (fun n => x1 (ix1 n)) g d := by
  unfold val_main_v2 Cert.Spec.segSum
  show Ideal.hostScatterAdd _ (val_main_v0 (F := Ideal)) (val_main_v1 (F := Ideal) x1) x0 (ix2 g d) = _
  unfold Ideal.hostScatterAdd
  rw [val_main_v0_apply, val_main_cst_apply, Ideal.ofBits_def, Ideal.ofBits_zero_f32, zero_add, Finset.sum_filter, sum_idx2]
  refine Finset.sum_congr rfl fun n _ => ?_
  simp only [resultIdx2_iff, val_main_v1_apply, idx_v1_at]
  unfold Cert.Spec.hot
  by_cases h : x1 (ix1 n) = BitVec.ofNat 32 g.val
  · simp only [h, true_and, if_true, one_mul, Finset.sum_ite_eq', Finset.mem_univ]
  · simp only [h, false_and, if_false, zero_mul, Finset.sum_const_zero]

/-! ## The scatter of the ones: where update `n` lands -/

/-- Update `j` reads its start index at row `j 0` of the index column. -/
theorem siIdx1 (j : S131072.Idx) (c : Fin scatter_S2048_S131072x1_S131072_n_0_0_1.scatterDimsToOperandDims.length) :
    scatter_S2048_S131072x1_S131072_n_0_0_1.siIdx j c = ix2 (j 0) (0 : Fin 1) := by
  funext b
  match b with
  | ⟨0, _⟩ => rfl
  | ⟨1, _⟩ => exact Fin.ext (by
      have hc : c.val < 1 := c.isLt
      show c.val = 0
      omega)

/-- The window starts at the row's word read signed. -/
theorem start1_0 (j : S131072.Idx) (idx : IVec S131072x1 32) :
    scatter_S2048_S131072x1_S131072_n_0_0_1.start j idx 0 = (idx (ix2 (j 0) (0 : Fin 1))).toInt := by
  unfold ScatterDims.start
  rw [dif_pos (show (0 : Fin S2048.rank) ∈ scatter_S2048_S131072x1_S131072_n_0_0_1.scatterDimsToOperandDims by decide)]
  rw [siIdx1]
  rfl

/-- The one operand axis is inserted: no window coordinate. -/
theorem window1_0 (j : S131072.Idx) :
    scatter_S2048_S131072x1_S131072_n_0_0_1.window j 0 = 0 := by
  unfold ScatterDims.window
  rw [dif_neg (show ¬ (0 : Fin S2048.rank) ∈ scatter_S2048_S131072x1_S131072_n_0_0_1.sKept by decide)]

/-- Update `n` lands on `g` exactly when row `n`'s word is `g`'s pattern. -/
theorem resultIdx1_iff (n : Fin 131072) (idx : IVec S131072x1 32) (g : Fin 2048) :
    scatter_S2048_S131072x1_S131072_n_0_0_1.resultIdx? (ix1 n) idx = some (ix1 g)
      ↔ idx (ix2 n (0 : Fin 1)) = BitVec.ofNat 32 g.val := by
  rw [← toInt_eq_iff]
  unfold ScatterDims.resultIdx?
  have e0 : ((ix1 n : S131072.Idx) 0) = n := rfl
  constructor
  · intro H
    by_cases hc : ∀ a, 0 ≤ scatter_S2048_S131072x1_S131072_n_0_0_1.start (ix1 n) idx a + scatter_S2048_S131072x1_S131072_n_0_0_1.window (ix1 n) a ∧ scatter_S2048_S131072x1_S131072_n_0_0_1.start (ix1 n) idx a + scatter_S2048_S131072x1_S131072_n_0_0_1.window (ix1 n) a < S2048.size a
    · rw [dif_pos hc] at H
      have H' := Option.some.inj H
      have h0 : (scatter_S2048_S131072x1_S131072_n_0_0_1.start (ix1 n) idx 0 + scatter_S2048_S131072x1_S131072_n_0_0_1.window (ix1 n) 0).toNat = g.val :=
        congrArg (fun f => (f 0).val) H'
      have c0 : 0 ≤ scatter_S2048_S131072x1_S131072_n_0_0_1.start (ix1 n) idx 0 + scatter_S2048_S131072x1_S131072_n_0_0_1.window (ix1 n) 0 := (hc 0).1
      rw [start1_0, window1_0, e0] at h0 c0
      omega
    · rw [dif_neg hc] at H; cases H
  · intro h0
    have hc : ∀ a, 0 ≤ scatter_S2048_S131072x1_S131072_n_0_0_1.start (ix1 n) idx a + scatter_S2048_S131072x1_S131072_n_0_0_1.window (ix1 n) a ∧ scatter_S2048_S131072x1_S131072_n_0_0_1.start (ix1 n) idx a + scatter_S2048_S131072x1_S131072_n_0_0_1.window (ix1 n) a < S2048.size a := by
      intro a
      match a with
      | ⟨0, _⟩ =>
        show 0 ≤ scatter_S2048_S131072x1_S131072_n_0_0_1.start (ix1 n) idx 0 + scatter_S2048_S131072x1_S131072_n_0_0_1.window (ix1 n) 0 ∧ scatter_S2048_S131072x1_S131072_n_0_0_1.start (ix1 n) idx 0 + scatter_S2048_S131072x1_S131072_n_0_0_1.window (ix1 n) 0 < ((2048 : ℕ) : Int)
        rw [start1_0, window1_0, e0, h0]
        have := g.isLt
        omega
    rw [dif_pos hc]
    congr 1
    funext a
    match a with
    | ⟨0, _⟩ =>
      refine Fin.ext ?_
      show (scatter_S2048_S131072x1_S131072_n_0_0_1.start (ix1 n) idx 0 + scatter_S2048_S131072x1_S131072_n_0_0_1.window (ix1 n) 0).toNat = g.val
      rw [start1_0, window1_0, e0, h0]
      omega

/-- The index column at row `n` is the segment vector at `n`. -/
theorem idx_v5_at (n : Fin 131072) : idx_main_v5 (ix2 n (0 : Fin 1)) = ix1 n :=
  funext fun a => Fin.ext (by match a with | ⟨0, _⟩ => rfl)

/-- The scattered ones at `g`: zero plus one for every row landing there, which is the segment count. -/
theorem cnt_at (x1 : (⟨S131072, .i32⟩ : BufTy).Contents (Elt Ideal)) (g : Fin 2048) :
    val_main_v6 (F := Ideal) x1 (ix1 g) = Cert.Spec.segCnt (fun n => x1 (ix1 n)) g := by
  unfold val_main_v6 Cert.Spec.segCnt
  show Ideal.hostScatterAdd _ (val_main_v4 (F := Ideal)) (val_main_v5 (F := Ideal) x1) (val_main_v3 (F := Ideal)) (ix1 g) = _
  unfold Ideal.hostScatterAdd
  rw [val_main_v4_apply, val_main_cst_1_apply, Ideal.ofBits_def, Ideal.ofBits_zero_f32, zero_add, Finset.sum_filter, sum_idx1]
  refine Finset.sum_congr rfl fun n _ => ?_
  simp only [resultIdx1_iff, val_main_v5_apply, val_main_v3_apply, val_main_cst_0_apply, Ideal.ofBits_def, Ideal.ofBits_one_f32, idx_v5_at, Cert.Spec.hot]

/-! ## The mean and the three layers -/

/-- The quotient of the scattered rows by the counts floored at one is the pooled mean. -/
theorem pooled_at (x0 : (⟨S131072x1536, .f32⟩ : BufTy).Contents (Elt Ideal)) (x1 : (⟨S131072, .i32⟩ : BufTy).Contents (Elt Ideal))
    (g : Fin 2048) (d : Fin 1536) :
    val_main_v11 (F := Ideal) x0 x1 (ix2 g d)
      = Cert.Spec.pooled (fun n d => x0 (ix2 n d)) (fun n => x1 (ix1 n)) g d := by
  have e : idx_main_v9 (idx_main_v10 (ix2 g d)) = ix1 g :=
    funext fun a => Fin.ext (by match a with | ⟨0, _⟩ => rfl)
  rw [val_main_v11_apply, val_main_v10_apply, val_main_v9_apply, val_main_v8_apply, val_main_v7_apply, val_main_cst_2_apply,
    e, sums_at, cnt_at]
  simp only [Ideal.hostDivf_def, Ideal.maximumf_def, Ideal.ofBits_def, Ideal.ofBits_one_f32]
  rfl

/-- First layer: the product with the transposed weights is the sum over the 1536 features; bias added, maximum with zero. -/
theorem layer1_at (x0 : (⟨S131072x1536, .f32⟩ : BufTy).Contents (Elt Ideal)) (x1 : (⟨S131072, .i32⟩ : BufTy).Contents (Elt Ideal))
    (x2 : (⟨S64x1536, .f32⟩ : BufTy).Contents (Elt Ideal)) (x3 : (⟨S64, .f32⟩ : BufTy).Contents (Elt Ideal))
    (g : Fin 2048) (j : Fin 64) :
    val_main_v17 (F := Ideal) x0 x1 x2 x3 (ix2 g j)
      = Cert.Spec.layer1 (Cert.Spec.pooled (fun n d => x0 (ix2 n d)) (fun n => x1 (ix1 n)))
          (fun j d => x2 (ix2 j d)) (fun j => x3 (ix1 j)) g j := by
  have el : ∀ k : Fin 1536, lidx_main_v13 (ix2 g j) k = ix2 g k := fun k =>
    funext fun a => Fin.ext (by match a with | ⟨0, _⟩ => rfl | ⟨1, _⟩ => rfl)
  have er : ∀ k : Fin 1536, idx_main_v12 (ridx_main_v13 (ix2 g j) k) = ix2 j k := fun k =>
    funext fun a => Fin.ext (by match a with | ⟨0, _⟩ => rfl | ⟨1, _⟩ => rfl)
  have eb : idx_main_v14 (idx_main_v15 (ix2 g j)) = ix1 j :=
    funext fun a => Fin.ext (by match a with | ⟨0, _⟩ => rfl)
  rw [val_main_v17_apply, val_main_v16_apply, val_main_v13_apply, val_main_v15_apply, val_main_v14_apply,
    val_main_call0_v0_apply, val_main_call0_cst_apply, eb]
  simp only [el, er, pooled_at, val_main_v12_apply, Ideal.maximumf_def, Ideal.addf_def, Ideal.ofBits_def, Ideal.ofBits_zero_f32]
  rfl

/-- Second layer: the sum over the 64 hidden units, bias added, maximum with zero. -/
theorem layer2_at (x0 : (⟨S131072x1536, .f32⟩ : BufTy).Contents (Elt Ideal)) (x1 : (⟨S131072, .i32⟩ : BufTy).Contents (Elt Ideal))
    (x2 : (⟨S64x1536, .f32⟩ : BufTy).Contents (Elt Ideal)) (x3 : (⟨S64, .f32⟩ : BufTy).Contents (Elt Ideal))
    (x4 : (⟨S32x64, .f32⟩ : BufTy).Contents (Elt Ideal)) (x5 : (⟨S32, .f32⟩ : BufTy).Contents (Elt Ideal))
    (g : Fin 2048) (k : Fin 32) :
    val_main_v23 (F := Ideal) x0 x1 x2 x3 x4 x5 (ix2 g k)
      = Cert.Spec.layer2 (Cert.Spec.layer1 (Cert.Spec.pooled (fun n d => x0 (ix2 n d)) (fun n => x1 (ix1 n)))
          (fun j d => x2 (ix2 j d)) (fun j => x3 (ix1 j))) (fun k j => x4 (ix2 k j)) (fun k => x5 (ix1 k)) g k := by
  have el : ∀ j : Fin 64, lidx_main_v19 (ix2 g k) j = ix2 g j := fun j =>
    funext fun a => Fin.ext (by match a with | ⟨0, _⟩ => rfl | ⟨1, _⟩ => rfl)
  have er : ∀ j : Fin 64, idx_main_v18 (ridx_main_v19 (ix2 g k) j) = ix2 k j := fun j =>
    funext fun a => Fin.ext (by match a with | ⟨0, _⟩ => rfl | ⟨1, _⟩ => rfl)
  have eb : idx_main_v20 (idx_main_v21 (ix2 g k)) = ix1 k :=
    funext fun a => Fin.ext (by match a with | ⟨0, _⟩ => rfl)
  rw [val_main_v23_apply, val_main_v22_apply, val_main_v19_apply, val_main_v21_apply, val_main_v20_apply,
    val_main_call1_v0_apply, val_main_call1_cst_apply, eb]
  simp only [el, er, layer1_at, val_main_v18_apply, Ideal.maximumf_def, Ideal.addf_def, Ideal.ofBits_def, Ideal.ofBits_zero_f32]
  rfl

/-- Third layer: the sum over the 32 hidden units, bias added; one output per segment. -/
theorem layer3_at (x0 : (⟨S131072x1536, .f32⟩ : BufTy).Contents (Elt Ideal)) (x1 : (⟨S131072, .i32⟩ : BufTy).Contents (Elt Ideal))
    (x2 : (⟨S64x1536, .f32⟩ : BufTy).Contents (Elt Ideal)) (x3 : (⟨S64, .f32⟩ : BufTy).Contents (Elt Ideal))
    (x4 : (⟨S32x64, .f32⟩ : BufTy).Contents (Elt Ideal)) (x5 : (⟨S32, .f32⟩ : BufTy).Contents (Elt Ideal))
    (x6 : (⟨S1x32, .f32⟩ : BufTy).Contents (Elt Ideal)) (x7 : (⟨S1, .f32⟩ : BufTy).Contents (Elt Ideal)) (g : Fin 2048) :
    val_main_v28 (F := Ideal) x0 x1 x2 x3 x4 x5 x6 x7 (ix2 g (0 : Fin 1))
      = Cert.Spec.layer3 (Cert.Spec.layer2 (Cert.Spec.layer1 (Cert.Spec.pooled (fun n d => x0 (ix2 n d)) (fun n => x1 (ix1 n)))
          (fun j d => x2 (ix2 j d)) (fun j => x3 (ix1 j))) (fun k j => x4 (ix2 k j)) (fun k => x5 (ix1 k)))
          (fun k => x6 (ix2 (0 : Fin 1) k)) (x7 (ix1 (0 : Fin 1))) g := by
  have el : ∀ k : Fin 32, lidx_main_v25 (ix2 g (0 : Fin 1)) k = ix2 g k := fun k =>
    funext fun a => Fin.ext (by match a with | ⟨0, _⟩ => rfl | ⟨1, _⟩ => rfl)
  have er : ∀ k : Fin 32, idx_main_v24 (ridx_main_v25 (ix2 g (0 : Fin 1)) k) = ix2 (0 : Fin 1) k := fun k =>
    funext fun a => Fin.ext (by match a with | ⟨0, _⟩ => rfl | ⟨1, _⟩ => rfl)
  have eb : idx_main_v26 (idx_main_v27 (ix2 g (0 : Fin 1))) = ix1 (0 : Fin 1) :=
    funext fun a => Fin.ext (by match a with | ⟨0, _⟩ => rfl)
  rw [val_main_v28_apply, val_main_v25_apply, val_main_v27_apply, val_main_v26_apply, eb]
  simp only [el, er, layer2_at, val_main_v24_apply, Ideal.addf_def]
  rfl

/-- The reference's last stage at segment `g` is the specification's result of the argument arrays. -/
theorem ref_result (x0 : (⟨S131072x1536, .f32⟩ : BufTy).Contents (Elt Ideal)) (x1 : (⟨S131072, .i32⟩ : BufTy).Contents (Elt Ideal))
    (x2 : (⟨S64x1536, .f32⟩ : BufTy).Contents (Elt Ideal)) (x3 : (⟨S64, .f32⟩ : BufTy).Contents (Elt Ideal))
    (x4 : (⟨S32x64, .f32⟩ : BufTy).Contents (Elt Ideal)) (x5 : (⟨S32, .f32⟩ : BufTy).Contents (Elt Ideal))
    (x6 : (⟨S1x32, .f32⟩ : BufTy).Contents (Elt Ideal)) (x7 : (⟨S1, .f32⟩ : BufTy).Contents (Elt Ideal)) (g : Fin 2048) :
    val_main_v29 (F := Ideal) x0 x1 x2 x3 x4 x5 x6 x7 (ix1 g)
      = Cert.Spec.result (fun n d => x0 (ix2 n d)) (fun n => x1 (ix1 n)) (fun j d => x2 (ix2 j d)) (fun j => x3 (ix1 j))
          (fun k j => x4 (ix2 k j)) (fun k => x5 (ix1 k)) (fun k => x6 (ix2 (0 : Fin 1) k)) (x7 (ix1 (0 : Fin 1))) g := by
  have e : idx_main_v29 (ix1 g) = ix2 g (0 : Fin 1) :=
    funext fun a => Fin.ext (by
      match a with
      | ⟨0, _⟩ => exact Nat.div_one g.val
      | ⟨1, _⟩ => rfl)
  rw [val_main_v29_apply, e, layer3_at]
  rfl

end Cert.RefValue

end
-- ==== Proof.lean ====
/-
  The certificate of the segment-pooling classifier kernel against its reference.

  Both programs compute, for each of 2048 segments, the mean of the feature rows whose segment word is the segment's
  number (an empty segment gives zero; a word naming no segment drops its row), and pass it through three affine
  layers, the first two followed by a maximum with zero (`Spec.result`). The kernel pools with a one-hot matrix product
  accumulated over 1024 row tiles, counting rows in 128 identical columns that are summed and scaled by 1/128 at the
  end; the reference adds each row to its segment directly. Over the extended reals the two are the same sums in
  another order, and the layers are the same products: no finiteness of the inputs is needed.

  The three frames: the kernel program's two calls run as pipeline regions between stretches of host operations
  (`Fr.run_all`, at both float instances), the reference is its own run. The ideal pass rewrote nothing. The values:
  `Glue.kernel_result` from what each call leaves (`PoolValue.pool_final`, `MlpArr.mlp_final`), `RefValue.ref_result`.
-/
import proofs.«426081_j76639396429977_2_alg».proof.Defs
import proofs.«426081_j76639396429977_2_alg».proof.Proof.Gen.Kernel
import proofs.«426081_j76639396429977_2_alg».proof.Proof.Gen.KernelIdeal
import proofs.«426081_j76639396429977_2_alg».proof.Proof.Gen.ReferenceIdeal
import proofs.«426081_j76639396429977_2_alg».proof.Proof.Gen.Pre_finite_inputs
import proofs.«426081_j76639396429977_2_alg».proof.Proof.Gen.ReferenceIdeal.Run
import proofs.«426081_j76639396429977_2_alg».proof.Proof.Gen.ReferenceIdeal.Read
import proofs.«426081_j76639396429977_2_alg».proof.Proof.K.Run
import proofs.«426081_j76639396429977_2_alg».proof.Proof.KI.Run
import proofs.«426081_j76639396429977_2_alg».proof.Proof.KernelValue
import proofs.«426081_j76639396429977_2_alg».proof.Proof.PoolValue
import proofs.«426081_j76639396429977_2_alg».proof.Proof.MlpArr
import proofs.«426081_j76639396429977_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : @Cert.frame_Kernel Cert.Kernel.Gen.facts Cert.Pre_finite_inputs.Gen.facts :=
  fun m ρ _ => Cert.Kernel.Fr.frame m ρ

theorem frame_pi : @Cert.frame_KernelIdeal Cert.KernelIdeal.Gen.facts Cert.Pre_finite_inputs.Gen.facts :=
  fun m ρ _ => Cert.KernelIdeal.Fr.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The two idealized programs, run from memories agreeing on the arguments, end with equal results: each side's
    result at segment `g` is `Spec.result` of the argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Fr.W5 m c (Proc.devRef .tc Cert.KernelIdeal.main_v6), ?_, ?_⟩
  · exact (θ_run Cert.KernelIdeal.defs _ _).mono (fun _ h c => ⟨
      h c _ (Cert.KernelIdeal.Fr.mem_uc Cert.KernelIdeal.main_v6 (by decide)),
      (h c _ (Cert.KernelIdeal.Fr.mem_uc Cert.KernelIdeal.main_arg0 (by decide))).trans (Cert.KernelIdeal.Fr.W5_main_arg0 m c),
      (h c _ (Cert.KernelIdeal.Fr.mem_uc Cert.KernelIdeal.main_arg1 (by decide))).trans (Cert.KernelIdeal.Fr.W5_main_arg1 m c),
      (h c _ (Cert.KernelIdeal.Fr.mem_uc Cert.KernelIdeal.main_arg2 (by decide))).trans (Cert.KernelIdeal.Fr.W5_main_arg2 m c),
      (h c _ (Cert.KernelIdeal.Fr.mem_uc Cert.KernelIdeal.main_arg3 (by decide))).trans (Cert.KernelIdeal.Fr.W5_main_arg3 m c),
      (h c _ (Cert.KernelIdeal.Fr.mem_uc Cert.KernelIdeal.main_arg4 (by decide))).trans (Cert.KernelIdeal.Fr.W5_main_arg4 m c),
      (h c _ (Cert.KernelIdeal.Fr.mem_uc Cert.KernelIdeal.main_arg5 (by decide))).trans (Cert.KernelIdeal.Fr.W5_main_arg5 m c),
      (h c _ (Cert.KernelIdeal.Fr.mem_uc Cert.KernelIdeal.main_arg6 (by decide))).trans (Cert.KernelIdeal.Fr.W5_main_arg6 m c),
      (h c _ (Cert.KernelIdeal.Fr.mem_uc Cert.KernelIdeal.main_arg7 (by decide))).trans (Cert.KernelIdeal.Fr.W5_main_arg7 m c)⟩)
      (Cert.KernelIdeal.Fr.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq]
    funext i
    obtain ⟨g, rfl⟩ : ∃ g : Fin 2048, i = ix1 g := ⟨i 0, eq_ix1 i⟩
    rw [Cert.RefValue.ref_result]
    show _ = Cert.KernelIdeal.Fr.W5 m c (Proc.devRef .tc Cert.KernelIdeal.main_v6) (ix1 g)
    rw [Cert.KernelIdeal.Glue.kernel_result m Cert.KernelIdeal.PoolValue.pool_final Cert.KernelIdeal.MlpArr.mlp_final c g,
      (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
